-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x16x32 : Shape := ⟨3, ![65536, 16, 32]⟩
abbrev S32x32 : Shape := ⟨2, ![32, 32]⟩
abbrev S32 : Shape := ⟨1, ![32]⟩
abbrev S48x512 : Shape := ⟨2, ![48, 512]⟩
abbrev S48 : Shape := ⟨1, ![48]⟩
abbrev S3x48 : Shape := ⟨2, ![3, 48]⟩
abbrev S3 : Shape := ⟨1, ![3]⟩
abbrev S_ : Shape := ⟨0, ![]⟩

class Facts : Prop where
  bcast_S_S65536x16x32 : S_.BroadcastsInDim S65536x16x32 (![] : Fin 0 → Fin S65536x16x32.rank)
  reducesTo_S65536x16x32_S_d0_1_2 : S65536x16x32.ReducesTo [0, 1, 2] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S48x512 : S_.BroadcastsInDim S48x512 (![] : Fin 0 → Fin S48x512.rank)
  reducesTo_S48x512_S_d0_1 : S48x512.ReducesTo [0, 1] S_
  bcast_S_S48 : S_.BroadcastsInDim S48 (![] : Fin 0 → Fin S48.rank)
  reducesTo_S48_S_d0 : S48.ReducesTo [0] S_
  bcast_S_S3x48 : S_.BroadcastsInDim S3x48 (![] : Fin 0 → Fin S3x48.rank)
  reducesTo_S3x48_S_d0_1 : S3x48.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_arg11 : FVec F S3 .f32) (main_v48 : IVec S_ 1) (main_v49 : FVec F S3x48 .f32) (main_v50 : FVec F S3x48 .f32) : IVec S_ 1 :=
  let main_v51 : IVec S3x48 1 := cmpf .olt main_v49 main_v50
  let main_c_19 : IVec S_ 1 := constantI S_ 1 1#1
  let main_v52 : IVec S_ 1 := (fun x v => Host.reduce IntOp.andi x v reducesTo_S3x48_S_d0_1 h_S_) main_v51 main_c_19
  let main_v53 : IVec S_ 1 := andi main_v48 main_v52
  let main_v54 : FVec F S3 .f32 := Host.absf main_arg11
  let main_cst_20 : FVec F S_ .f32 := constant S_ .f32 0x7F800000#32
  let main_v55 : FVec F S3 .f32 := broadcastInDim S3 ![] bcast_S_S3 main_cst_20
  let main_v56 : IVec S3 1 := cmpf .olt main_v54 main_v55
  let main_c_21 : IVec S_ 1 := constantI S_ 1 1#1
  let main_v57 : IVec S_ 1 := (fun x v => Host.reduce IntOp.andi x v reducesTo_S3_S_d0 h_S_) main_v56 main_c_21
  let main_v58 : IVec S_ 1 := andi main_v53 main_v57
  main_v58

def fn_part2 {F : FTy → Type} [FloatOps F] (main_arg7 : FVec F S32 .f32) (main_arg8 : FVec F S48x512 .f32) (main_arg9 : FVec F S48 .f32) (main_arg10 : FVec F S3x48 .f32) (main_arg11 : FVec F S3 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S48x512 .f32 := Host.absf main_arg8
  let main_cst_14 : FVec F S_ .f32 := constant S_ .f32 0x7F800000#32
  let main_v40 : FVec F S48x512 .f32 := broadcastInDim S48x512 ![] bcast_S_S48x512 main_cst_14
  let main_v41 : IVec S48x512 1 := cmpf .olt main_v39 main_v40
  let main_c_15 : IVec S_ 1 := constantI S_ 1 1#1
  let main_v42 : IVec S_ 1 := (fun x v => Host.reduce IntOp.andi x v reducesTo_S48x512_S_d0_1 h_S_) main_v41 main_c_15
  let main_v43 : IVec S_ 1 := andi main_v38 main_v42
  let main_v44 : FVec F S48 .f32 := Host.absf main_arg9
  let main_cst_16 : FVec F S_ .f32 := constant S_ .f32 0x7F800000#32
  let main_v45 : FVec F S48 .f32 := broadcastInDim S48 ![] bcast_S_S48 main_cst_16
  let main_v46 : IVec S48 1 := cmpf .olt main_v44 main_v45
  let main_c_17 : IVec S_ 1 := constantI S_ 1 1#1
  let main_v47 : IVec S_ 1 := (fun x v => Host.reduce IntOp.andi x v reducesTo_S48_S_d0 h_S_) main_v46 main_c_17
  let main_v48 : IVec S_ 1 := andi main_v43 main_v47
  let main_v49 : FVec F S3x48 .f32 := Host.absf main_arg10
  let main_cst_18 : FVec F S_ .f32 := constant S_ .f32 0x7F800000#32
  let main_v50 : FVec F S3x48 .f32 := broadcastInDim S3x48 ![] bcast_S_S3x48 main_cst_18
  fn_part3 (F := F) main_arg11 main_v48 main_v49 main_v50

def fn_part1 {F : FTy → Type} [FloatOps F] (main_arg4 : FVec F S32x32 .f32) (main_arg5 : FVec F S32 .f32) (main_arg6 : FVec F S32x32 .f32) (main_arg7 : FVec F S32 .f32) (main_arg8 : FVec F S48x512 .f32) (main_arg9 : FVec F S48 .f32) (main_arg10 : FVec F S3x48 .f32) (main_arg11 : FVec F S3 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S65536x16x32 .f32) (main_arg1 : FVec F S65536x16x32 .f32) (main_arg2 : FVec F S32x32 .f32) (main_arg3 : FVec F S32 .f32) (main_arg4 : FVec F S32x32 .f32) (main_arg5 : FVec F S32 .f32) (main_arg6 : FVec F S32x32 .f32) (main_arg7 : FVec F S32 .f32) (main_arg8 : FVec F S48x512 .f32) (main_arg9 : FVec F S48 .f32) (main_arg10 : FVec F S3x48 .f32) (main_arg11 : FVec F S3 .f32) : IVec S_ 1 :=
  let main_v0 : FVec F S65536x16x32 .f32 := Host.absf main_arg0
  let main_cst : FVec F S_ .f32 := constant S_ .f32 0x7F800000#32
  let main_v1 : FVec F S65536x16x32 .f32 := broadcastInDim S65536x16x32 ![] bcast_S_S65536x16x32 main_cst
  let main_v2 : IVec S65536x16x32 1 := cmpf .olt main_v0 main_v1
  let main_c : IVec S_ 1 := constantI S_ 1 1#1
  let main_v3 : IVec S_ 1 := (fun x v => Host.reduce IntOp.andi x v reducesTo_S65536x16x32_S_d0_1_2 h_S_) main_v2 main_c
  let main_v4 : FVec F S65536x16x32 .f32 := Host.absf main_arg1
  let main_cst_0 : FVec F S_ .f32 := constant S_ .f32 0x7F800000#32
  let main_v5 : FVec F S65536x16x32 .f32 := broadcastInDim S65536x16x32 ![] bcast_S_S65536x16x32 main_cst_0
  let main_v6 : IVec S65536x16x32 1 := cmpf .olt main_v4 main_v5
  let main_c_1 : IVec S_ 1 := constantI S_ 1 1#1
  let main_v7 : IVec S_ 1 := (fun x v => Host.reduce IntOp.andi x v reducesTo_S65536x16x32_S_d0_1_2 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_arg10 main_arg11 main_v13 main_v16
-- ==== Kernel.lean ====
abbrev S65536x16x32 : Shape := ⟨3, ![65536, 16, 32]⟩
abbrev S32x32 : Shape := ⟨2, ![32, 32]⟩
abbrev S32 : Shape := ⟨1, ![32]⟩
abbrev S48x512 : Shape := ⟨2, ![48, 512]⟩
abbrev S48 : Shape := ⟨1, ![48]⟩
abbrev S3x48 : Shape := ⟨2, ![3, 48]⟩
abbrev S3 : Shape := ⟨1, ![3]⟩
abbrev S65536x16x16 : Shape := ⟨3, ![65536, 16, 16]⟩
abbrev S16x16 : Shape := ⟨2, ![16, 16]⟩
abbrev S512x16x32 : Shape := ⟨3, ![512, 16, 32]⟩
abbrev S512x16x16 : Shape := ⟨3, ![512, 16, 16]⟩
abbrev S8192x32 : Shape := ⟨2, ![8192, 32]⟩
abbrev S1x32 : Shape := ⟨2, ![1, 32]⟩
abbrev S512x16 : Shape := ⟨2, ![512, 16]⟩
abbrev S512x16x1 : Shape := ⟨3, ![512, 16, 1]⟩
abbrev S65536x3 : Shape := ⟨2, ![65536, 3]⟩
abbrev S512x3 : Shape := ⟨2, ![512, 3]⟩
abbrev S1x16x16 : Shape := ⟨3, ![1, 16, 16]⟩
abbrev S512x512 : Shape := ⟨2, ![512, 512]⟩
abbrev S512x48 : Shape := ⟨2, ![512, 48]⟩
abbrev S1x48 : Shape := ⟨2, ![1, 48]⟩
abbrev S48x3 : Shape := ⟨2, ![48, 3]⟩
abbrev S1x3 : Shape := ⟨2, ![1, 3]⟩
abbrev S512 : Shape := ⟨1, ![512]⟩
abbrev S512x1 : Shape := ⟨2, ![512, 1]⟩

abbrev nBuf : Space → Nat
  | .hbm => 16
  | .vmem => 26
  | .smem => 0
  | _ => 0

abbrev bufTy : (tb : Table) → Fin (tcTables nBuf tb) → BufTy
  | .hbm, ⟨0, _⟩ => ⟨S65536x16x32, .f32⟩
  | .hbm, ⟨1, _⟩ => ⟨S65536x16x32, .f32⟩
  | .hbm, ⟨2, _⟩ => ⟨S32x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S48x512, .f32⟩
  | .hbm, ⟨9, _⟩ => ⟨S48, .f32⟩
  | .hbm, ⟨10, _⟩ => ⟨S3x48, .f32⟩
  | .hbm, ⟨11, _⟩ => ⟨S3, .f32⟩
  | .hbm, ⟨12, _⟩ => ⟨S65536x16x16, .f32⟩
  | .hbm, ⟨13, _⟩ => ⟨S65536x16x32, .f32⟩
  | .hbm, ⟨14, _⟩ => ⟨S16x16, .f32⟩
  | .hbm, ⟨15, _⟩ => ⟨S65536x3, .f32⟩
  | .local _ .vmem, ⟨0, _⟩ => ⟨S512x16x32, .f32⟩
  | .local _ .vmem, ⟨1, _⟩ => ⟨S512x16x32, .f32⟩
  | .local _ .vmem, ⟨2, _⟩ => ⟨S512x16x32, .f32⟩
  | .local _ .vmem, ⟨3, _⟩ => ⟨S512x16x32, .f32⟩
  | .local _ .vmem, ⟨4, _⟩ => ⟨S32x32, .f32⟩
  | .local _ .vmem, ⟨5, _⟩ => ⟨S32, .f32⟩
  | .local _ .vmem, ⟨6, _⟩ => ⟨S32x32, .f32⟩
  | .local _ .vmem, ⟨7, _⟩ => ⟨S32, .f32⟩
  | .local _ .vmem, ⟨8, _⟩ => ⟨S32x32, .f32⟩
  | .local _ .vmem, ⟨9, _⟩ => ⟨S32, .f32⟩
  | .local _ .vmem, ⟨10, _⟩ => ⟨S512x16x16, .f32⟩
  | .local _ .vmem, ⟨11, _⟩ => ⟨S512x16x16, .f32⟩
  | .local _ .vmem, ⟨12, _⟩ => ⟨S512x16x32, .f32⟩
  | .local _ .vmem, ⟨13, _⟩ => ⟨S512x16x32, .f32⟩
  | .local _ .vmem, ⟨14, _⟩ => ⟨S16x16, .f32⟩
  | .local _ .vmem, ⟨15, _⟩ => ⟨S512x16x16, .f32⟩
  | .local _ .vmem, ⟨16, _⟩ => ⟨S512x16x16, .f32⟩
  | .local _ .vmem, ⟨17, _⟩ => ⟨S512x16x32, .f32⟩
  | .local _ .vmem, ⟨18, _⟩ => ⟨S512x16x32, .f32⟩
  | .local _ .vmem, ⟨19, _⟩ => ⟨S16x16, .f32⟩
  | .local _ .vmem, ⟨20, _⟩ => ⟨S48x512, .f32⟩
  | .local _ .vmem, ⟨21, _⟩ => ⟨S48, .f32⟩
  | .local _ .vmem, ⟨22, _⟩ => ⟨S3x48, .f32⟩
  | .local _ .vmem, ⟨23, _⟩ => ⟨S3, .f32⟩
  | .local _ .vmem, ⟨24, _⟩ => ⟨S512x3, .f32⟩
  | .local _ .vmem, ⟨25, _⟩ => ⟨S512x3, .f32⟩
  | _, _ => ⟨S65536x16x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x16x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x16x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x16x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x16x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S16x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![128], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x16x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x16x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S48x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S48 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3x48 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S3 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x3 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  inb_S16x16_S16x16_0_0 : ∀ a, (![0, 0] : Fin 2 → Nat) a + S16x16.size a ≤ S16x16.size a
  h_S16x16 : 0 < S16x16.numel
  inb_S512x16x32_S512x16x32_0_0_0 : ∀ a, (![0, 0, 0] : Fin 3 → Nat) a + S512x16x32.size a ≤ S512x16x32.size a
  h_S512x16x32 : 0 < S512x16x32.numel
  shapeCasts_S512x16x32_S8192x32 : S512x16x32.ShapeCasts S8192x32
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  transposes_S32x32_p1_0_S32x32 : S32x32.Transposes [1, 0] S32x32
  inb_S32_S32_0 : ∀ a, (![0] : Fin 1 → Nat) a + S32.size a ≤ S32.size a
  h_S32 : 0 < S32.numel
  shapeCasts_S32_S1x32 : S32.ShapeCasts S1x32
  broadcasts_S1x32_S8192x32 : S1x32.Broadcasts S8192x32
  shapeCasts_S8192x32_S512x16x32 : S8192x32.ShapeCasts S512x16x32
  reduces_S512x16x32_S512x16 : S512x16x32.Reduces [2] S512x16
  shapeCasts_S512x16_S512x16x1 : S512x16.ShapeCasts S512x16x1
  broadcasts_S512x16x1_S512x16x32 : S512x16x1.Broadcasts S512x16x32
  inb_S512x16x16_S512x16x16_0_0_0 : ∀ a, (![0, 0, 0] : Fin 3 → Nat) a + S512x16x16.size a ≤ S512x16x16.size a
  h_S512x16x16 : 0 < S512x16x16.numel
  shapeCasts_S16x16_S16x16 : S16x16.ShapeCasts S16x16
  reduces_S512x16x16_S16x16 : S512x16x16.Reduces [0] S16x16
  shapeCasts_S512x16x16_S512x16x16 : S512x16x16.ShapeCasts S512x16x16
  shapeCasts_S16x16_S1x16x16 : S16x16.ShapeCasts S1x16x16
  broadcasts_S1x16x16_S512x16x16 : S1x16x16.Broadcasts S512x16x16
  shapeCasts_S512x16x32_S512x16x32 : S512x16x32.ShapeCasts S512x16x32
  shapeCasts_S512x16x32_S512x512 : S512x16x32.ShapeCasts S512x512
  inb_S48x512_S48x512_0_0 : ∀ a, (![0, 0] : Fin 2 → Nat) a + S48x512.size a ≤ S48x512.size a
  h_S48x512 : 0 < S48x512.numel
  transposes_S48x512_p1_0_S512x48 : S48x512.Transposes [1, 0] S512x48
  inb_S48_S48_0 : ∀ a, (![0] : Fin 1 → Nat) a + S48.size a ≤ S48.size a
  h_S48 : 0 < S48.numel
  shapeCasts_S48_S1x48 : S48.ShapeCasts S1x48
  broadcasts_S1x48_S512x48 : S1x48.Broadcasts S512x48
  inb_S3x48_S3x48_0_0 : ∀ a, (![0, 0] : Fin 2 → Nat) a + S3x48.size a ≤ S3x48.size a
  h_S3x48 : 0 < S3x48.numel
  transposes_S3x48_p1_0_S48x3 : S3x48.Transposes [1, 0] S48x3
  inb_S3_S3_0 : ∀ a, (![0] : Fin 1 → Nat) a + S3.size a ≤ S3.size a
  h_S3 : 0 < S3.numel
  shapeCasts_S3_S1x3 : S3.ShapeCasts S1x3
  broadcasts_S1x3_S512x3 : S1x3.Broadcasts S512x3
  reduces_S512x3_S512 : S512x3.Reduces [1] S512
  shapeCasts_S512_S512x1 : S512.ShapeCasts S512x1
  broadcasts_S512x1_S512x3 : S512x1.Broadcasts S512x3
  inb_S512x3_S512x3_0_0 : ∀ a, (![0, 0] : Fin 2 → Nat) a + S512x3.size a ≤ S512x3.size a
  h_S512x3 : 0 < S512x3.numel
  dot_S8192x32_S32x32_S8192x32_1_0_0_1_n_n_wf : DotDims.WF S8192x32 S32x32 S8192x32 [1] [0] [0] [1] [] []
  dot_S512x16x32_S512x16x32_S512x16x16_2_2_1_1_0_0_wf : DotDims.WF S512x16x32 S512x16x32 S512x16x16 [2] [2] [1] [1] [0] [0]
  dot_S512x16x16_S512x16x32_S512x16x32_1_1_2_2_0_0_wf : DotDims.WF S512x16x16 S512x16x32 S512x16x32 [1] [1] [2] [2] [0] [0]
  dot_S512x512_S512x48_S512x48_1_0_0_1_n_n_wf : DotDims.WF S512x512 S512x48 S512x48 [1] [0] [0] [1] [] []
  dot_S512x48_S48x3_S512x3_1_0_0_1_n_n_wf : DotDims.WF S512x48 S48x3 S512x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x16x32.size a ≤ S65536x16x32.size a
  hwx0_0 : ∀ i : grid0.Coords, EltTy.bits .f32 = 32 ∨ (Rect.block (s := S65536x16x32) S512x16x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x16x32.size a ≤ S65536x16x32.size a
  hwx0_1 : ∀ i : grid0.Coords, EltTy.bits .f32 = 32 ∨ (Rect.block (s := S65536x16x32) S512x16x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32.size a ≤ S32.size a
  hwx0_3 : ∀ i : grid0.Coords, EltTy.bits .f32 = 32 ∨ (Rect.block (s := S32) S32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x32.size a ≤ S32x32.size a
  hwx0_6 : ∀ i : grid0.Coords, EltTy.bits .f32 = 32 ∨ (Rect.block (s := S32x32) S32x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32.size a ≤ S32.size a
  hwx0_7 : ∀ i : grid0.Coords, EltTy.bits .f32 = 32 ∨ (Rect.block (s := S32) S32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x16x16.size a ≤ S65536x16x16.size a
  hwx0_8 : ∀ i : grid0.Coords, EltTy.bits .f32 = 32 ∨ (Rect.block (s := S65536x16x16) S512x16x16.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x16x32.size a ≤ S65536x16x32.size a
  hwx0_9 : ∀ i : grid0.Coords, EltTy.bits .f32 = 32 ∨ (Rect.block (s := S65536x16x32) S512x16x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S16x16.size a ≤ S16x16.size a
  hwx0_10 : ∀ i : grid0.Coords, EltTy.bits .f32 = 32 ∨ (Rect.block (s := S16x16) S16x16.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x16x16.size a ≤ S65536x16x16.size a
  hwx1_0 : ∀ i : grid1.Coords, EltTy.bits .f32 = 32 ∨ (Rect.block (s := S65536x16x16) S512x16x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x16x32.size a ≤ S65536x16x32.size a
  hwx1_1 : ∀ i : grid1.Coords, EltTy.bits .f32 = 32 ∨ (Rect.block (s := S65536x16x32) S512x16x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S48x512.size a ≤ S48x512.size a
  hwx1_3 : ∀ i : grid1.Coords, EltTy.bits .f32 = 32 ∨ (Rect.block (s := S48x512) S48x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S48.size a ≤ S48.size a
  hwx1_4 : ∀ i : grid1.Coords, EltTy.bits .f32 = 32 ∨ (Rect.block (s := S48) S48.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S3x48.size a ≤ S3x48.size a
  hwx1_5 : ∀ i : grid1.Coords, EltTy.bits .f32 = 32 ∨ (Rect.block (s := S3x48) S3x48.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S3.size a ≤ S3.size a
  hwx1_6 : ∀ i : grid1.Coords, EltTy.bits .f32 = 32 ∨ (Rect.block (s := S3) S3.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x3.size a ≤ S65536x3.size a
  hwx1_7 : ∀ i : grid1.Coords, EltTy.bits .f32 = 32 ∨ (Rect.block (s := S65536x3) S512x3.size (cc1_transform_7 i) (hinb1_7 i)).WholeWords (EltTy.packing .f32)

variable [Facts₀]

def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S512x16x32_S512x16x32_S512x16x16_2_2_1_1_0_0 : DotDims S512x16x32 S512x16x32 S512x16x16 where
  lhsContracting := [2]
  rhsContracting := [2]
  lhsNonContracting := [1]
  rhsNonContracting := [1]
  lhsBatch := [0]
  rhsBatch := [0]
  wf := dot_S512x16x32_S512x16x32_S512x16x16_2_2_1_1_0_0_wf
def dot_S512x16x16_S512x16x32_S512x16x32_1_1_2_2_0_0 : DotDims S512x16x16 S512x16x32 S512x16x32 where
  lhsContracting := [1]
  rhsContracting := [1]
  lhsNonContracting := [2]
  rhsNonContracting := [2]
  lhsBatch := [0]
  rhsBatch := [0]
  wf := dot_S512x16x16_S512x16x32_S512x16x32_1_1_2_2_0_0_wf
def dot_S512x512_S512x48_S512x48_1_0_0_1_n_n : DotDims S512x512 S512x48 S512x48 where
  lhsContracting := [1]
  rhsContracting := [0]
  lhsNonContracting := [0]
  rhsNonContracting := [1]
  lhsBatch := []
  rhsBatch := []
  wf := dot_S512x512_S512x48_S512x48_1_0_0_1_n_n_wf
def dot_S512x48_S48x3_S512x3_1_0_0_1_n_n : DotDims S512x48 S48x3 S512x3 where
  lhsContracting := [1]
  rhsContracting := [0]
  lhsNonContracting := [0]
  rhsNonContracting := [1]
  lhsBatch := []
  rhsBatch := []
  wf := dot_S512x48_S48x3_S512x3_1_0_0_1_n_n_wf

abbrev win0_0 : Pipeline.Window sig grid0 :=
  Pipeline.Window.ofSpec (Memref.whole main_arg0) S512x16x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x16x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0_0) S512x16x16.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_1) S512x16x32.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_2) S16x16.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v0_0) S512x16x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S512x16x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S48x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S48.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S3x48.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S3.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v1) S512x3.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S65536x16x32 : Shape := ⟨3, ![65536, 16, 32]⟩
abbrev S32x32 : Shape := ⟨2, ![32, 32]⟩
abbrev S32 : Shape := ⟨1, ![32]⟩
abbrev S48x512 : Shape := ⟨2, ![48, 512]⟩
abbrev S48 : Shape := ⟨1, ![48]⟩
abbrev S3x48 : Shape := ⟨2, ![3, 48]⟩
abbrev S3 : Shape := ⟨1, ![3]⟩
abbrev S1x1x32 : Shape := ⟨3, ![1, 1, 32]⟩
abbrev S_ : Shape := ⟨0, ![]⟩
abbrev S65536x16 : Shape := ⟨2, ![65536, 16]⟩
abbrev S65536x16x1 : Shape := ⟨3, ![65536, 16, 1]⟩
abbrev S65536x16x16 : Shape := ⟨3, ![65536, 16, 16]⟩
abbrev S16x16 : Shape := ⟨2, ![16, 16]⟩
abbrev S1x16x16 : Shape := ⟨3, ![1, 16, 16]⟩
abbrev S65536x512 : Shape := ⟨2, ![65536, 512]⟩
abbrev S512x48 : Shape := ⟨2, ![512, 48]⟩
abbrev S65536x48 : Shape := ⟨2, ![65536, 48]⟩
abbrev S1x48 : Shape := ⟨2, ![1, 48]⟩
abbrev S48x3 : Shape := ⟨2, ![48, 3]⟩
abbrev S65536x3 : Shape := ⟨2, ![65536, 3]⟩
abbrev S1x3 : Shape := ⟨2, ![1, 3]⟩
abbrev S65536 : Shape := ⟨1, ![65536]⟩
abbrev S65536x1 : Shape := ⟨2, ![65536, 1]⟩

abbrev nBuf : Space → Nat
  | .hbm => 99
  | .vmem => 0
  | .smem => 0
  | _ => 0

abbrev bufTy : (tb : Table) → Fin (tcTables nBuf tb) → BufTy
  | .hbm, ⟨0, _⟩ => ⟨S65536x16x32, .f32⟩
  | .hbm, ⟨1, _⟩ => ⟨S65536x16x32, .f32⟩
  | .hbm, ⟨2, _⟩ => ⟨S32x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S48x512, .f32⟩
  | .hbm, ⟨9, _⟩ => ⟨S48, .f32⟩
  | .hbm, ⟨10, _⟩ => ⟨S3x48, .f32⟩
  | .hbm, ⟨11, _⟩ => ⟨S3, .f32⟩
  | .hbm, ⟨12, _⟩ => ⟨S65536x16x32, .f32⟩
  | .hbm, ⟨13, _⟩ => ⟨S1x1x32, .f32⟩
  | .hbm, ⟨14, _⟩ => ⟨S65536x16x32, .f32⟩
  | .hbm, ⟨15, _⟩ => ⟨S65536x16x32, .f32⟩
  | .hbm, ⟨16, _⟩ => ⟨S65536x16x32, .f32⟩
  | .hbm, ⟨17, _⟩ => ⟨S1x1x32, .f32⟩
  | .hbm, ⟨18, _⟩ => ⟨S65536x16x32, .f32⟩
  | .hbm, ⟨19, _⟩ => ⟨S65536x16x32, .f32⟩
  | .hbm, ⟨20, _⟩ => ⟨S65536x16x32, .f32⟩
  | .hbm, ⟨21, _⟩ => ⟨S65536x16x32, .f32⟩
  | .hbm, ⟨22, _⟩ => ⟨S1x1x32, .f32⟩
  | .hbm, ⟨23, _⟩ => ⟨S65536x16x32, .f32⟩
  | .hbm, ⟨24, _⟩ => ⟨S65536x16x32, .f32⟩
  | .hbm, ⟨25, _⟩ => ⟨S65536x16x32, .f32⟩
  | .hbm, ⟨26, _⟩ => ⟨S1x1x32, .f32⟩
  | .hbm, ⟨27, _⟩ => ⟨S65536x16x32, .f32⟩
  | .hbm, ⟨28, _⟩ => ⟨S65536x16x32, .f32⟩
  | .hbm, ⟨29, _⟩ => ⟨S65536x16x32, .f32⟩
  | .hbm, ⟨30, _⟩ => ⟨S65536x16x32, .f32⟩
  | .hbm, ⟨31, _⟩ => ⟨S1x1x32, .f32⟩
  | .hbm, ⟨32, _⟩ => ⟨S65536x16x32, .f32⟩
  | .hbm, ⟨33, _⟩ => ⟨S65536x16x32, .f32⟩
  | .hbm, ⟨34, _⟩ => ⟨S65536x16x32, .f32⟩
  | .hbm, ⟨35, _⟩ => ⟨S1x1x32, .f32⟩
  | .hbm, ⟨36, _⟩ => ⟨S65536x16x32, .f32⟩
  | .hbm, ⟨37, _⟩ => ⟨S65536x16x32, .f32⟩
  | .hbm, ⟨38, _⟩ => ⟨S65536x16x32, .f32⟩
  | .hbm, ⟨39, _⟩ => ⟨S65536x16x32, .f32⟩
  | .hbm, ⟨40, _⟩ => ⟨S_, .f32⟩
  | .hbm, ⟨41, _⟩ => ⟨S65536x16, .f32⟩
  | .hbm, ⟨42, _⟩ => ⟨S65536x16x1, .f32⟩
  | .hbm, ⟨43, _⟩ => ⟨S65536x16x1, .f32⟩
  | .hbm, ⟨44, _⟩ => ⟨S_, .f32⟩
  | .hbm, ⟨45, _⟩ => ⟨S65536x16x1, .f32⟩
  | .hbm, ⟨46, _⟩ => ⟨S65536x16x1, .f32⟩
  | .hbm, ⟨47, _⟩ => ⟨S65536x16x32, .f32⟩
  | .hbm, ⟨48, _⟩ => ⟨S65536x16x32, .f32⟩
  | .hbm, ⟨49, _⟩ => ⟨S65536x16x32, .f32⟩
  | .hbm, ⟨50, _⟩ => ⟨S_, .f32⟩
  | .hbm, ⟨51, _⟩ => ⟨S65536x16, .f32⟩
  | .hbm, ⟨52, _⟩ => ⟨S65536x16x1, .f32⟩
  | .hbm, ⟨53, _⟩ => ⟨S65536x16x1, .f32⟩
  | .hbm, ⟨54, _⟩ => ⟨S_, .f32⟩
  | .hbm, ⟨55, _⟩ => ⟨S65536x16x1, .f32⟩
  | .hbm, ⟨56, _⟩ => ⟨S65536x16x1, .f32⟩
  | .hbm, ⟨57, _⟩ => ⟨S65536x16x32, .f32⟩
  | .hbm, ⟨58, _⟩ => ⟨S65536x16x32, .f32⟩
  | .hbm, ⟨59, _⟩ => ⟨S65536x16x16, .f32⟩
  | .hbm, ⟨60, _⟩ => ⟨S_, .f32⟩
  | .hbm, ⟨61, _⟩ => ⟨S16x16, .f32⟩
  | .hbm, ⟨62, _⟩ => ⟨S_, .f32⟩
  | .hbm, ⟨63, _⟩ => ⟨S16x16, .f32⟩
  | .hbm, ⟨64, _⟩ => ⟨S16x16, .f32⟩
  | .hbm, ⟨65, _⟩ => ⟨S1x16x16, .f32⟩
  | .hbm, ⟨66, _⟩ => ⟨S65536x16x16, .f32⟩
  | .hbm, ⟨67, _⟩ => ⟨S65536x16x16, .f32⟩
  | .hbm, ⟨68, _⟩ => ⟨S65536x16x16, .f32⟩
  | .hbm, ⟨69, _⟩ => ⟨S_, .f32⟩
  | .hbm, ⟨70, _⟩ => ⟨S16x16, .f32⟩
  | .hbm, ⟨71, _⟩ => ⟨S1x16x16, .f32⟩
  | .hbm, ⟨72, _⟩ => ⟨S65536x16x16, .f32⟩
  | .hbm, ⟨73, _⟩ => ⟨S65536x16x16, .f32⟩
  | .hbm, ⟨74, _⟩ => ⟨S65536x16x32, .f32⟩
  | .hbm, ⟨75, _⟩ => ⟨S65536x512, .f32⟩
  | .hbm, ⟨76, _⟩ => ⟨S512x48, .f32⟩
  | .hbm, ⟨77, _⟩ => ⟨S65536x48, .f32⟩
  | .hbm, ⟨78, _⟩ => ⟨S1x48, .f32⟩
  | .hbm, ⟨79, _⟩ => ⟨S65536x48, .f32⟩
  | .hbm, ⟨80, _⟩ => ⟨S65536x48, .f32⟩
  | .hbm, ⟨81, _⟩ => ⟨S_, .f32⟩
  | .hbm, ⟨82, _⟩ => ⟨S65536x48, .f32⟩
  | .hbm, ⟨83, _⟩ => ⟨S65536x48, .f32⟩
  | .hbm, ⟨84, _⟩ => ⟨S48x3, .f32⟩
  | .hbm, ⟨85, _⟩ => ⟨S65536x3, .f32⟩
  | .hbm, ⟨86, _⟩ => ⟨S1x3, .f32⟩
  | .hbm, ⟨87, _⟩ => ⟨S65536x3, .f32⟩
  | .hbm, ⟨88, _⟩ => ⟨S65536x3, .f32⟩
  | .hbm, ⟨89, _⟩ => ⟨S65536x3, .f32⟩
  | .hbm, ⟨90, _⟩ => ⟨S_, .f32⟩
  | .hbm, ⟨91, _⟩ => ⟨S65536, .f32⟩
  | .hbm, ⟨92, _⟩ => ⟨S65536x1, .f32⟩
  | .hbm, ⟨93, _⟩ => ⟨S65536x1, .f32⟩
  | .hbm, ⟨94, _⟩ => ⟨S_, .f32⟩
  | .hbm, ⟨95, _⟩ => ⟨S65536x1, .f32⟩
  | .hbm, ⟨96, _⟩ => ⟨S65536x1, .f32⟩
  | .hbm, ⟨97, _⟩ => ⟨S65536x3, .f32⟩
  | .hbm, ⟨98, _⟩ => ⟨S65536x3, .f32⟩
  | _, _ => ⟨S65536x16x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_1 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_2 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_3 : Ref sig .tc := ⟨.hbm, 60, rfl⟩
abbrev main_v44 : Ref sig .tc := ⟨.hbm, 61, rfl⟩
abbrev main_cst_4 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_5 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_call0_cst : Ref sig .tc := ⟨.hbm, 81, rfl⟩
abbrev main_call0_v0 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_6 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_7 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩

abbrev nD : Nat := 1
abbrev τ : Topo := Topo.v7x

variable {F : FTy → Type} [FloatOps F]

class Facts₀ : Prop where
  bcast_S32_S1x1x32_2 : S32.BroadcastsInDim S1x1x32 (![2] : Fin 1 → Fin S1x1x32.rank)
  bcast_S1x1x32_S65536x16x32_0_1_2 : S1x1x32.BroadcastsInDim S65536x16x32 (![0, 1, 2] : Fin 3 → Fin S65536x16x32.rank)
  reducesTo_S65536x16x32_S65536x16_d2 : S65536x16x32.ReducesTo [2] S65536x16
  h_S_ : 0 < S_.numel
  bcast_S65536x16_S65536x16x1_0_1 : S65536x16.BroadcastsInDim S65536x16x1 (![0, 1] : Fin 2 → Fin S65536x16x1.rank)
  bcast_S_S65536x16x1 : S_.BroadcastsInDim S65536x16x1 (![] : Fin 0 → Fin S65536x16x1.rank)
  bcast_S65536x16x1_S65536x16x32_0_1_2 : S65536x16x1.BroadcastsInDim S65536x16x32 (![0, 1, 2] : Fin 3 → Fin S65536x16x32.rank)
  reducesTo_S65536x16x16_S16x16_d0 : S65536x16x16.ReducesTo [0] S16x16
  bcast_S_S16x16 : S_.BroadcastsInDim S16x16 (![] : Fin 0 → Fin S16x16.rank)
  bcast_S16x16_S1x16x16_1_2 : S16x16.BroadcastsInDim S1x16x16 (![1, 2] : Fin 2 → Fin S1x16x16.rank)
  bcast_S1x16x16_S65536x16x16_0_1_2 : S1x16x16.BroadcastsInDim S65536x16x16 (![0, 1, 2] : Fin 3 → Fin S65536x16x16.rank)
  shapeCasts_S65536x16x32_S65536x512 : S65536x16x32.ShapeCasts S65536x512
  transposes_S48x512_S512x48_1_0 : S48x512.Transposes [1, 0] S512x48
  bcast_S48_S1x48_1 : S48.BroadcastsInDim S1x48 (![1] : Fin 1 → Fin S1x48.rank)
  bcast_S1x48_S65536x48_0_1 : S1x48.BroadcastsInDim S65536x48 (![0, 1] : Fin 2 → Fin S65536x48.rank)
  bcast_S_S65536x48 : S_.BroadcastsInDim S65536x48 (![] : Fin 0 → Fin S65536x48.rank)
  transposes_S3x48_S48x3_1_0 : S3x48.Transposes [1, 0] S48x3
  bcast_S3_S1x3_1 : S3.BroadcastsInDim S1x3 (![1] : Fin 1 → Fin S1x3.rank)
  bcast_S1x3_S65536x3_0_1 : S1x3.BroadcastsInDim S65536x3 (![0, 1] : Fin 2 → Fin S65536x3.rank)
  reducesTo_S65536x3_S65536_d1 : S65536x3.ReducesTo [1] S65536
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x3_0_1 : S65536x1.BroadcastsInDim S65536x3 (![0, 1] : Fin 2 → Fin S65536x3.rank)
  dot_S65536x16x32_S32x32_S65536x16x32_2_1_01_0_n_n_wf : DotDims.WF S65536x16x32 S32x32 S65536x16x32 [2] [1] [0, 1] [0] [] []
  dot_S65536x16x32_S65536x16x32_S65536x16x16_2_2_1_1_0_0_wf : DotDims.WF S65536x16x32 S65536x16x32 S65536x16x16 [2] [2] [1] [1] [0] [0]
  dot_S65536x16x16_S65536x16x32_S65536x16x32_1_1_2_2_0_0_wf : DotDims.WF S65536x16x16 S65536x16x32 S65536x16x32 [1] [1] [2] [2] [0] [0]
  dot_S65536x512_S512x48_S65536x48_1_0_0_1_n_n_wf : DotDims.WF S65536x512 S512x48 S65536x48 [1] [0] [0] [1] [] []
  dot_S65536x48_S48x3_S65536x3_1_0_0_1_n_n_wf : DotDims.WF S65536x48 S48x3 S65536x3 [1] [0] [0] [1] [] []

variable [Facts₀]

def dot_S65536x16x32_S32x32_S65536x16x32_2_1_01_0_n_n : DotDims S65536x16x32 S32x32 S65536x16x32 where
  lhsContracting := [2]
  rhsContracting := [1]
  lhsNonContracting := [0, 1]
  rhsNonContracting := [0]
  lhsBatch := []
  rhsBatch := []
  wf := dot_S65536x16x32_S32x32_S65536x16x32_2_1_01_0_n_n_wf
def dot_S65536x16x32_S65536x16x32_S65536x16x16_2_2_1_1_0_0 : DotDims S65536x16x32 S65536x16x32 S65536x16x16 where
  lhsContracting := [2]
  rhsContracting := [2]
  lhsNonContracting := [1]
  rhsNonContracting := [1]
  lhsBatch := [0]
  rhsBatch := [0]
  wf := dot_S65536x16x32_S65536x16x32_S65536x16x16_2_2_1_1_0_0_wf
def dot_S65536x16x16_S65536x16x32_S65536x16x32_1_1_2_2_0_0 : DotDims S65536x16x16 S65536x16x32 S65536x16x32 where
  lhsContracting := [1]
  rhsContracting := [1]
  lhsNonContracting := [2]
  rhsNonContracting := [2]
  lhsBatch := [0]
  rhsBatch := [0]
  wf := dot_S65536x16x16_S65536x16x32_S65536x16x32_1_1_2_2_0_0_wf
def dot_S65536x512_S512x48_S65536x48_1_0_0_1_n_n : DotDims S65536x512 S512x48 S65536x48 where
  lhsContracting := [1]
  rhsContracting := [0]
  lhsNonContracting := [0]
  rhsNonContracting := [1]
  lhsBatch := []
  rhsBatch := []
  wf := dot_S65536x512_S512x48_S65536x48_1_0_0_1_n_n_wf
def dot_S65536x48_S48x3_S65536x3_1_0_0_1_n_n : DotDims S65536x48 S48x3 S65536x3 where
  lhsContracting := [1]
  rhsContracting := [0]
  lhsNonContracting := [0]
  rhsNonContracting := [1]
  lhsBatch := []
  rhsBatch := []
  wf := dot_S65536x48_S48x3_S65536x3_1_0_0_1_n_n_wf

class Facts : Prop extends Facts₀ where

variable [Facts]
-- ==== Proof.Stage1Defs.lean ====
/-
  The first call's grid point, as pure functions of what it loads: the block of exponentiated scores, the block of
  values, and one step of the running total.
-/
import proofs.«146195_j71253507440717_1_alg».proof.Proof.Gen.KernelIdeal.Skeleton

noncomputable section

namespace Cert.KernelIdeal.Stage1

open Cert.KernelIdeal Cert.KernelIdeal.Gen Idealize.ShloMosaic

variable {F : FTy → Type} [FloatOps F]

/-- The exponentiated scores of the point's 512 rows: from the two input blocks, the query layer and the key layer. -/
abbrev expBlock (x0 x1 : Vec F S512x16x32 .f32) (x2 : Vec F S32x32 .f32) (x3 : Vec F S32 .f32) (x4 : Vec F S32x32 .f32)
    (x5 : Vec F S32 .f32) : FVec F S512x16x16 .f32 :=
  k0_pay11 (k0_pay7 x0 x1 x2 x3 x3) (k0_pay8 x0 x4 x5) (k0_pay9 x1 x4) x5

/-- The values of the point's 512 rows: from the two input blocks and the value layer. -/
abbrev valBlock (x0 x1 : Vec F S512x16x32 .f32) (x6 : Vec F S32x32 .f32) (x7 : Vec F S32 .f32) : FVec F S512x16x32 .f32 :=
  k0_pay10 (k0_pay3 x0) (k0_pay4 x1) (k0_pay6 x6) x7 x7

/-- One step of the running total: what was there plus the block's sum down its rows. -/
abbrev sumStep (E : FVec F S512x16x16 .f32) (prev : Vec F S16x16 .f32) : FVec F S16x16 .f32 := k0_pay1 E prev

/-- The block of zeros the first point starts the total from. -/
abbrev zeroBlock : FVec F S16x16 .f32 := k0_pay2

end Cert.KernelIdeal.Stage1

end
-- ==== Proof.Spec.lean ====
/-
  The mathematics both programs compute, written once over the extended reals.

  Inputs: two stacks of row blocks X1, X2 : [65536, 16, 32], three dense layers (W : [32, 32], bias : [32]) for
  query, key and value, and a two-layer head (p1W : [48, 512], p1b : [48], p2W : [3, 48], p2b : [3]).

  Per batch row b, with r1 = X1[b], r2 = X2[b] : [16, 32]:
    pair W bias (r1 c) (r2 c) e  = (r1 c · W e + bias e) * (r2 c · W e + bias e)          -- query, key, value
    unitize q e                  = q e / max (sqrt (Σ_k q k * q k)) tiny                   -- division by the clamped norm
    rowScore c d                 = Σ_e unitize (query c) e * unitize (key d) e             -- cosine scores [16, 16]
  The scores are turned into weights over the BATCH axis (a softmax down the 65536 rows, entry by entry), and
  each row then mixes its values with its weights, flattens the [16, 32] result to 512 numbers, and runs the head:
    rowMix w v d e   = Σ_c w c d * v c e
    rowHidden j      = max (Σ_k flat k * p1W j k + p1b j) 0
    rowLogits r      = Σ_j rowHidden j * p2W r j + p2b r
    rowOut r         = unitize rowLogits r
  The two programs differ only in how the weights are formed: the kernel divides exp(score) by the column's total of
  exp(score); the reference first subtracts the column's maximum. `weightK` and `weightShift` state the two forms.
-/
import Idealize.ShloMosaic.PureOps.Ideal
import Idealize.ShloMosaic.Lib.ValueIdx

noncomputable section

namespace Cert.Spec

open Idealize.ShloMosaic Idealize.ShloMosaic.ValueIdx

/-- Arrays of extended reals of rank 1, 2, 3 at literal extents. -/
abbrev A1 (n : Nat) : Type := (⟨1, ![n]⟩ : Shape).Idx → EReal
abbrev A2 (a b : Nat) : Type := (⟨2, ![a, b]⟩ : Shape).Idx → EReal
abbrev A3 (a b c : Nat) : Type := (⟨3, ![a, b, c]⟩ : Shape).Idx → EReal

/-- The clamp of a norm (the f32 nearest to 1e-12), the zero word and the word of -∞: kept as their patterns. -/
abbrev tiny : EReal := Ideal.ofBits .f32 0x2B8CBCCC#32
abbrev zero : EReal := Ideal.ofBits .f32 0x00000000#32
abbrev negInf : EReal := Ideal.ofBits .f32 0xFF800000#32

/-! ## One batch row -/

/-- One entry of a dense layer: the row `x` against row `e` of the weight, plus the bias. -/
def lin (W : A2 32 32) (bias : A1 32) (x : Fin 32 → EReal) (e : Fin 32) : EReal :=
  (∑ l : Fin 32, x l * W (ix2 e l)) + bias (ix1 e)

/-- The product of the layer's two outputs, one per input stack. -/
def pair (W : A2 32 32) (bias : A1 32) (x1 x2 : Fin 32 → EReal) (e : Fin 32) : EReal :=
  lin W bias x1 e * lin W bias x2 e

/-- A vector divided by its Euclidean norm clamped below by `tiny`. -/
def unitize {n : Nat} (q : Fin n → EReal) (e : Fin n) : EReal :=
  Ideal.div (q e) (max (Ideal.sqrt (∑ k : Fin n, q k * q k)) tiny)

/-- The cosine score of query row `c` against key row `d`. -/
def rowScore (qW : A2 32 32) (qb : A1 32) (kW : A2 32 32) (kb : A1 32) (r1 r2 : Fin 16 → Fin 32 → EReal)
    (c d : Fin 16) : EReal :=
  ∑ e : Fin 32, unitize (pair qW qb (r1 c) (r2 c)) e * unitize (pair kW kb (r1 d) (r2 d)) e

/-- The row's weighted values: column `d` of the weights against column `e` of the values. -/
def rowMix (w : Fin 16 → Fin 16 → EReal) (v : Fin 16 → Fin 32 → EReal) (d : Fin 16) (e : Fin 32) : EReal :=
  ∑ c : Fin 16, w c d * v c e

/-- The same flattened row-major to 512 numbers: entry k is (k / 32, k % 32). -/
def rowFlat (w : Fin 16 → Fin 16 → EReal) (v : Fin 16 → Fin 32 → EReal) (k : Fin 512) : EReal :=
  rowMix w v ⟨k.val / 32, by have := k.isLt; omega⟩ ⟨k.val % 32, by omega⟩

/-- The head's first layer with its rectifier. -/
def rowHidden (w : Fin 16 → Fin 16 → EReal) (v : Fin 16 → Fin 32 → EReal) (p1W : A2 48 512) (p1b : A1 48)
    (j : Fin 48) : EReal :=
  max ((∑ k : Fin 512, rowFlat w v k * p1W (ix2 j k)) + p1b (ix1 j)) zero

/-- The head's second layer. -/
def rowLogits (w : Fin 16 → Fin 16 → EReal) (v : Fin 16 → Fin 32 → EReal) (p1W : A2 48 512) (p1b : A1 48)
    (p2W : A2 3 48) (p2b : A1 3) (r : Fin 3) : EReal :=
  (∑ j : Fin 48, rowHidden w v p1W p1b j * p2W (ix2 r j)) + p2b (ix1 r)

/-- The row's result: its three logits divided by their clamped norm. -/
def rowOut (w : Fin 16 → Fin 16 → EReal) (v : Fin 16 → Fin 32 → EReal) (p1W : A2 48 512) (p1b : A1 48)
    (p2W : A2 3 48) (p2b : A1 3) (r : Fin 3) : EReal :=
  unitize (rowLogits w v p1W p1b p2W p2b) r

/-! ## The whole arrays -/

/-- Row `b` of a stack. -/
def row (X : A3 65536 16 32) (b : Fin 65536) : Fin 16 → Fin 32 → EReal := fun c l => X (ix3 b c l)

/-- The scores of every row. -/
def scores (X1 X2 : A3 65536 16 32) (qW : A2 32 32) (qb : A1 32) (kW : A2 32 32) (kb : A1 32) : A3 65536 16 16 :=
  fun j => rowScore qW qb kW kb (row X1 (j 0)) (row X2 (j 0)) (j 1) (j 2)

/-- Their exponentials. -/
def expo (X1 X2 : A3 65536 16 32) (qW : A2 32 32) (qb : A1 32) (kW : A2 32 32) (kb : A1 32) : A3 65536 16 16 :=
  fun j => Ideal.exp (scores X1 X2 qW qb kW kb j)

/-- The values of every row. -/
def vals (X1 X2 : A3 65536 16 32) (vW : A2 32 32) (vb : A1 32) : A3 65536 16 32 :=
  fun j => pair vW vb (row X1 (j 0) (j 1)) (row X2 (j 0) (j 1)) (j 2)

/-- Entry by entry, the total over the batch. -/
def total (E : A3 65536 16 16) : A2 16 16 := fun j => ∑ b : Fin 65536, E (ix3 b (j 0) (j 1))

/-- The kernel's weights: an array divided, entry by entry, by a [16, 16] table. -/
def weightK (E : A3 65536 16 16) (S : A2 16 16) : A3 65536 16 16 :=
  fun j => Ideal.div (E j) (S (ix2 (j 1) (j 2)))

/-- Entry by entry, the maximum over the batch as the reference takes it: a fold from -∞, then once more against -∞. -/
def peak (a : A3 65536 16 16) : A2 16 16 :=
  fun j => max negInf ((Finset.univ : Finset (Fin 65536)).fold max negInf (fun b => a (ix3 b (j 0) (j 1))))

/-- The reference's weights: the exponentials of the scores shifted by a [16, 16] table, over their totals
    (the host's sum starts from the zero word). -/
def weightShift (a : A3 65536 16 16) (M : A2 16 16) : A3 65536 16 16 :=
  fun j => Ideal.div (Ideal.exp (a j - M (ix2 (j 1) (j 2))))
    (zero + ∑ b : Fin 65536, Ideal.exp (a (ix3 b (j 1) (j 2)) - M (ix2 (j 1) (j 2))))

/-- The result array from the weights and the values. -/
def tail (Wt : A3 65536 16 16) (VAL : A3 65536 16 32) (p1W : A2 48 512) (p1b : A1 48) (p2W : A2 3 48) (p2b : A1 3) :
    A2 65536 3 :=
  fun i => rowOut (fun c d => Wt (ix3 (i 0) c d)) (fun c e => VAL (ix3 (i 0) c e)) p1W p1b p2W p2b (i 1)

end Cert.Spec

end
-- ==== Proof.LibPlainDot.lean ====
/-
  A plain matrix product read at coordinates.

  `DotDims.plain M K N` are the dimension numbers of an `M×K` by `K×N` product: the left operand is contracted on its
  second axis, the right on its first, no batch axis. At the ideal instance such a product, whether it is the kernel's
  `tpu.matmul` into a zero accumulator or the host's `dot_general`, is at the output index `(r, c)` the sum over
  `k : Fin K` of `A (r, k) * B (k, c)` on the extended reals: the same sum in the same order on both sides, so the two
  agree wherever their operands do.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at output index `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- The kernel's product into a zero accumulator, at an output index: the sum over the shared axis. -/
theorem matmul_zero_apply (prec : Option ContractPrecision) (A : FVec Ideal ⟨2, ![M, K]⟩ .f32) (B : FVec Ideal ⟨2, ![K, N]⟩ .f32)
    (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![K, N]⟩ .f32) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibPlainDotAny.lean ====
/-
  A plain matrix product read at coordinates, at any two operand formats.

  At the ideal instance every float format is the extended reals, so an `M×K` by `K×N` product whose operands were
  first narrowed to another format (a kernel that feeds its matrix unit bf16) is still, at the output index `(r, c)`, the
  sum over `k : Fin K` of `A (r, k) * B (k, c)`: for the kernel's product into a zero accumulator and for the host's
  `dot_general` alike, over any dimension record equal to `DotDims.plain M K N`.
-/
import proofs.«146195_j71253507440717_1_alg».proof.Proof.LibPlainDot

noncomputable section

open scoped BigOperators

namespace Idealize.ShloMosaic.PlainDot

open Idealize.ShloMosaic Idealize.ShloMosaic.ValueIdx

variable (M K N : Nat)

/-- The kernel's product into a zero accumulator, at an output index, whatever the operands' formats. -/
theorem matmul_zero_apply_any {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index, whatever the operands' formats. -/
theorem dotGeneral_apply_any {φ₁ φ₂ : FTy} (prec : Option ContractPrecision) (sched : HostSchedule)
    (A : FVec Ideal ⟨2, ![M, K]⟩ φ₁) (B : FVec Ideal ⟨2, ![K, N]⟩ φ₂) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibFlattenRows.lean ====
/-
  The two leading axes of a rank-3 array merged into one, and split again, read at an index: an [a, b, c] array recast as
  [n, c] with n = a · b has row (p, s) of the one at row p · b + s of the other, column for column, because both positions are
  the ((p · b + s) · c + k)-th in row-major order.
-/
import Idealize.ShloMosaic.Lib.Pipeline.Value
import Idealize.ShloMosaic.Lib.ValueIdx

noncomputable section

namespace Idealize.ShloMosaic.FlattenRows

open Idealize.ShloMosaic Idealize.ShloMosaic.ValueIdx

variable {α : Type}

/-- An `[a, b, c]` array recast as `[n, c]` reads, at `(r, k)` with `r = p · b + s`, the operand at `(p, s, k)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (s : Fin b) (k : Fin c) (r : Fin n)
    (hr : r.val = p.val * b + s.val) : shapeCast ⟨2, ![n, c]⟩ x h (ix2 r k) = x (ix3 p s k) :=
  shapeCast_apply x h _ _ (by
    rw [Shape.rowMajor_val_three, Shape.rowMajor_val_two]
    show (p.val * b + s.val) * c + k.val = r.val * c + k.val
    rw [hr])

/-- An `[n, c]` array recast as `[a, b, c]` reads, at `(p, s, k)`, the operand at `(r, k)` with `r = p · b + s`. -/
theorem shapeCast_nc_abc_apply {a b c n : ℕ} (y : (⟨2, ![n, c]⟩ : Shape).Idx → α)
    (h : (⟨2, ![n, c]⟩ : Shape).ShapeCasts ⟨3, ![a, b, c]⟩) (p : Fin a) (s : Fin b) (k : Fin c) (r : Fin n)
    (hr : r.val = p.val * b + s.val) : shapeCast ⟨3, ![a, b, c]⟩ y h (ix3 p s k) = y (ix2 r k) :=
  shapeCast_apply y h _ _ (by
    rw [Shape.rowMajor_val_three, Shape.rowMajor_val_two]
    show r.val * c + k.val = (p.val * b + s.val) * c + k.val
    rw [hr])

end Idealize.ShloMosaic.FlattenRows

end
-- ==== Proof.LibRowOfVector.lean ====
/-
  A vector recast as a one-row matrix, read at an index.

  Recasting an `[n]` vector as a `[1, n]` array keeps the row-major order, so the entry at `(0, i)` is the vector's
  entry `i`.
-/
import Idealize.ShloMosaic.Lib.ValueIdx
import Idealize.ShloMosaic.Lib.Pipeline.Value

noncomputable section

namespace Idealize.ShloMosaic.RowOfVector

open Idealize.ShloMosaic Idealize.ShloMosaic.ValueIdx

variable {α : Type} {n : Nat}

/-- The one-row recast of a vector at `(0, i)` is the vector at `i`. -/
theorem apply (x : (⟨1, ![n]⟩ : Shape).Idx → α) (h : (⟨1, ![n]⟩ : Shape).ShapeCasts ⟨2, ![1, n]⟩) (i : Fin n) :
    shapeCast (⟨2, ![1, n]⟩ : Shape) x h (ix2 (0 : Fin 1) i) = x (ix1 i) := by
  refine shapeCast_apply x h (ix2 (0 : Fin 1) i) (ix1 i) ?_
  rw [Shape.rowMajor_val_one, Shape.rowMajor_val_two]
  show i.val = 0 * n + i.val
  omega

end Idealize.ShloMosaic.RowOfVector

end
-- ==== Proof.Stage1Dense.lean ====
/-
  The first call's dense layers read at an entry: a 512-row block flattened to 8192 rows, times a transposed [32, 32]
  weight, plus a bias row; and the product of the two stacks' outputs.
-/
import proofs.«146195_j71253507440717_1_alg».proof.Proof.Stage1Defs
import proofs.«146195_j71253507440717_1_alg».proof.Proof.Spec
import proofs.«146195_j71253507440717_1_alg».proof.Proof.LibPlainDotAny
import proofs.«146195_j71253507440717_1_alg».proof.Proof.LibFlattenRows
import proofs.«146195_j71253507440717_1_alg».proof.Proof.LibRowOfVector
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Stage1

open Cert.KernelIdeal Cert.KernelIdeal.Gen Idealize.ShloMosaic Idealize.ShloMosaic.ValueIdx

/-! ## The pieces, each read at an entry -/

/-- The dimension record of every product here is the plain one: rows by columns, contracting the 32 inner entries. -/
theorem dot_eq_plain : dot_S8192x32_S32x32_S8192x32_1_0_0_1_n_n = DotDims.plain 8192 32 32 := rfl

/-- A 512-row block flattened to 8192 rows (and narrowed, which changes nothing over the extended reals): row
    r = 16 p + c holds the block's row (p, c). -/
theorem pay3_apply (x : Vec Ideal S512x16x32 .f32) (p : Fin 512) (c : Fin 16) (l : Fin 32) (r : Fin 8192)
    (hr : r.val = p.val * 16 + c.val) : k0_pay3 x (ix2 r l) = x (ix3 p c l) := by
  unfold k0_pay3
  rw [truncf_apply]
  exact FlattenRows.shapeCast_abc_nc_apply x _ p c l r hr

/-- The second stack's block is flattened the same way. -/
theorem pay4_apply (x : Vec Ideal S512x16x32 .f32) (p : Fin 512) (c : Fin 16) (l : Fin 32) (r : Fin 8192)
    (hr : r.val = p.val * 16 + c.val) : k0_pay4 x (ix2 r l) = x (ix3 p c l) := by
  unfold k0_pay4
  rw [truncf_apply]
  exact FlattenRows.shapeCast_abc_nc_apply x _ p c l r hr

/-- The weight narrowed and transposed: its entry (l, e) is the weight's entry (e, l). -/
theorem weightT_apply (W : Vec Ideal S32x32 .f32) (l e : Fin 32) :
    transpose S32x32 [1, 0] (truncf .bf16 W bitsLt_bf16_f32 : FVec Ideal S32x32 .bf16) transposes_S32x32_p1_0_S32x32 (ix2 l e)
      = W (ix2 e l) := by
  rw [transpose_ix2_apply, truncf_apply]

/-- The key layer's weight, narrowed and transposed, at (l, e). -/
theorem pay5_apply (W : Vec Ideal S32x32 .f32) (l e : Fin 32) : k0_pay5 W (ix2 l e) = W (ix2 e l) := by
  unfold k0_pay5
  exact weightT_apply W l e

/-- The value layer's weight, narrowed and transposed, at (l, e). -/
theorem pay6_apply (W : Vec Ideal S32x32 .f32) (l e : Fin 32) : k0_pay6 W (ix2 l e) = W (ix2 e l) := by
  unfold k0_pay6
  exact weightT_apply W l e

/-- A product into the zero accumulator at (r, e): row r of the left operand against column e of the right one. -/
theorem product_apply (A : FVec Ideal S8192x32 .bf16) (B : FVec Ideal S32x32 .bf16) (r : Fin 8192) (e : Fin 32) :
    matmul dot_S8192x32_S32x32_S8192x32_1_0_0_1_n_n none A B (constant S8192x32 .f32 0x00000000#32) (ix2 r e)
      = ∑ l : Fin 32, A (ix2 r l) * B (ix2 l e) := by
  rw [dot_eq_plain]
  exact PlainDot.matmul_zero_apply_any 8192 32 32 none A B (ix2 r e)

/-- The shared stage: a flattened block times a transposed weight, at (r, e) with r = 16 p + c, is the block's row (p, c)
    against the weight's row e. -/
theorem dense_apply (x : Vec Ideal S512x16x32 .f32) (W : Vec Ideal S32x32 .f32) (A : FVec Ideal S8192x32 .bf16)
    (B : FVec Ideal S32x32 .bf16) (p : Fin 512) (c : Fin 16) (e : Fin 32) (r : Fin 8192)
    (hA : ∀ l : Fin 32, A (ix2 r l) = x (ix3 p c l)) (hB : ∀ l : Fin 32, B (ix2 l e) = W (ix2 e l)) :
    matmul dot_S8192x32_S32x32_S8192x32_1_0_0_1_n_n none A B (constant S8192x32 .f32 0x00000000#32) (ix2 r e)
      = ∑ l : Fin 32, x (ix3 p c l) * W (ix2 e l) := by
  rw [product_apply]
  exact Finset.sum_congr rfl fun l _ => by rw [hA l, hB l]

/-- The bias laid as one row and repeated down the 8192 rows: at (r, e) it is the bias's entry e. -/
theorem biasRows_apply (b : Vec Ideal S32 .f32) (r : Fin 8192) (e : Fin 32) :
    broadcastTo S8192x32 (shapeCast S1x32 b shapeCasts_S32_S1x32) broadcasts_S1x32_S8192x32 (ix2 r e) = b (ix1 e) :=
  (broadcastTo_1b_ab_apply _ _ r e).trans (shapeCast_a_1a_apply b _ 0 e)

/-! ## The four layers -/

/-- The query block at (p, c, e): the product of the two stacks' layer outputs (each bias loaded on its own). -/
theorem pay7_apply (x0 x1 : Vec Ideal S512x16x32 .f32) (x2 : Vec Ideal S32x32 .f32) (x3 x3' : Vec Ideal S32 .f32)
    (p : Fin 512) (c : Fin 16) (e : Fin 32) :
    k0_pay7 x0 x1 x2 x3 x3' (ix3 p c e)
      = ((∑ l : Fin 32, x0 (ix3 p c l) * x2 (ix2 e l)) + x3 (ix1 e)) * ((∑ l : Fin 32, x1 (ix3 p c l) * x2 (ix2 e l)) + x3' (ix1 e)) := by
  have hlt : p.val * 16 + c.val < 8192 := by have := p.isLt; have := c.isLt; omega
  unfold k0_pay7
  refine (FlattenRows.shapeCast_nc_abc_apply _ _ p c e ⟨p.val * 16 + c.val, hlt⟩ rfl).trans ?_
  refine (mulf_apply _ _ _).trans ?_
  rw [addf_apply, addf_apply, biasRows_apply, biasRows_apply,
    dense_apply x0 x2 _ _ p c e _ (fun l => pay3_apply x0 p c l _ rfl) (fun l => weightT_apply x2 l e),
    dense_apply x1 x2 _ _ p c e _ (fun l => pay4_apply x1 p c l _ rfl) (fun l => weightT_apply x2 l e)]

/-- The first stack's key layer output at flattened row r = 16 p + c. -/
theorem pay8_apply (x0 : Vec Ideal S512x16x32 .f32) (x4 : Vec Ideal S32x32 .f32) (x5 : Vec Ideal S32 .f32)
    (p : Fin 512) (c : Fin 16) (e : Fin 32) (r : Fin 8192) (hr : r.val = p.val * 16 + c.val) :
    k0_pay8 x0 x4 x5 (ix2 r e) = (∑ l : Fin 32, x0 (ix3 p c l) * x4 (ix2 e l)) + x5 (ix1 e) := by
  unfold k0_pay8
  refine (addf_apply _ _ _).trans ?_
  rw [biasRows_apply,
    dense_apply x0 x4 _ _ p c e r (fun l => pay3_apply x0 p c l r hr) (fun l => pay5_apply x4 l e)]

/-- The second stack's key product (before its bias) at flattened row r = 16 p + c. -/
theorem pay9_apply (x1 : Vec Ideal S512x16x32 .f32) (x4 : Vec Ideal S32x32 .f32)
    (p : Fin 512) (c : Fin 16) (e : Fin 32) (r : Fin 8192) (hr : r.val = p.val * 16 + c.val) :
    k0_pay9 x1 x4 (ix2 r e) = ∑ l : Fin 32, x1 (ix3 p c l) * x4 (ix2 e l) := by
  unfold k0_pay9
  exact dense_apply x1 x4 _ _ p c e r (fun l => pay4_apply x1 p c l r hr) (fun l => pay5_apply x4 l e)

/-- Entry (p, c, e) of the block of values. -/
theorem valBlock_apply (x0 x1 : Vec Ideal S512x16x32 .f32) (x6 : Vec Ideal S32x32 .f32) (x7 : Vec Ideal S32 .f32)
    (p : Fin 512) (c : Fin 16) (e : Fin 32) :
    valBlock x0 x1 x6 x7 (ix3 p c e) = Cert.Spec.pair x6 x7 (fun l => x0 (ix3 p c l)) (fun l => x1 (ix3 p c l)) e := by
  have hlt : p.val * 16 + c.val < 8192 := by have := p.isLt; have := c.isLt; omega
  unfold Cert.Spec.pair Cert.Spec.lin
  show k0_pay10 (k0_pay3 x0) (k0_pay4 x1) (k0_pay6 x6) x7 x7 (ix3 p c e) = _
  unfold k0_pay10
  refine (FlattenRows.shapeCast_nc_abc_apply _ _ p c e ⟨p.val * 16 + c.val, hlt⟩ rfl).trans ?_
  refine (mulf_apply _ _ _).trans ?_
  rw [addf_apply, addf_apply, biasRows_apply,
    dense_apply x0 x6 _ _ p c e _ (fun l => pay3_apply x0 p c l _ rfl) (fun l => pay6_apply x6 l e),
    dense_apply x1 x6 _ _ p c e _ (fun l => pay4_apply x1 p c l _ rfl) (fun l => pay6_apply x6 l e)]

end Cert.KernelIdeal.Stage1

end
-- ==== Proof.LibRowsByRows.lean ====
/-
  A BATCHED PRODUCT OF ROWS BY ROWS, read at an index.

  For two stacks A : [B, N, K] and C : [B, M, K] the product that keeps the leading axis as a batch axis and
  contracts the LAST axis of both — `einsum "bnk,bmk->bnm"`, sample by sample the matrix A_b · C_bᵀ — has at
  (b, n, m) the value Σ_k A(b, n, k) · C(b, m, k). This is stated once for the dimension numbers
  contracting [2] × [2], free [1] × [1], batch [0] × [0], and then for the two operations that carry them at the ideal
  values: the vector unit's matrix product into a zero accumulator, and the host's general dot product. Both are the same
  plain sum of extended reals (no rounding, no order), so a kernel's product of a block and a reference's product of
  the whole array agree entry by entry.
-/
import Idealize.ShloMosaic.PureOps.Ideal
import Idealize.ShloMosaic.PureOps.Ideal.Laws
import Idealize.ShloMosaic.Lib.ValueIdx

noncomputable section

open scoped BigOperators

namespace Cert.Lib.RowsByRows

open Idealize.ShloMosaic Idealize.ShloMosaic.ValueIdx

variable {B N M K : Nat}

/-- The dimension numbers of the batched rows-by-rows product over [B, N, K] and [B, M, K]; `w` is their
    well-formedness, which a program states of its literal shapes. -/
abbrev dims (w : DotDims.WF ⟨3, ![B, N, K]⟩ ⟨3, ![B, M, K]⟩ ⟨3, ![B, N, M]⟩ [2] [2] [1] [1] [0] [0]) :
    DotDims ⟨3, ![B, N, K]⟩ ⟨3, ![B, M, K]⟩ ⟨3, ![B, N, M]⟩ := ⟨[2], [2], [1], [1], [0], [0], w⟩

variable (w : DotDims.WF ⟨3, ![B, N, K]⟩ ⟨3, ![B, M, K]⟩ ⟨3, ![B, N, M]⟩ [2] [2] [1] [1] [0] [0])

/-- At output entry (b, n, m) and contracted coordinate c the left operand is read at (b, n, c). -/
theorem lhsIdx_eq (b : Fin B) (n : Fin N) (m : Fin M) (c : Fin K) :
    (dims w).lhsIdx (ix3 b n m) ((contrEquiv1 (dims w) K rfl rfl).symm c) = ix3 b n c := by
  have c3 := contrEquiv1_symm_val (dims w) K rfl rfl c
  funext ax; apply Fin.ext
  match ax with
  | ⟨0, _⟩ => simp [DotDims.lhsIdx]; rfl
  | ⟨1, _⟩ => simp [DotDims.lhsIdx]; rfl
  | ⟨2, _⟩ => simp [DotDims.lhsIdx]; exact c3

/-- And the right operand at (b, m, c). -/
theorem rhsIdx_eq (b : Fin B) (n : Fin N) (m : Fin M) (c : Fin K) :
    (dims w).rhsIdx (ix3 b n m) ((contrEquiv1 (dims w) K rfl rfl).symm c) = ix3 b m c := by
  have c3 := contrEquiv1_symm_val (dims w) K rfl rfl c
  funext ax; apply Fin.ext
  match ax with
  | ⟨0, _⟩ => simp [DotDims.rhsIdx]; rfl
  | ⟨1, _⟩ => simp [DotDims.rhsIdx]; rfl
  | ⟨2, _⟩ => simp [DotDims.rhsIdx]; exact c3

/-- The contraction's sum at (b, n, m), re-indexed by the contracted coordinate. -/
theorem contraction_sum (A : (⟨3, ![B, N, K]⟩ : Shape).Idx → EReal) (C : (⟨3, ![B, M, K]⟩ : Shape).Idx → EReal)
    (b : Fin B) (n : Fin N) (m : Fin M) :
    ∑ k : (dims w).contr.Idx, A ((dims w).lhsIdx (ix3 b n m) k) * C ((dims w).rhsIdx (ix3 b n m) k)
      = ∑ c : Fin K, A (ix3 b n c) * C (ix3 b m c) := by
  rw [← Equiv.sum_comp (contrEquiv1 (dims w) K rfl rfl).symm]
  refine Finset.sum_congr rfl fun c _ => ?_
  rw [lhsIdx_eq, rhsIdx_eq]

/-- The host's general dot product with these dimension numbers, at the ideal values, read at (b, n, m). -/
theorem dotGeneral_apply {φ₁ φ₂ : FTy} (prec : Option ContractPrecision)
    (A : FVec Ideal ⟨3, ![B, N, K]⟩ φ₁) (C : FVec Ideal ⟨3, ![B, M, K]⟩ φ₂) (b : Fin B) (n : Fin N) (m : Fin M) :
    Host.dotGeneral (dims w) prec A C (ix3 b n m) = ∑ c : Fin K, A (ix3 b n c) * C (ix3 b m c) := by
  show FloatOps.dotGeneral _ prec _ A C (ix3 b n m) = _
  rw [Ideal.dotGeneral_apply]
  exact contraction_sum w A C b n m

/-- The vector unit's matrix product with these dimension numbers into a zero accumulator, at the ideal values, read at
    (b, n, m): the same sum. -/
theorem matmul_zero_apply {φ₁ φ₂ : FTy} (prec : Option ContractPrecision)
    (A : FVec Ideal ⟨3, ![B, N, K]⟩ φ₁) (C : FVec Ideal ⟨3, ![B, M, K]⟩ φ₂) (b : Fin B) (n : Fin N) (m : Fin M) :
    matmul (dims w) prec A C (constant ⟨3, ![B, N, M]⟩ .f32 0x00000000#32) (ix3 b n m)
      = ∑ c : Fin K, A (ix3 b n c) * C (ix3 b m c) := by
  show FloatOps.matmul _ prec A C (constant (F := Ideal) ⟨3, ![B, N, M]⟩ .f32 0x00000000#32) (ix3 b n m) = _
  rw [Ideal.matmul_constant_zero_apply]
  exact contraction_sum w A C b n m

end Cert.Lib.RowsByRows

end
-- ==== Proof.LibKeepdims3.lean ====
/-
  The keepdims layouts of a reduction over the last axis of a rank-3 array, read at an index: an [a, b] array recast with a
  trailing unit axis as [a, b, 1], and an [a, b, 1] array repeated along that axis to [a, b, c].
-/
import Idealize.ShloMosaic.Lib.Pipeline.Value
import Idealize.ShloMosaic.Lib.ValueIdx

noncomputable section

namespace Idealize.ShloMosaic.Keepdims3

open Idealize.ShloMosaic Idealize.ShloMosaic.ValueIdx

variable {α : Type}

/-- An `[a, b]` array cast to `[a, b, 1]` reads, at `(p, s, u)`, the operand at `(p, s)`, whatever the unit coordinate `u`:
    both positions are the (p · b + s)-th in row-major order. -/
theorem shapeCast_ab_ab1_apply {a b : ℕ} (x : (⟨2, ![a, b]⟩ : Shape).Idx → α)
    (h : (⟨2, ![a, b]⟩ : Shape).ShapeCasts ⟨3, ![a, b, 1]⟩) (p : Fin a) (s : Fin b) (u : Fin 1) :
    shapeCast ⟨3, ![a, b, 1]⟩ x h (ix3 p s u) = x (ix2 p s) :=
  shapeCast_apply x h _ _ (by
    have hu : u.val = 0 := by omega
    rw [Shape.rowMajor_val_three, Shape.rowMajor_val_two]
    show p.val * b + s.val = (p.val * b + s.val) * 1 + u.val
    rw [hu, Nat.mul_one, Nat.add_zero])

/-- An `[a, b, 1]` array broadcast to `[a, b, c]` reads, at `(p, s, k)`, the operand's entry of `(p, s)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (k : Fin c) :
    broadcastTo ⟨3, ![a, b, c]⟩ v h (ix3 p s k) = v (ix3 p s (0 : Fin 1)) := by
  refine broadcastTo_apply v h (ix3 p s k) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

end Idealize.ShloMosaic.Keepdims3

end
-- ==== Proof.Stage1Pay.lean ====
/-
  The first call's blocks read at an entry, over the extended reals.
-/
import proofs.«146195_j71253507440717_1_alg».proof.Proof.Stage1Defs
import proofs.«146195_j71253507440717_1_alg».proof.Proof.Stage1Dense
import proofs.«146195_j71253507440717_1_alg».proof.Proof.LibRowsByRows
import proofs.«146195_j71253507440717_1_alg».proof.Proof.LibKeepdims3
import proofs.«146195_j71253507440717_1_alg».proof.Proof.LibFlattenRows
import proofs.«146195_j71253507440717_1_alg».proof.Proof.LibRowOfVector
import proofs.«146195_j71253507440717_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Stage1

open Cert.KernelIdeal Cert.KernelIdeal.Gen Idealize.ShloMosaic Idealize.ShloMosaic.ValueIdx

/-- The index a sum down the last axis of a [512, 16, 32] block inserts at (p, s): coordinate k goes last. -/
private theorem lift_last (h : S512x16x32.Reduces [2] S512x16) (p : Fin 512) (s : Fin 16) (k : Fin 32) :
    h.lift (ix2 p s) k = ix3 p s k := by
  funext ax; apply Fin.ext
  match ax with
  | ⟨0, _⟩ => rfl
  | ⟨1, _⟩ => rfl
  | ⟨2, _⟩ => rfl

/-- The index a sum down the first axis of a [512, 16, 16] block inserts at (c, d): coordinate p goes first. -/
private theorem lift_first (h : S512x16x16.Reduces [0] S16x16) (c d : Fin 16) (p : Fin 512) :
    h.lift (ix2 c d) p = ix3 p c d := by
  funext ax; apply Fin.ext
  match ax with
  | ⟨0, _⟩ => rfl
  | ⟨1, _⟩ => rfl
  | ⟨2, _⟩ => rfl

/-- A block divided by its clamped Euclidean norm along the last axis (the sum of squares kept as a trailing unit axis,
    its root clamped below by the splat of the tiny word, repeated along the axis, and the narrowing that is the identity
    over the extended reals), read at an entry: the row's unitized vector. -/
private theorem unitBlock_apply (x : FVec Ideal S512x16x32 .f32) (hφ : FKind.Formats .f32)
    (hacc : (0x00000000#32 : BitVec 32) = 0x00000000#32) (p : Fin 512) (s : Fin 16) (e : Fin 32) :
    truncf .bf16 (divf x (broadcastTo S512x16x32
        (maximumf (sqrt (shapeCast S512x16x1
            (multiReduction .add [2] S512x16 (mulf x x) 0x00000000#32 reduces_S512x16x32_S512x16 hφ hacc)
            shapeCasts_S512x16_S512x16x1))
          (broadcast S512x16x1 (Scalar.ofBits (F := Ideal) .f32 0x2B8CBCCC#32)))
        broadcasts_S512x16x1_S512x16x32)) bitsLt_bf16_f32 (ix3 p s e)
      = Cert.Spec.unitize (fun e => x (ix3 p s e)) e := by
  unfold Cert.Spec.unitize
  refine congrArg (Ideal.div (x (ix3 p s e))) ?_
  refine (Keepdims3.broadcastTo_ab1_abc_apply _ _ p s e).trans ?_
  refine congrArg (fun t => max (Ideal.sqrt t) (Ideal.ofBits .f32 0x2B8CBCCC#32)) ?_
  refine (Keepdims3.shapeCast_ab_ab1_apply _ _ p s 0).trans ?_
  refine (Ideal.multiReduction_add_single _ _ reduces_S512x16x32_S512x16 _ _ (ix2 p s)).trans ?_
  refine Finset.sum_congr rfl fun k _ => ?_
  exact congrArg (fun i => x i * x i) (lift_last reduces_S512x16x32_S512x16 p s k)

/-- The key block before its norm: the flattened product of the first stack's output and the second stack's output plus
    the bias row, recast to [512, 16, 32]; at (p, d, e) it reads row r = 16 p + d. -/
private theorem keyBlock_apply (v34 v35 : FVec Ideal S8192x32 .f32) (v36 : Vec Ideal S32 .f32)
    (p : Fin 512) (d : Fin 16) (e : Fin 32) (r : Fin 8192) (hr : r.val = p.val * 16 + d.val) :
    shapeCast S512x16x32
        (mulf v34 (addf v35 (broadcastTo S8192x32 (shapeCast S1x32 v36 shapeCasts_S32_S1x32) broadcasts_S1x32_S8192x32)))
        shapeCasts_S8192x32_S512x16x32 (ix3 p d e)
      = v34 (ix2 r e) * (v35 (ix2 r e) + v36 (ix1 e)) := by
  refine (FlattenRows.shapeCast_nc_abc_apply _ _ p d e r hr).trans ?_
  refine congrArg (fun t => v34 (ix2 r e) * (v35 (ix2 r e) + t)) ?_
  refine (broadcastTo_1b_ab_apply _ _ r e).trans ?_
  exact RowOfVector.apply v36 _ e

/-- The score stage over its three incoming values: the query block, the first stack's key output and the second
    stack's key product (flattened to 8192 rows), and the key bias loaded again. -/
theorem pay11_apply (v29 : FVec Ideal S512x16x32 .f32) (v34 v35 : FVec Ideal S8192x32 .f32) (v36 : Vec Ideal S32 .f32)
    (p : Fin 512) (c d : Fin 16) (r : Fin 8192) (hr : r.val = p.val * 16 + d.val) :
    k0_pay11 v29 v34 v35 v36 (ix3 p c d)
      = Ideal.exp (∑ e : Fin 32, Cert.Spec.unitize (fun e => v29 (ix3 p c e)) e
          * Cert.Spec.unitize (fun e => v34 (ix2 r e) * (v35 (ix2 r e) + v36 (ix1 e))) e) := by
  unfold k0_pay11
  refine congrArg Ideal.exp ?_
  refine (Cert.Lib.RowsByRows.matmul_zero_apply dot_S512x16x32_S512x16x32_S512x16x16_2_2_1_1_0_0_wf none _ _ p c d).trans ?_
  refine Finset.sum_congr rfl fun e _ => ?_
  refine congrArg₂ (· * ·) ?_ ?_
  · exact unitBlock_apply v29 _ _ p c e
  · refine (unitBlock_apply _ _ _ p d e).trans ?_
    refine congrArg (fun q => Cert.Spec.unitize q e) (funext fun e' => ?_)
    exact keyBlock_apply v34 v35 v36 p d e' r hr

/-- Entry (p, c, d) of the block of exponentiated scores: the exponential of row p's score of c against d. -/
theorem expBlock_apply (x0 x1 : Vec Ideal S512x16x32 .f32) (x2 : Vec Ideal S32x32 .f32) (x3 : Vec Ideal S32 .f32)
    (x4 : Vec Ideal S32x32 .f32) (x5 : Vec Ideal S32 .f32) (p : Fin 512) (c d : Fin 16) :
    expBlock x0 x1 x2 x3 x4 x5 (ix3 p c d)
      = Ideal.exp (Cert.Spec.rowScore x2 x3 x4 x5 (fun c l => x0 (ix3 p c l)) (fun c l => x1 (ix3 p c l)) c d) := by
  have hlt : p.val * 16 + d.val < 8192 := by have := p.isLt; have := d.isLt; omega
  refine (pay11_apply _ _ _ _ p c d ⟨p.val * 16 + d.val, hlt⟩ rfl).trans ?_
  refine congrArg Ideal.exp ?_
  unfold Cert.Spec.rowScore
  refine Finset.sum_congr rfl fun e _ => ?_
  refine congrArg₂ (· * ·) ?_ ?_
  · refine congrArg (fun q => Cert.Spec.unitize q e) (funext fun e' => ?_)
    exact pay7_apply x0 x1 x2 x3 x3 p c e'
  · refine congrArg (fun q => Cert.Spec.unitize q e) (funext fun e' => ?_)
    refine (congrArg₂ (fun a b => a * (b + x5 (ix1 e')))
      (pay8_apply x0 x4 x5 p d e' ⟨p.val * 16 + d.val, hlt⟩ rfl) (pay9_apply x1 x4 p d e' ⟨p.val * 16 + d.val, hlt⟩ rfl)).trans ?_
    rfl

/-- Entry (c, d) of one step of the running total. -/
theorem sumStep_apply (E : FVec Ideal S512x16x16 .f32) (prev : Vec Ideal S16x16 .f32) (c d : Fin 16) :
    sumStep E prev (ix2 c d) = prev (ix2 c d) + ∑ p : Fin 512, E (ix3 p c d) := by
  show k0_pay1 E prev (ix2 c d) = _
  unfold k0_pay1
  refine congrArg₂ (· + ·) (congrFun (shapeCast_self prev _) (ix2 c d)) ?_
  refine (Ideal.multiReduction_add_single E _ reduces_S512x16x16_S16x16 _ _ (ix2 c d)).trans ?_
  refine Finset.sum_congr rfl fun k _ => ?_
  exact congrArg E (lift_first reduces_S512x16x16_S16x16 c d k)

/-- The starting block is zero everywhere. -/
theorem zeroBlock_apply (j : S16x16.Idx) : zeroBlock (F := Ideal) j = 0 := by
  show Ideal.ofBits .f32 0x00000000#32 = 0
  exact Ideal.ofBits_zero_f32

end Cert.KernelIdeal.Stage1

end
-- ==== Proof.Stage1Pieces.lean ====
/-
  What the first call's three output buffers hold after each grid point: the point's block of exponentiated scores, its
  block of values, and the running total — zero plus the first block's column sums at the first point, the total so far
  plus the block's column sums afterwards.
-/
import proofs.«146195_j71253507440717_1_alg».proof.Proof.Gen.KernelIdeal.Frame
import proofs.«146195_j71253507440717_1_alg».proof.Proof.Stage1Defs
import Idealize.ShloMosaic.Lib.Pipeline.Value
import Idealize.ShloMosaic.Lib.Tactic

noncomputable section

namespace Cert.KernelIdeal.Stage1

open Cert.KernelIdeal Cert.KernelIdeal.Gen Idealize.ShloMosaic Idealize.ShloMosaic.TcCoe Idealize.SL.Sem
open Idealize.ShloMosaic.Pipeline (Dat)

variable {F : FTy → Type} [FloatOps F]

/-! ## What one run of the body leaves in each output buffer

Every load and every store of the body goes through the whole buffer (the unit rectangle at zero offsets), so a buffer
written once holds that store's payload, and a load reads the buffer's contents. -/

/-- The zero offsets of rank 1, 2 and 3, as constant functions. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- At the first point the first output's buffer is left at the block of exponentiated scores of what was loaded. -/
theorem out0_A_8_eq (c : Dev nD) (i : grid0.Coords) (arg1 : Memref sig .tc .vmem S512x16x32 .f32) (harg1 : arg1.IsWhole) (arg2 : Memref sig .tc .vmem S512x16x32 .f32) (harg2 : arg2.IsWhole) (arg3 : Memref sig .tc .vmem S32x32 .f32) (harg3 : arg3.IsWhole) (arg4 : Memref sig .tc .vmem S32 .f32) (harg4 : arg4.IsWhole) (arg5 : Memref sig .tc .vmem S32x32 .f32) (harg5 : arg5.IsWhole) (arg6 : Memref sig .tc .vmem S32 .f32) (harg6 : arg6.IsWhole) (arg7 : Memref sig .tc .vmem S32x32 .f32) (harg7 : arg7.IsWhole) (arg8 : Memref sig .tc .vmem S32 .f32) (harg8 : arg8.IsWhole) (arg9 : Memref sig .tc .vmem S512x16x16 .f32) (harg9 : arg9.IsWhole) (arg10 : Memref sig .tc .vmem S512x16x32 .f32) (harg10 : arg10.IsWhole) (arg11 : Memref sig .tc .vmem S16x16 .f32) (harg11 : arg11.IsWhole) (hc0 : cond0_0 i)
    (x0 : Vec F S512x16x32 .f32) (x1 : Vec F S512x16x32 .f32) (x2 : Vec F S32x32 .f32) (x3 : Vec F S32 .f32) (x4 : Vec F S32x32 .f32) (x5 : Vec F S32 .f32) (x6 : Vec F S32x32 .f32) (x7 : Vec F S32 .f32) :
    out0_A_8 c i arg1 harg1 arg2 harg2 arg3 harg3 arg4 harg4 arg5 harg5 arg6 harg6 arg7 harg7 arg8 harg8 arg9 harg9 arg10 harg10 arg11 harg11 hc0 x0 x1 x2 x3 x4 x5 x6 x7 = expBlock x0 x1 x2 x3 x4 x5 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 hc0 x0 x1 x2 x3 x4 x5 x6 x7)]
  unfold kernelRun0_A
  dsimp only
  sl_unfold_words
  rw [View.canon_unit_zero hz3]
  simp only [View.readAt_eq_ld, harg1.read_unread, harg2.read_unread, harg3.read_unread, harg4.read_unread,
    harg5.read_unread, harg6.read_unread, harg7.read_unread, harg8.read_unread,
    View.ld_unit_zero (S := S512x16x32) hz3, View.ld_unit_zero (S := S32x32) hz2, View.ld_unit_zero (S := S32) hz1]

/-- At a later point likewise. -/
theorem out0_B_8_eq (c : Dev nD) (i : grid0.Coords) (arg1 : Memref sig .tc .vmem S512x16x32 .f32) (harg1 : arg1.IsWhole) (arg2 : Memref sig .tc .vmem S512x16x32 .f32) (harg2 : arg2.IsWhole) (arg3 : Memref sig .tc .vmem S32x32 .f32) (harg3 : arg3.IsWhole) (arg4 : Memref sig .tc .vmem S32 .f32) (harg4 : arg4.IsWhole) (arg5 : Memref sig .tc .vmem S32x32 .f32) (harg5 : arg5.IsWhole) (arg6 : Memref sig .tc .vmem S32 .f32) (harg6 : arg6.IsWhole) (arg7 : Memref sig .tc .vmem S32x32 .f32) (harg7 : arg7.IsWhole) (arg8 : Memref sig .tc .vmem S32 .f32) (harg8 : arg8.IsWhole) (arg9 : Memref sig .tc .vmem S512x16x16 .f32) (harg9 : arg9.IsWhole) (arg10 : Memref sig .tc .vmem S512x16x32 .f32) (harg10 : arg10.IsWhole) (arg11 : Memref sig .tc .vmem S16x16 .f32) (harg11 : arg11.IsWhole) (hc0 : ¬cond0_0 i)
    (x0 : Vec F S512x16x32 .f32) (x1 : Vec F S512x16x32 .f32) (x2 : Vec F S32x32 .f32) (x3 : Vec F S32 .f32) (x4 : Vec F S32x32 .f32) (x5 : Vec F S32 .f32) (x6 : Vec F S32x32 .f32) (x7 : Vec F S32 .f32) (xo10 : Vec F S16x16 .f32) :
    out0_B_8 c i arg1 harg1 arg2 harg2 arg3 harg3 arg4 harg4 arg5 harg5 arg6 harg6 arg7 harg7 arg8 harg8 arg9 harg9 arg10 harg10 arg11 harg11 hc0 x0 x1 x2 x3 x4 x5 x6 x7 xo10 = expBlock x0 x1 x2 x3 x4 x5 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 hc0 x0 x1 x2 x3 x4 x5 x6 x7 xo10)]
  unfold kernelRun0_B
  dsimp only
  sl_unfold_words
  rw [View.canon_unit_zero hz3]
  simp only [View.readAt_eq_ld, harg1.read_unread, harg2.read_unread, harg3.read_unread, harg4.read_unread,
    harg5.read_unread, harg6.read_unread, harg7.read_unread, harg8.read_unread,
    View.ld_unit_zero (S := S512x16x32) hz3, View.ld_unit_zero (S := S32x32) hz2, View.ld_unit_zero (S := S32) hz1]

/-- At the first point the second output's buffer is left at the block of values of what was loaded. -/
theorem out0_A_9_eq (c : Dev nD) (i : grid0.Coords) (arg1 : Memref sig .tc .vmem S512x16x32 .f32) (harg1 : arg1.IsWhole) (arg2 : Memref sig .tc .vmem S512x16x32 .f32) (harg2 : arg2.IsWhole) (arg3 : Memref sig .tc .vmem S32x32 .f32) (harg3 : arg3.IsWhole) (arg4 : Memref sig .tc .vmem S32 .f32) (harg4 : arg4.IsWhole) (arg5 : Memref sig .tc .vmem S32x32 .f32) (harg5 : arg5.IsWhole) (arg6 : Memref sig .tc .vmem S32 .f32) (harg6 : arg6.IsWhole) (arg7 : Memref sig .tc .vmem S32x32 .f32) (harg7 : arg7.IsWhole) (arg8 : Memref sig .tc .vmem S32 .f32) (harg8 : arg8.IsWhole) (arg9 : Memref sig .tc .vmem S512x16x16 .f32) (harg9 : arg9.IsWhole) (arg10 : Memref sig .tc .vmem S512x16x32 .f32) (harg10 : arg10.IsWhole) (arg11 : Memref sig .tc .vmem S16x16 .f32) (harg11 : arg11.IsWhole) (hc0 : cond0_0 i)
    (x0 : Vec F S512x16x32 .f32) (x1 : Vec F S512x16x32 .f32) (x2 : Vec F S32x32 .f32) (x3 : Vec F S32 .f32) (x4 : Vec F S32x32 .f32) (x5 : Vec F S32 .f32) (x6 : Vec F S32x32 .f32) (x7 : Vec F S32 .f32) :
    out0_A_9 c i arg1 harg1 arg2 harg2 arg3 harg3 arg4 harg4 arg5 harg5 arg6 harg6 arg7 harg7 arg8 harg8 arg9 harg9 arg10 harg10 arg11 harg11 hc0 x0 x1 x2 x3 x4 x5 x6 x7 = valBlock x0 x1 x6 x7 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc0 x0 x1 x2 x3 x4 x5 x6 x7)]
  unfold kernelRun0_A
  dsimp only
  sl_unfold_words
  rw [View.canon_unit_zero hz3]
  simp only [View.readAt_eq_ld, harg1.read_unread, harg2.read_unread, harg3.read_unread, harg4.read_unread,
    harg5.read_unread, harg6.read_unread, harg7.read_unread, harg8.read_unread,
    View.ld_unit_zero (S := S512x16x32) hz3, View.ld_unit_zero (S := S32x32) hz2, View.ld_unit_zero (S := S32) hz1]

/-- At a later point likewise. -/
theorem out0_B_9_eq (c : Dev nD) (i : grid0.Coords) (arg1 : Memref sig .tc .vmem S512x16x32 .f32) (harg1 : arg1.IsWhole) (arg2 : Memref sig .tc .vmem S512x16x32 .f32) (harg2 : arg2.IsWhole) (arg3 : Memref sig .tc .vmem S32x32 .f32) (harg3 : arg3.IsWhole) (arg4 : Memref sig .tc .vmem S32 .f32) (harg4 : arg4.IsWhole) (arg5 : Memref sig .tc .vmem S32x32 .f32) (harg5 : arg5.IsWhole) (arg6 : Memref sig .tc .vmem S32 .f32) (harg6 : arg6.IsWhole) (arg7 : Memref sig .tc .vmem S32x32 .f32) (harg7 : arg7.IsWhole) (arg8 : Memref sig .tc .vmem S32 .f32) (harg8 : arg8.IsWhole) (arg9 : Memref sig .tc .vmem S512x16x16 .f32) (harg9 : arg9.IsWhole) (arg10 : Memref sig .tc .vmem S512x16x32 .f32) (harg10 : arg10.IsWhole) (arg11 : Memref sig .tc .vmem S16x16 .f32) (harg11 : arg11.IsWhole) (hc0 : ¬cond0_0 i)
    (x0 : Vec F S512x16x32 .f32) (x1 : Vec F S512x16x32 .f32) (x2 : Vec F S32x32 .f32) (x3 : Vec F S32 .f32) (x4 : Vec F S32x32 .f32) (x5 : Vec F S32 .f32) (x6 : Vec F S32x32 .f32) (x7 : Vec F S32 .f32) (xo10 : Vec F S16x16 .f32) :
    out0_B_9 c i arg1 harg1 arg2 harg2 arg3 harg3 arg4 harg4 arg5 harg5 arg6 harg6 arg7 harg7 arg8 harg8 arg9 harg9 arg10 harg10 arg11 harg11 hc0 x0 x1 x2 x3 x4 x5 x6 x7 xo10 = valBlock x0 x1 x6 x7 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc0 x0 x1 x2 x3 x4 x5 x6 x7 xo10)]
  unfold kernelRun0_B
  dsimp only
  sl_unfold_words
  rw [View.canon_unit_zero hz3]
  simp only [View.readAt_eq_ld, harg1.read_unread, harg2.read_unread, harg3.read_unread, harg4.read_unread,
    harg5.read_unread, harg6.read_unread, harg7.read_unread, harg8.read_unread,
    View.ld_unit_zero (S := S512x16x32) hz3, View.ld_unit_zero (S := S32x32) hz2, View.ld_unit_zero (S := S32) hz1]

/-- At the first point the total's buffer is zeroed, read back, and left at zero plus the block's column sums. -/
theorem out0_A_10_eq (c : Dev nD) (i : grid0.Coords) (arg1 : Memref sig .tc .vmem S512x16x32 .f32) (harg1 : arg1.IsWhole) (arg2 : Memref sig .tc .vmem S512x16x32 .f32) (harg2 : arg2.IsWhole) (arg3 : Memref sig .tc .vmem S32x32 .f32) (harg3 : arg3.IsWhole) (arg4 : Memref sig .tc .vmem S32 .f32) (harg4 : arg4.IsWhole) (arg5 : Memref sig .tc .vmem S32x32 .f32) (harg5 : arg5.IsWhole) (arg6 : Memref sig .tc .vmem S32 .f32) (harg6 : arg6.IsWhole) (arg7 : Memref sig .tc .vmem S32x32 .f32) (harg7 : arg7.IsWhole) (arg8 : Memref sig .tc .vmem S32 .f32) (harg8 : arg8.IsWhole) (arg9 : Memref sig .tc .vmem S512x16x16 .f32) (harg9 : arg9.IsWhole) (arg10 : Memref sig .tc .vmem S512x16x32 .f32) (harg10 : arg10.IsWhole) (arg11 : Memref sig .tc .vmem S16x16 .f32) (harg11 : arg11.IsWhole) (hc0 : cond0_0 i)
    (x0 : Vec F S512x16x32 .f32) (x1 : Vec F S512x16x32 .f32) (x2 : Vec F S32x32 .f32) (x3 : Vec F S32 .f32) (x4 : Vec F S32x32 .f32) (x5 : Vec F S32 .f32) (x6 : Vec F S32x32 .f32) (x7 : Vec F S32 .f32) :
    out0_A_10 c i arg1 harg1 arg2 harg2 arg3 harg3 arg4 harg4 arg5 harg5 arg6 harg6 arg7 harg7 arg8 harg8 arg9 harg9 arg10 harg10 arg11 harg11 hc0 x0 x1 x2 x3 x4 x5 x6 x7 = sumStep (expBlock x0 x1 x2 x3 x4 x5) zeroBlock := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 hc0 x0 x1 x2 x3 x4 x5 x6 x7)]
  unfold kernelRun0_A
  dsimp only
  sl_unfold_words
  rw [View.canon_cons_unit_zero (S := S16x16) hz2, View.readCov_unit_zero (S := S16x16) _ hz2]
  simp only [View.readAt_eq_ld, harg1.read_unread, harg2.read_unread, harg3.read_unread, harg4.read_unread,
    harg5.read_unread, harg6.read_unread, harg7.read_unread, harg8.read_unread,
    View.ld_unit_zero (S := S512x16x32) hz3, View.ld_unit_zero (S := S32x32) hz2, View.ld_unit_zero (S := S32) hz1]

/-- At a later point the total's buffer, holding `xo10`, is left at `xo10` plus the block's column sums. -/
theorem out0_B_10_eq (c : Dev nD) (i : grid0.Coords) (arg1 : Memref sig .tc .vmem S512x16x32 .f32) (harg1 : arg1.IsWhole) (arg2 : Memref sig .tc .vmem S512x16x32 .f32) (harg2 : arg2.IsWhole) (arg3 : Memref sig .tc .vmem S32x32 .f32) (harg3 : arg3.IsWhole) (arg4 : Memref sig .tc .vmem S32 .f32) (harg4 : arg4.IsWhole) (arg5 : Memref sig .tc .vmem S32x32 .f32) (harg5 : arg5.IsWhole) (arg6 : Memref sig .tc .vmem S32 .f32) (harg6 : arg6.IsWhole) (arg7 : Memref sig .tc .vmem S32x32 .f32) (harg7 : arg7.IsWhole) (arg8 : Memref sig .tc .vmem S32 .f32) (harg8 : arg8.IsWhole) (arg9 : Memref sig .tc .vmem S512x16x16 .f32) (harg9 : arg9.IsWhole) (arg10 : Memref sig .tc .vmem S512x16x32 .f32) (harg10 : arg10.IsWhole) (arg11 : Memref sig .tc .vmem S16x16 .f32) (harg11 : arg11.IsWhole) (hc0 : ¬cond0_0 i)
    (x0 : Vec F S512x16x32 .f32) (x1 : Vec F S512x16x32 .f32) (x2 : Vec F S32x32 .f32) (x3 : Vec F S32 .f32) (x4 : Vec F S32x32 .f32) (x5 : Vec F S32 .f32) (x6 : Vec F S32x32 .f32) (x7 : Vec F S32 .f32) (xo10 : Vec F S16x16 .f32) :
    out0_B_10 c i arg1 harg1 arg2 harg2 arg3 harg3 arg4 harg4 arg5 harg5 arg6 harg6 arg7 harg7 arg8 harg8 arg9 harg9 arg10 harg10 arg11 harg11 hc0 x0 x1 x2 x3 x4 x5 x6 x7 xo10 = sumStep (expBlock x0 x1 x2 x3 x4 x5) xo10 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 hc0 x0 x1 x2 x3 x4 x5 x6 x7 xo10)]
  unfold kernelRun0_B
  dsimp only
  sl_unfold_words
  rw [View.canon_unit_zero hz2]
  simp only [View.readAt_eq_ld, harg1.read_unread, harg2.read_unread, harg3.read_unread, harg4.read_unread,
    harg5.read_unread, harg6.read_unread, harg7.read_unread, harg8.read_unread,
    View.ld_unit_zero (S := S512x16x32) hz3, View.ld_unit_zero (S := S32x32) hz2, View.ld_unit_zero (S := S32) hz1, harg11.read_unread, View.ld_unit_zero (S := S16x16) hz2]

/-! ## The three buffers after each point -/

variable (V : (c : Dev nD) → (b : Ref sig .tc) → Buf (Elt F) ((c : Thread nD τ).loc b))

/-- Point t's block of exponentiated scores, from its input blocks. -/
abbrev expAt (c : Dev nD) (t : Fin cfg0.N) : FVec F S512x16x16 .f32 :=
  expBlock (iblk0 V c 0 t) (iblk0 V c 1 t) (iblk0 V c 2 t) (iblk0 V c 3 t) (iblk0 V c 4 t) (iblk0 V c 5 t)

/-- Point t's block of values, from its input blocks. -/
abbrev valAt (c : Dev nD) (t : Fin cfg0.N) : FVec F S512x16x32 .f32 :=
  valBlock (iblk0 V c 0 t) (iblk0 V c 1 t) (iblk0 V c 6 t) (iblk0 V c 7 t)

/-- The running total after point n. -/
def runSum (c : Dev nD) : (n : ℕ) → n < cfg0.N → FVec F S16x16 .f32
  | 0, h => sumStep (expAt V c ⟨0, h⟩) zeroBlock
  | n + 1, h => sumStep (expAt V c ⟨n + 1, h⟩) (runSum c n (Nat.lt_of_succ_lt h))

/-- A point that resets the total leaves its two blocks and zero plus the block's column sums. -/
theorem outsAt0_first (c : Dev nD) (t : Fin cfg0.N) (h0 : t.val % 128 = 0) :
    outsAt0 V c t.val t.isLt = (expAt V c t, valAt V c t, sumStep (expAt V c t) zeroBlock) := by
  rw [outsAt0_A V c t h0,
    out0_A_8_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk0 V c 0 t) (iblk0 V c 1 t) (iblk0 V c 2 t) (iblk0 V c 3 t) (iblk0 V c 4 t) (iblk0 V c 5 t) (iblk0 V c 6 t) (iblk0 V c 7 t),
    out0_A_9_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk0 V c 0 t) (iblk0 V c 1 t) (iblk0 V c 2 t) (iblk0 V c 3 t) (iblk0 V c 4 t) (iblk0 V c 5 t) (iblk0 V c 6 t) (iblk0 V c 7 t),
    out0_A_10_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk0 V c 0 t) (iblk0 V c 1 t) (iblk0 V c 2 t) (iblk0 V c 3 t) (iblk0 V c 4 t) (iblk0 V c 5 t) (iblk0 V c 6 t) (iblk0 V c 7 t)]

/-- A point that does not reset it leaves its two blocks and the total of the point before plus the block's column sums. -/
theorem outsAt0_next (c : Dev nD) (t : Fin cfg0.N) (h0 : ¬t.val % 128 = 0) :
    outsAt0 V c t.val t.isLt
      = (expAt V c t, valAt V c t, sumStep (expAt V c t) (outsAt0 V c (t.val - 1) (Nat.lt_of_le_of_lt (Nat.sub_le _ _) t.isLt)).2.2) := by
  rw [outsAt0_B V c t h0,
    out0_B_8_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2,
    out0_B_9_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2,
    out0_B_10_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk0 V c 0 t) (iblk0 V c 1 t) (iblk0 V c 2 t) (iblk0 V c 3 t) (iblk0 V c 4 t) (iblk0 V c 5 t) (iblk0 V c 6 t) (iblk0 V c 7 t) (outsAt0 V c (t.val - 1) (Nat.lt_of_le_of_lt (Nat.sub_le _ _) t.isLt)).2.2]

/-- After point n the three output buffers hold the point's two blocks and the running total. -/
theorem outsAt0_eq (c : Dev nD) : ∀ (n : ℕ) (h : n < cfg0.N),
    outsAt0 V c n h = (expAt V c ⟨n, h⟩, valAt V c ⟨n, h⟩, runSum V c n h)
  | 0, h => by
    rw [runSum]
    exact outsAt0_first V c ⟨0, h⟩ rfl
  | n + 1, h => by
    have hN : cfg0.N = 128 := N_0
    have hB : ¬(⟨n + 1, h⟩ : Fin cfg0.N).val % 128 = 0 := by dsimp only; omega
    refine (outsAt0_next V c ⟨n + 1, h⟩ hB).trans ?_
    show (expAt V c ⟨n + 1, h⟩, valAt V c ⟨n + 1, h⟩,
      sumStep (expAt V c ⟨n + 1, h⟩) (outsAt0 V c n (Nat.lt_of_succ_lt h)).2.2) = _
    rw [outsAt0_eq c n (Nat.lt_of_succ_lt h), runSum]

end Cert.KernelIdeal.Stage1

end
-- ==== Proof.LibSumSplit.lean ====
import Mathlib.Algebra.BigOperators.Fin
import Mathlib.Logic.Equiv.Fin.Basic

/-!
A sum over `Fin N` with `N = a · b` is the double sum over the `a` consecutive runs of `b` indices:
index `b · t + q` is the `q`-th of run `t`.
-/

open scoped BigOperators

namespace Cert.SumSplit

/-- Index `b · t + q` of run `t` lies below `a · b`. -/
theorem lt_of_run {a b N : ℕ} (h : a * b = N) (t : Fin a) (q : Fin b) : b * t.val + q.val < N := by
  have ht := t.isLt
  have hq := q.isLt
  calc b * t.val + q.val < b * t.val + b := by omega
    _ = b * (t.val + 1) := (Nat.mul_succ b t.val).symm
    _ ≤ b * a := Nat.mul_le_mul_left _ ht
    _ = N := by rw [Nat.mul_comm, h]

/-- THE SPLIT: `∑ n < a·b, f n = ∑ t < a, ∑ q < b, f (b·t + q)`. -/
theorem sum_split {M : Type*} [AddCommMonoid M] (a b N : ℕ) (h : a * b = N) (f : Fin N → M) :
    ∑ n, f n = ∑ t : Fin a, ∑ q : Fin b, f ⟨b * t.val + q.val, lt_of_run h t q⟩ := by
  subst h
  rw [← Fintype.sum_prod_type']
  symm
  refine Fintype.sum_equiv finProdFinEquiv _ _ ?_
  rintro ⟨t, q⟩
  refine congrArg f (Fin.ext ?_)
  simp [finProdFinEquiv, Nat.add_comm]

end Cert.SumSplit
-- ==== Proof.Stage1Arrays.lean ====
/-
  The three arrays the first call leaves: the exponentiated scores, the values, and the scores' totals over the batch.
-/
import proofs.«146195_j71253507440717_1_alg».proof.Proof.Gen.KernelIdeal.Frame
import proofs.«146195_j71253507440717_1_alg».proof.Proof.Stage1Pay
import proofs.«146195_j71253507440717_1_alg».proof.Proof.Stage1Pieces
import proofs.«146195_j71253507440717_1_alg».proof.Proof.LibSumSplit
import Idealize.ShloMosaic.Lib.Pipeline.Value

noncomputable section

namespace Cert.KernelIdeal.Stage1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Where each window's block sits at a grid point -/

/-- The two stacks' windows and the two row-blocked results move with the point along the rows: block index
    (t, 0, 0) at point t. -/
theorem idx_rows : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_8.index t (0 : Fin 3) = t.val ∧ win0_8.index t (1 : Fin 3) = 0 ∧ win0_8.index t (2 : Fin 3) = 0)
    ∧ (win0_9.index t (0 : Fin 3) = t.val ∧ win0_9.index t (1 : Fin 3) = 0 ∧ win0_9.index t (2 : Fin 3) = 0) :=
  (by decide +kernel : ∀ t : Fin grid0.N, _)

/-- The layers' windows and the total's window never move: block index zero at every point. -/
theorem idx_whole : ∀ t : Fin cfg0.N,
    (win0_2.index t (0 : Fin 2) = 0 ∧ win0_2.index t (1 : Fin 2) = 0)
    ∧ win0_3.index t (0 : Fin 1) = 0
    ∧ (win0_4.index t (0 : Fin 2) = 0 ∧ win0_4.index t (1 : Fin 2) = 0)
    ∧ win0_5.index t (0 : Fin 1) = 0
    ∧ (win0_6.index t (0 : Fin 2) = 0 ∧ win0_6.index t (1 : Fin 2) = 0)
    ∧ win0_7.index t (0 : Fin 1) = 0
    ∧ (win0_10.index t (0 : Fin 2) = 0 ∧ win0_10.index t (1 : Fin 2) = 0) :=
  (by decide +kernel : ∀ t : Fin grid0.N, _)

/-- Row p of block t is a row of the stack. -/
theorem row_lt (t : Fin cfg0.N) (p : Fin 512) : 512 * t.val + p.val < 65536 := by
  have hN : cfg0.N = 128 := N_0
  have h1 := t.isLt
  have h2 := p.isLt
  omega

/-- Row p of block t, as a row of the stack: 512 t + p. -/
abbrev rowOf (t : Fin cfg0.N) (p : Fin 512) : Fin 65536 := ⟨512 * t.val + p.val, row_lt t p⟩

/-! ## The input blocks, read where their windows say -/

/-- Point t's block of the first stack is rows 512 t … 512 t + 511 of it. -/
theorem blk0_apply (c : Dev nD) (t : Fin cfg0.N) (p : Fin 512) (a : Fin 16) (l : Fin 32) :
    (iblk0 V c 0 t : Vec Ideal S512x16x32 .f32) (ix3 p a l) = (V c main_arg0 : Vec Ideal S65536x16x32 .f32) (ix3 (rowOf t p) a l) := by
  obtain ⟨⟨e0, e1, e2⟩, -⟩ := idx_rows t
  unfold iblk0
  rw [View.read_apply]
  show V c main_arg0 _ = V c main_arg0 _
  congr 1
  funext x
  apply Fin.ext
  match x with
  | ⟨0, _⟩ => show win0_0.index t (0 : Fin 3) * 512 + 1 * p.val = 512 * t.val + p.val; rw [e0]; omega
  | ⟨1, _⟩ => show win0_0.index t (1 : Fin 3) * 16 + 1 * a.val = a.val; rw [e1]; omega
  | ⟨2, _⟩ => show win0_0.index t (2 : Fin 3) * 32 + 1 * l.val = l.val; rw [e2]; omega

/-- Point t's block of the second stack is rows 512 t … 512 t + 511 of it. -/
theorem blk1_apply (c : Dev nD) (t : Fin cfg0.N) (p : Fin 512) (a : Fin 16) (l : Fin 32) :
    (iblk0 V c 1 t : Vec Ideal S512x16x32 .f32) (ix3 p a l) = (V c main_arg1 : Vec Ideal S65536x16x32 .f32) (ix3 (rowOf t p) a l) := by
  obtain ⟨-, ⟨e0, e1, e2⟩, -⟩ := idx_rows t
  unfold iblk0
  rw [View.read_apply]
  show V c main_arg1 _ = V c main_arg1 _
  congr 1
  funext x
  apply Fin.ext
  match x with
  | ⟨0, _⟩ => show win0_1.index t (0 : Fin 3) * 512 + 1 * p.val = 512 * t.val + p.val; rw [e0]; omega
  | ⟨1, _⟩ => show win0_1.index t (1 : Fin 3) * 16 + 1 * a.val = a.val; rw [e1]; omega
  | ⟨2, _⟩ => show win0_1.index t (2 : Fin 3) * 32 + 1 * l.val = l.val; rw [e2]; omega

/-- The query layer's weight is loaded whole at every point. -/
theorem blk2_eq (c : Dev nD) (t : Fin cfg0.N) : (iblk0 V c 2 t : Vec Ideal S32x32 .f32) = V c main_arg2 := by
  obtain ⟨⟨e0, e1⟩, -⟩ := idx_whole t
  funext j
  unfold iblk0
  rw [View.read_apply]
  show V c main_arg2 _ = V c main_arg2 j
  congr 1
  funext x
  apply Fin.ext
  match x with
  | ⟨0, _⟩ => show win0_2.index t (0 : Fin 2) * 32 + 1 * (j 0).val = (j 0).val; rw [e0]; omega
  | ⟨1, _⟩ => show win0_2.index t (1 : Fin 2) * 32 + 1 * (j 1).val = (j 1).val; rw [e1]; omega

/-- The query layer's bias is loaded whole at every point. -/
theorem blk3_eq (c : Dev nD) (t : Fin cfg0.N) : (iblk0 V c 3 t : Vec Ideal S32 .f32) = V c main_arg3 := by
  obtain ⟨-, e0, -⟩ := idx_whole t
  funext j
  unfold iblk0
  rw [View.read_apply]
  show V c main_arg3 _ = V c main_arg3 j
  congr 1
  funext x
  apply Fin.ext
  match x with
  | ⟨0, _⟩ => show win0_3.index t (0 : Fin 1) * 32 + 1 * (j 0).val = (j 0).val; rw [e0]; omega

/-- The key layer's weight is loaded whole at every point. -/
theorem blk4_eq (c : Dev nD) (t : Fin cfg0.N) : (iblk0 V c 4 t : Vec Ideal S32x32 .f32) = V c main_arg4 := by
  obtain ⟨-, -, ⟨e0, e1⟩, -⟩ := idx_whole t
  funext j
  unfold iblk0
  rw [View.read_apply]
  show V c main_arg4 _ = V c main_arg4 j
  congr 1
  funext x
  apply Fin.ext
  match x with
  | ⟨0, _⟩ => show win0_4.index t (0 : Fin 2) * 32 + 1 * (j 0).val = (j 0).val; rw [e0]; omega
  | ⟨1, _⟩ => show win0_4.index t (1 : Fin 2) * 32 + 1 * (j 1).val = (j 1).val; rw [e1]; omega

/-- The key layer's bias is loaded whole at every point. -/
theorem blk5_eq (c : Dev nD) (t : Fin cfg0.N) : (iblk0 V c 5 t : Vec Ideal S32 .f32) = V c main_arg5 := by
  obtain ⟨-, -, -, e0, -⟩ := idx_whole t
  funext j
  unfold iblk0
  rw [View.read_apply]
  show V c main_arg5 _ = V c main_arg5 j
  congr 1
  funext x
  apply Fin.ext
  match x with
  | ⟨0, _⟩ => show win0_5.index t (0 : Fin 1) * 32 + 1 * (j 0).val = (j 0).val; rw [e0]; omega

/-- The value layer's weight is loaded whole at every point. -/
theorem blk6_eq (c : Dev nD) (t : Fin cfg0.N) : (iblk0 V c 6 t : Vec Ideal S32x32 .f32) = V c main_arg6 := by
  obtain ⟨-, -, -, -, ⟨e0, e1⟩, -⟩ := idx_whole t
  funext j
  unfold iblk0
  rw [View.read_apply]
  show V c main_arg6 _ = V c main_arg6 j
  congr 1
  funext x
  apply Fin.ext
  match x with
  | ⟨0, _⟩ => show win0_6.index t (0 : Fin 2) * 32 + 1 * (j 0).val = (j 0).val; rw [e0]; omega
  | ⟨1, _⟩ => show win0_6.index t (1 : Fin 2) * 32 + 1 * (j 1).val = (j 1).val; rw [e1]; omega

/-- The value layer's bias is loaded whole at every point. -/
theorem blk7_eq (c : Dev nD) (t : Fin cfg0.N) : (iblk0 V c 7 t : Vec Ideal S32 .f32) = V c main_arg7 := by
  obtain ⟨-, -, -, -, -, e0, -⟩ := idx_whole t
  funext j
  unfold iblk0
  rw [View.read_apply]
  show V c main_arg7 _ = V c main_arg7 j
  congr 1
  funext x
  apply Fin.ext
  match x with
  | ⟨0, _⟩ => show win0_7.index t (0 : Fin 1) * 32 + 1 * (j 0).val = (j 0).val; rw [e0]; omega

/-! ## A block's entries are the whole arrays' entries at the block's rows -/

/-- If row p of the two blocks is row r of the two stacks and the layers are the layers, the block of exponentiated
    scores at (p, a, d) is the exponentiated score array at (r, a, d). -/
theorem expBlock_rows (X1 X2 : Vec Ideal S65536x16x32 .f32) (qW : Vec Ideal S32x32 .f32) (qb : Vec Ideal S32 .f32)
    (kW : Vec Ideal S32x32 .f32) (kb : Vec Ideal S32 .f32) (B0 B1 : Vec Ideal S512x16x32 .f32)
    (B2 : Vec Ideal S32x32 .f32) (B3 : Vec Ideal S32 .f32) (B4 : Vec Ideal S32x32 .f32) (B5 : Vec Ideal S32 .f32)
    (r : Fin 65536) (p : Fin 512)
    (h0 : ∀ (a : Fin 16) (l : Fin 32), B0 (ix3 p a l) = X1 (ix3 r a l))
    (h1 : ∀ (a : Fin 16) (l : Fin 32), B1 (ix3 p a l) = X2 (ix3 r a l))
    (h2 : B2 = qW) (h3 : B3 = qb) (h4 : B4 = kW) (h5 : B5 = kb) (a d : Fin 16) :
    expBlock B0 B1 B2 B3 B4 B5 (ix3 p a d) = Cert.Spec.expo X1 X2 qW qb kW kb (ix3 r a d) := by
  subst h2 h3 h4 h5
  rw [expBlock_apply]
  have e0 : (fun c l => B0 (ix3 p c l)) = Cert.Spec.row X1 r := funext fun c => funext fun l => h0 c l
  have e1 : (fun c l => B1 (ix3 p c l)) = Cert.Spec.row X2 r := funext fun c => funext fun l => h1 c l
  rw [e0, e1]
  rfl

/-- Likewise the block of values at (p, a, e) is the value array at (r, a, e). -/
theorem valBlock_rows (X1 X2 : Vec Ideal S65536x16x32 .f32) (vW : Vec Ideal S32x32 .f32) (vb : Vec Ideal S32 .f32)
    (B0 B1 : Vec Ideal S512x16x32 .f32) (B6 : Vec Ideal S32x32 .f32) (B7 : Vec Ideal S32 .f32)
    (r : Fin 65536) (p : Fin 512)
    (h0 : ∀ (a : Fin 16) (l : Fin 32), B0 (ix3 p a l) = X1 (ix3 r a l))
    (h1 : ∀ (a : Fin 16) (l : Fin 32), B1 (ix3 p a l) = X2 (ix3 r a l))
    (h6 : B6 = vW) (h7 : B7 = vb) (a : Fin 16) (e : Fin 32) :
    valBlock B0 B1 B6 B7 (ix3 p a e) = Cert.Spec.vals X1 X2 vW vb (ix3 r a e) := by
  subst h6 h7
  rw [valBlock_apply]
  have e0 : (fun l => B0 (ix3 p a l)) = Cert.Spec.row X1 r a := funext fun l => h0 a l
  have e1 : (fun l => B1 (ix3 p a l)) = Cert.Spec.row X2 r a := funext fun l => h1 a l
  rw [e0, e1]
  rfl

/-- The exponentiated scores of every row of the two stacks. -/
abbrev expoArr (c : Dev nD) : Cert.Spec.A3 65536 16 16 :=
  Cert.Spec.expo (V c main_arg0) (V c main_arg1) (V c main_arg2) (V c main_arg3) (V c main_arg4) (V c main_arg5)

/-- The values of every row of the two stacks. -/
abbrev valsArr (c : Dev nD) : Cert.Spec.A3 65536 16 32 :=
  Cert.Spec.vals (V c main_arg0) (V c main_arg1) (V c main_arg6) (V c main_arg7)

/-- Point t's block of exponentiated scores is rows 512 t … 512 t + 511 of the array of them. -/
theorem expAt_apply (c : Dev nD) (t : Fin cfg0.N) (p : Fin 512) (a d : Fin 16) :
    expAt V c t (ix3 p a d) = expoArr V c (ix3 (rowOf t p) a d) :=
  expBlock_rows (V c main_arg0) (V c main_arg1) (V c main_arg2) (V c main_arg3) (V c main_arg4) (V c main_arg5)
    (iblk0 V c 0 t) (iblk0 V c 1 t) (iblk0 V c 2 t) (iblk0 V c 3 t) (iblk0 V c 4 t) (iblk0 V c 5 t) (rowOf t p) p
    (blk0_apply V c t p) (blk1_apply V c t p) (blk2_eq V c t) (blk3_eq V c t) (blk4_eq V c t) (blk5_eq V c t) a d

/-- Point t's block of values is rows 512 t … 512 t + 511 of the array of them. -/
theorem valAt_apply (c : Dev nD) (t : Fin cfg0.N) (p : Fin 512) (a : Fin 16) (e : Fin 32) :
    valAt V c t (ix3 p a e) = valsArr V c (ix3 (rowOf t p) a e) :=
  valBlock_rows (V c main_arg0) (V c main_arg1) (V c main_arg6) (V c main_arg7)
    (iblk0 V c 0 t) (iblk0 V c 1 t) (iblk0 V c 6 t) (iblk0 V c 7 t) (rowOf t p) p
    (blk0_apply V c t p) (blk1_apply V c t p) (blk6_eq V c t) (blk7_eq V c t) a e

/-! ## The two row-blocked results -/

/-- Entry (p, a, d) of point t's block of the first result sits at row 512 t + p of the array. -/
theorem emb8 (t : Fin cfg0.N) (p : Fin 512) (a d : Fin 16) :
    ((cfg0.win 8).blk t).view.emb (ix3 p a d) = (ix3 (rowOf t p) a d : S65536x16x16.Idx) := by
  obtain ⟨-, -, ⟨e0, e1, e2⟩, -⟩ := idx_rows t
  funext x
  apply Fin.ext
  match x with
  | ⟨0, _⟩ => show win0_8.index t (0 : Fin 3) * 512 + 1 * p.val = 512 * t.val + p.val; rw [e0]; omega
  | ⟨1, _⟩ => show win0_8.index t (1 : Fin 3) * 16 + 1 * a.val = a.val; rw [e1]; omega
  | ⟨2, _⟩ => show win0_8.index t (2 : Fin 3) * 16 + 1 * d.val = d.val; rw [e2]; omega

/-- Entry (p, a, e) of point t's block of the second result sits at row 512 t + p of the array. -/
theorem emb9 (t : Fin cfg0.N) (p : Fin 512) (a : Fin 16) (e : Fin 32) :
    ((cfg0.win 9).blk t).view.emb (ix3 p a e) = (ix3 (rowOf t p) a e : S65536x16x32.Idx) := by
  obtain ⟨-, -, -, ⟨e0, e1, e2⟩⟩ := idx_rows t
  funext x
  apply Fin.ext
  match x with
  | ⟨0, _⟩ => show win0_9.index t (0 : Fin 3) * 512 + 1 * p.val = 512 * t.val + p.val; rw [e0]; omega
  | ⟨1, _⟩ => show win0_9.index t (1 : Fin 3) * 16 + 1 * a.val = a.val; rw [e1]; omega
  | ⟨2, _⟩ => show win0_9.index t (2 : Fin 3) * 32 + 1 * e.val = e.val; rw [e2]; omega

/-- A buffer whose row p is row 512 t + p of an array is, written back at point t, block t of that array. -/
theorem cut8_eq (t : Fin cfg0.N) (X : Vec Ideal S512x16x16 .f32) (G : Vec Ideal S65536x16x16 .f32)
    (h : ∀ (p : Fin 512) (a d : Fin 16), X (ix3 p a d) = G (ix3 (rowOf t p) a d)) :
    (cfg0.win 8).cut (grid0.coords t) X = ((cfg0.win 8).blk t).view.read (Elt Ideal) G := by
  refine funext fun (j : S512x16x16.Idx) => ?_
  obtain ⟨p, a, d, rfl⟩ : ∃ (p : Fin 512) (a d : Fin 16), j = ix3 p a d := ⟨j 0, j 1, j 2, eq_ix3 j⟩
  rw [View.read_apply, emb8 t p a d]
  exact h p a d

/-- What point t writes back to the first result is block t of the array of exponentiated scores. -/
theorem flushed8_eq (c : Dev nD) (t : Fin cfg0.N) :
    (dat0 V c).flushed 8 t = ((cfg0.win 8).blk t).view.read (Elt Ideal) (expoArr V c) := by
  show (cfg0.win 8).cut (grid0.coords t) ((dat0 V c).after 8 t) = _
  rw [after0_8, outsAt0_eq]
  exact cut8_eq t (expAt V c t) (expoArr V c) (expAt_apply V c t)

/-- Likewise for the second result. -/
theorem cut9_eq (t : Fin cfg0.N) (X : Vec Ideal S512x16x32 .f32) (G : Vec Ideal S65536x16x32 .f32)
    (h : ∀ (p : Fin 512) (a : Fin 16) (e : Fin 32), X (ix3 p a e) = G (ix3 (rowOf t p) a e)) :
    (cfg0.win 9).cut (grid0.coords t) X = ((cfg0.win 9).blk t).view.read (Elt Ideal) G := by
  refine funext fun (j : S512x16x32.Idx) => ?_
  obtain ⟨p, a, e, rfl⟩ : ∃ (p : Fin 512) (a : Fin 16) (e : Fin 32), j = ix3 p a e := ⟨j 0, j 1, j 2, eq_ix3 j⟩
  rw [View.read_apply, emb9 t p a e]
  exact h p a e

/-- What point t writes back to the second result is block t of the array of values. -/
theorem flushed9_eq (c : Dev nD) (t : Fin cfg0.N) :
    (dat0 V c).flushed 9 t = ((cfg0.win 9).blk t).view.read (Elt Ideal) (valsArr V c) := by
  show (cfg0.win 9).cut (grid0.coords t) ((dat0 V c).after 9 t) = _
  rw [after0_9, outsAt0_eq]
  exact cut9_eq t (valAt V c t) (valsArr V c) (valAt_apply V c t)

/-- An entry of the first result is in point t's block iff each coordinate is in the block's range on its axis. -/
theorem mem_blk8 (t : Fin cfg0.N) (i : S65536x16x16.Idx) :
    i ∈ ((cfg0.win 8).blk t).view.set ↔ ∀ x : Fin 3, win0_8.index t x * S512x16x16.size x ≤ (i x).val ∧ (i x).val < win0_8.index t x * S512x16x16.size x + S512x16x16.size x := by
  show i ∈ ((View.whole main_v0_0).slice (win0_8.rect t)).set ↔ _
  rw [View.set_slice_whole, Rect.mem_set_unit]
  exact Iff.rfl

/-- An entry of the second result is in point t's block iff each coordinate is in the block's range on its axis. -/
theorem mem_blk9 (t : Fin cfg0.N) (i : S65536x16x32.Idx) :
    i ∈ ((cfg0.win 9).blk t).view.set ↔ ∀ x : Fin 3, win0_9.index t x * S512x16x32.size x ≤ (i x).val ∧ (i x).val < win0_9.index t x * S512x16x32.size x + S512x16x32.size x := by
  show i ∈ ((View.whole main_v0_1).slice (win0_9.rect t)).set ↔ _
  rw [View.set_slice_whole, Rect.mem_set_unit]
  exact Iff.rfl

/-- Every entry of the first result is written by the point its row falls in: row r by point r / 512. -/
theorem cover8 (i : S65536x16x16.Idx) : ∃ t : Fin cfg0.N, (cfg0.win 8).flush t = true ∧ i ∈ ((cfg0.win 8).blk t).view.set := by
  have hN : cfg0.N = 128 := N_0
  have hi0 : (i 0).val < 65536 := (i 0).isLt
  have hi1 : (i 1).val < 16 := (i 1).isLt
  have hi2 : (i 2).val < 16 := (i 2).isLt
  obtain ⟨t, ht⟩ : ∃ t : Fin cfg0.N, t.val = (i 0).val / 512 := ⟨⟨(i 0).val / 512, by omega⟩, rfl⟩
  obtain ⟨-, -, ⟨e0, e1, e2⟩, -⟩ := idx_rows t
  refine ⟨t, flush0_8 t, ?_⟩
  rw [mem_blk8]
  intro x
  match x with
  | ⟨0, _⟩ => show win0_8.index t (0 : Fin 3) * 512 ≤ (i 0).val ∧ (i 0).val < win0_8.index t (0 : Fin 3) * 512 + 512; rw [e0]; omega
  | ⟨1, _⟩ => show win0_8.index t (1 : Fin 3) * 16 ≤ (i 1).val ∧ (i 1).val < win0_8.index t (1 : Fin 3) * 16 + 16; rw [e1]; omega
  | ⟨2, _⟩ => show win0_8.index t (2 : Fin 3) * 16 ≤ (i 2).val ∧ (i 2).val < win0_8.index t (2 : Fin 3) * 16 + 16; rw [e2]; omega

/-- Every entry of the second result is written by the point its row falls in. -/
theorem cover9 (i : S65536x16x32.Idx) : ∃ t : Fin cfg0.N, (cfg0.win 9).flush t = true ∧ i ∈ ((cfg0.win 9).blk t).view.set := by
  have hN : cfg0.N = 128 := N_0
  have hi0 : (i 0).val < 65536 := (i 0).isLt
  have hi1 : (i 1).val < 16 := (i 1).isLt
  have hi2 : (i 2).val < 32 := (i 2).isLt
  obtain ⟨t, ht⟩ : ∃ t : Fin cfg0.N, t.val = (i 0).val / 512 := ⟨⟨(i 0).val / 512, by omega⟩, rfl⟩
  obtain ⟨-, -, -, ⟨e0, e1, e2⟩⟩ := idx_rows t
  refine ⟨t, flush0_9 t, ?_⟩
  rw [mem_blk9]
  intro x
  match x with
  | ⟨0, _⟩ => show win0_9.index t (0 : Fin 3) * 512 ≤ (i 0).val ∧ (i 0).val < win0_9.index t (0 : Fin 3) * 512 + 512; rw [e0]; omega
  | ⟨1, _⟩ => show win0_9.index t (1 : Fin 3) * 16 ≤ (i 1).val ∧ (i 1).val < win0_9.index t (1 : Fin 3) * 16 + 16; rw [e1]; omega
  | ⟨2, _⟩ => show win0_9.index t (2 : Fin 3) * 32 ≤ (i 2).val ∧ (i 2).val < win0_9.index t (2 : Fin 3) * 32 + 32; rw [e2]; omega

/-! ## The total: one write-back, after the last point -/

/-- The total of entry (a, d) of an array over the 512 rows of block k (a row past the array's end counts zero). -/
def blockTotal (E : Cert.Spec.A3 65536 16 16) (a d : Fin 16) (k : ℕ) : EReal :=
  ∑ p : Fin 512, if h : 512 * k + p.val < 65536 then E (ix3 ⟨512 * k + p.val, h⟩ a d) else 0

/-- The sum down the rows of point t's block of exponentiated scores is the array's total over block t. -/
theorem blockSum_eq (c : Dev nD) (t : Fin cfg0.N) (a d : Fin 16) :
    ∑ p : Fin 512, expAt V c t (ix3 p a d) = blockTotal (expoArr V c) a d t.val := by
  unfold blockTotal
  refine Finset.sum_congr rfl fun p _ => ?_
  rw [dif_pos (row_lt t p)]
  exact expAt_apply V c t p a d

/-- The running total after point n is the array's total over blocks 0 … n. -/
theorem runSum_apply (c : Dev nD) (a d : Fin 16) : ∀ (n : ℕ) (h : n < cfg0.N),
    runSum V c n h (ix2 a d) = ∑ k ∈ Finset.range (n + 1), blockTotal (expoArr V c) a d k
  | 0, h => by
    show sumStep (expAt V c ⟨0, h⟩) (zeroBlock (F := Ideal)) (ix2 a d) = _
    rw [sumStep_apply (expAt V c ⟨0, h⟩) (zeroBlock (F := Ideal)) a d, zeroBlock_apply, zero_add, Finset.sum_range_one]
    exact blockSum_eq V c ⟨0, h⟩ a d
  | n + 1, h => by
    show sumStep (expAt V c ⟨n + 1, h⟩) (runSum V c n (Nat.lt_of_succ_lt h)) (ix2 a d) = _
    rw [sumStep_apply (expAt V c ⟨n + 1, h⟩) (runSum V c n (Nat.lt_of_succ_lt h)) a d,
      runSum_apply c a d n (Nat.lt_of_succ_lt h), Finset.sum_range_succ _ (n + 1)]
    exact congrArg _ (blockSum_eq V c ⟨n + 1, h⟩ a d)

/-- The totals over the 128 blocks add up to the total over the batch: row 512 t + p is the p-th row of block t. -/
theorem total_split (E : Cert.Spec.A3 65536 16 16) (a d : Fin 16) :
    ∑ k ∈ Finset.range 128, blockTotal E a d k = Cert.Spec.total E (ix2 a d) := by
  show _ = ∑ b : Fin 65536, E (ix3 b a d)
  rw [Cert.SumSplit.sum_split 128 512 65536 rfl (fun b => E (ix3 b a d)), Finset.sum_range]
  refine Finset.sum_congr rfl fun t _ => ?_
  unfold blockTotal
  refine Finset.sum_congr rfl fun p _ => ?_
  rw [dif_pos (Cert.SumSplit.lt_of_run rfl t p)]

/-- The total's block is the whole array: entry (a, d) of it sits at (a, d). -/
theorem emb10 (t : Fin cfg0.N) (a d : Fin 16) :
    ((cfg0.win 10).blk t).view.emb (ix2 a d) = (ix2 a d : S16x16.Idx) := by
  obtain ⟨-, -, -, -, -, -, ⟨e0, e1⟩⟩ := idx_whole t
  funext x
  apply Fin.ext
  match x with
  | ⟨0, _⟩ => show win0_10.index t (0 : Fin 2) * 16 + 1 * a.val = a.val; rw [e0]; omega
  | ⟨1, _⟩ => show win0_10.index t (1 : Fin 2) * 16 + 1 * d.val = d.val; rw [e1]; omega

/-- A buffer that agrees with a table entry by entry is, written back, that table. -/
theorem cut10_eq (t : Fin cfg0.N) (X G : Vec Ideal S16x16 .f32) (h : ∀ (a d : Fin 16), X (ix2 a d) = G (ix2 a d)) :
    (cfg0.win 10).cut (grid0.coords t) X = ((cfg0.win 10).blk t).view.read (Elt Ideal) G := by
  refine funext fun (j : S16x16.Idx) => ?_
  obtain ⟨a, d, rfl⟩ : ∃ (a d : Fin 16), j = ix2 a d := ⟨j 0, j 1, eq_ix2 j⟩
  rw [View.read_apply, emb10 t a d]
  exact h a d

/-- After the last point the running total is the total over the batch. -/
theorem runSum_last (c : Dev nD) (t : Fin cfg0.N) (hlast : t.val + 1 = 128) (a d : Fin 16) :
    runSum V c t.val t.isLt (ix2 a d) = Cert.Spec.total (expoArr V c) (ix2 a d) := by
  refine (runSum_apply V c a d t.val t.isLt).trans ?_
  rw [hlast]
  exact total_split (expoArr V c) a d

/-- The one write-back, after the last point, writes the total over the batch. -/
theorem flushed10_eq (c : Dev nD) (t : Fin cfg0.N) (hf : (cfg0.win 10).flush t = true) :
    (dat0 V c).flushed 10 t = ((cfg0.win 10).blk t).view.read (Elt Ideal) (Cert.Spec.total (expoArr V c)) := by
  have hN : cfg0.N = 128 := N_0
  have hlast : t.val + 1 = 128 := by have h1 := (flush0_10 t).mp hf; have h2 := t.isLt; omega
  show (cfg0.win 10).cut (grid0.coords t) ((dat0 V c).after 10 t) = _
  rw [after0_10, outsAt0_eq]
  exact cut10_eq t (runSum V c t.val t.isLt) (Cert.Spec.total (expoArr V c)) (runSum_last V c t hlast)

/-- An entry of the total is in point t's block iff each coordinate is in the block's range on its axis. -/
theorem mem_blk10 (t : Fin cfg0.N) (i : S16x16.Idx) :
    i ∈ ((cfg0.win 10).blk t).view.set ↔ ∀ x : Fin 2, win0_10.index t x * S16x16.size x ≤ (i x).val ∧ (i x).val < win0_10.index t x * S16x16.size x + S16x16.size x := by
  show i ∈ ((View.whole main_v0_2).slice (win0_10.rect t)).set ↔ _
  rw [View.set_slice_whole, Rect.mem_set_unit]
  exact Iff.rfl

/-- Every entry of the total is written by the last point. -/
theorem cover10 (i : S16x16.Idx) : ∃ t : Fin cfg0.N, (cfg0.win 10).flush t = true ∧ i ∈ ((cfg0.win 10).blk t).view.set := by
  have hN : cfg0.N = 128 := N_0
  have hi0 : (i 0).val < 16 := (i 0).isLt
  have hi1 : (i 1).val < 16 := (i 1).isLt
  obtain ⟨t, ht⟩ : ∃ t : Fin cfg0.N, t.val = 127 := ⟨⟨127, by omega⟩, rfl⟩
  obtain ⟨-, -, -, -, -, -, ⟨e0, e1⟩⟩ := idx_whole t
  refine ⟨t, (flush0_10 t).mpr (by omega), ?_⟩
  rw [mem_blk10]
  intro x
  match x with
  | ⟨0, _⟩ => show win0_10.index t (0 : Fin 2) * 16 ≤ (i 0).val ∧ (i 0).val < win0_10.index t (0 : Fin 2) * 16 + 16; rw [e0]; omega
  | ⟨1, _⟩ => show win0_10.index t (1 : Fin 2) * 16 ≤ (i 1).val ∧ (i 1).val < win0_10.index t (1 : Fin 2) * 16 + 16; rw [e1]; omega

/-! ## The three arrays -/

/-- After the first call its first result array holds the exponentiated scores of every row. -/
theorem arr8 (c : Dev nD) :
    (dat0 V c).arrAt 8 cfg0.N
      = Cert.Spec.expo (V c main_arg0) (V c main_arg1) (V c main_arg2) (V c main_arg3) (V c main_arg4) (V c main_arg5) :=
  (dat0 V c).arrAt_eq_of_cover 8 (expoArr V c) (fun t _ => flushed8_eq V c t) cover8

/-- Its second result array holds the values of every row. -/
theorem arr9 (c : Dev nD) :
    (dat0 V c).arrAt 9 cfg0.N = Cert.Spec.vals (V c main_arg0) (V c main_arg1) (V c main_arg6) (V c main_arg7) :=
  (dat0 V c).arrAt_eq_of_cover 9 (valsArr V c) (fun t _ => flushed9_eq V c t) cover9

/-- Its third result array holds, entry by entry, the total of the exponentiated scores over the batch. -/
theorem arr10 (c : Dev nD) :
    (dat0 V c).arrAt 10 cfg0.N
      = Cert.Spec.total (Cert.Spec.expo (V c main_arg0) (V c main_arg1) (V c main_arg2) (V c main_arg3) (V c main_arg4) (V c main_arg5)) :=
  (dat0 V c).arrAt_eq_of_cover 10 (Cert.Spec.total (expoArr V c)) (flushed10_eq V c) cover10

end Cert.KernelIdeal.Stage1

end
-- ==== Proof.Stage2Pay.lean ====
/-
  The second call's output block read at an entry, over the extended reals.
-/
import proofs.«146195_j71253507440717_1_alg».proof.Proof.Gen.KernelIdeal.Frame
import proofs.«146195_j71253507440717_1_alg».proof.Proof.Spec
import proofs.«146195_j71253507440717_1_alg».proof.Proof.LibPlainDotAny
import proofs.«146195_j71253507440717_1_alg».proof.Proof.LibRowOfVector
import Idealize.ShloMosaic.PureOps.Ideal.Laws
import Idealize.ShloMosaic.Lib.ValueIdx
import Idealize.ShloMosaic.Lib.Pipeline.Value

noncomputable section

open scoped BigOperators

namespace Cert.KernelIdeal.Stage2

open Cert.KernelIdeal Cert.KernelIdeal.Gen Idealize.ShloMosaic Idealize.ShloMosaic.ValueIdx

/-! ## A batched product of columns by columns

For two stacks A : [B, K, N] and C : [B, K, M] the product that keeps the leading axis as a batch axis and contracts the
MIDDLE axis of both (sample by sample the matrix A_bᵀ · C_b) has at (b, n, m) the value Σ_c A(b, c, n) · C(b, c, m). -/

section ColsByCols

variable {B K N M : Nat}

/-- The dimension numbers: contracting [1] × [1], free [2] × [2], batch [0] × [0]. -/
abbrev cdims (w : DotDims.WF ⟨3, ![B, K, N]⟩ ⟨3, ![B, K, M]⟩ ⟨3, ![B, N, M]⟩ [1] [1] [2] [2] [0] [0]) :
    DotDims ⟨3, ![B, K, N]⟩ ⟨3, ![B, K, M]⟩ ⟨3, ![B, N, M]⟩ := ⟨[1], [1], [2], [2], [0], [0], w⟩

variable (w : DotDims.WF ⟨3, ![B, K, N]⟩ ⟨3, ![B, K, M]⟩ ⟨3, ![B, N, M]⟩ [1] [1] [2] [2] [0] [0])

/-- At output entry (b, n, m) and contracted coordinate c the left operand is read at (b, c, n). -/
theorem cols_lhsIdx_eq (b : Fin B) (n : Fin N) (m : Fin M) (c : Fin K) :
    (cdims w).lhsIdx (ix3 b n m) ((contrEquiv1 (cdims w) K rfl rfl).symm c) = ix3 b c n := by
  have hc := contrEquiv1_symm_val (cdims w) K rfl rfl c
  funext a
  apply Fin.ext
  match a with
  | ⟨0, _⟩ => rfl
  | ⟨1, _⟩ => exact ((cdims w).lhsIdx_val_of_single (cl := 1) rfl (ix3 b n m) _).trans hc
  | ⟨2, _⟩ => rfl

/-- And the right operand at (b, c, m). -/
theorem cols_rhsIdx_eq (b : Fin B) (n : Fin N) (m : Fin M) (c : Fin K) :
    (cdims w).rhsIdx (ix3 b n m) ((contrEquiv1 (cdims w) K rfl rfl).symm c) = ix3 b c m := by
  have hc := contrEquiv1_symm_val (cdims w) K rfl rfl c
  funext a
  apply Fin.ext
  match a with
  | ⟨0, _⟩ => rfl
  | ⟨1, _⟩ => exact ((cdims w).rhsIdx_val_of_single (cr := 1) rfl (ix3 b n m) _).trans hc
  | ⟨2, _⟩ => rfl

/-- The product with these dimension numbers into a zero accumulator, over the extended reals, read at (b, n, m): the sum
    over the shared middle coordinate. -/
theorem cols_matmul_zero_apply {φ₁ φ₂ : FTy} (prec : Option ContractPrecision)
    (A : FVec Ideal ⟨3, ![B, K, N]⟩ φ₁) (C : FVec Ideal ⟨3, ![B, K, M]⟩ φ₂) (b : Fin B) (n : Fin N) (m : Fin M) :
    matmul (cdims w) prec A C (constant ⟨3, ![B, N, M]⟩ .f32 0x00000000#32) (ix3 b n m)
      = ∑ c : Fin K, A (ix3 b c n) * C (ix3 b c m) := by
  show FloatOps.matmul _ prec A C (constant (F := Ideal) ⟨3, ![B, N, M]⟩ .f32 0x00000000#32) (ix3 b n m) = _
  rw [Ideal.matmul_constant_zero_apply, ← Equiv.sum_comp (contrEquiv1 (cdims w) K rfl rfl).symm]
  refine Finset.sum_congr rfl fun c _ => ?_
  rw [cols_lhsIdx_eq, cols_rhsIdx_eq]

end ColsByCols

/-! ## A dense layer: a plain product against a transposed weight, plus a bias row -/

section Dense

variable {M K N : Nat}

/-- A bias vector laid as one row and repeated down the rows reads, at (p, j), its entry j. -/
theorem biasRow_apply {α : Type} (x : (⟨1, ![N]⟩ : Shape).Idx → α) (hs : (⟨1, ![N]⟩ : Shape).ShapeCasts ⟨2, ![1, N]⟩)
    (hb : (⟨2, ![1, N]⟩ : Shape).Broadcasts ⟨2, ![M, N]⟩) (p : Fin M) (j : Fin N) :
    broadcastTo ⟨2, ![M, N]⟩ (shapeCast ⟨2, ![1, N]⟩ x hs) hb (ix2 p j) = x (ix1 j) := by
  refine (broadcastTo_apply _ hb (ix2 p j) (ix2 (0 : Fin 1) j) fun a => ?_).trans (RowOfVector.apply x hs j)
  match a with
  | ⟨0, _⟩ => rfl
  | ⟨1, _⟩ =>
    show j.val = if N = 1 then 0 else j.val
    split
    · have := j.isLt; omega
    · rfl

/-- The transpose of an [N, K] weight read at (k, j) is the weight at (j, k). -/
theorem transposed_apply {α : Type} (W : (⟨2, ![N, K]⟩ : Shape).Idx → α)
    (ht : (⟨2, ![N, K]⟩ : Shape).Transposes [1, 0] ⟨2, ![K, N]⟩) (k : Fin K) (j : Fin N) :
    transpose ⟨2, ![K, N]⟩ [1, 0] W ht (ix2 k j) = W (ix2 j k) := by
  refine transpose_apply [1, 0] W ht (ix2 k j) (ix2 j k) fun b => ?_
  match b with
  | ⟨0, _⟩ => rfl
  | ⟨1, _⟩ => rfl

/-- A row block times the transposed weight into a zero accumulator, plus the bias row, at (p, j): row p against row j of
    the weight, plus entry j of the bias. -/
theorem layer_apply {φ₁ φ₂ : FTy} (D : DotDims ⟨2, ![M, K]⟩ ⟨2, ![K, N]⟩ ⟨2, ![M, N]⟩) (hD : D = DotDims.plain M K N)
    (X : FVec Ideal ⟨2, ![M, K]⟩ φ₁) (W : FVec Ideal ⟨2, ![N, K]⟩ φ₂) (bias : FVec Ideal ⟨1, ![N]⟩ .f32)
    (ht : (⟨2, ![N, K]⟩ : Shape).Transposes [1, 0] ⟨2, ![K, N]⟩) (hs : (⟨1, ![N]⟩ : Shape).ShapeCasts ⟨2, ![1, N]⟩)
    (hb : (⟨2, ![1, N]⟩ : Shape).Broadcasts ⟨2, ![M, N]⟩) (p : Fin M) (j : Fin N) :
    addf (matmul D none X (transpose ⟨2, ![K, N]⟩ [1, 0] W ht) (constant ⟨2, ![M, N]⟩ .f32 0x00000000#32))
        (broadcastTo ⟨2, ![M, N]⟩ (shapeCast ⟨2, ![1, N]⟩ bias hs) hb) (ix2 p j)
      = (∑ k : Fin K, X (ix2 p k) * W (ix2 j k)) + bias (ix1 j) := by
  subst hD
  rw [addf_apply, biasRow_apply]
  congr 1
  show FloatOps.matmul (DotDims.plain M K N) none X _ (constant (F := Ideal) ⟨2, ![M, N]⟩ .f32 0x00000000#32) (ix2 p j) = _
  rw [PlainDot.matmul_zero_apply_any]
  refine Finset.sum_congr rfl fun k _ => ?_
  show X (ix2 p k) * transpose ⟨2, ![K, N]⟩ [1, 0] W ht (ix2 k j) = _
  rw [transposed_apply]

end Dense

/-! ## The stages of one row, each over its own variables -/

/-- The weights: the block divided entrywise by the table laid as [1, 16, 16] and repeated over the rows. -/
theorem weights_apply (v0 : FVec Ideal S512x16x16 .f32) (v2 : FVec Ideal S16x16 .f32)
    (h1 : S512x16x16.ShapeCasts S512x16x16) (h2 : S16x16.ShapeCasts S16x16) (h3 : S16x16.ShapeCasts S1x16x16)
    (h4 : S1x16x16.Broadcasts S512x16x16) (p : Fin 512) (c d : Fin 16) :
    divf (shapeCast S512x16x16 v0 h1) (broadcastTo S512x16x16 (shapeCast S1x16x16 (shapeCast S16x16 v2 h2) h3) h4) (ix3 p c d)
      = Ideal.div (v0 (ix3 p c d)) (v2 (ix2 c d)) := by
  rw [divf_apply, shapeCast_self, shapeCast_self]
  congr 1
  refine (broadcastTo_apply _ h4 (ix3 p c d) (ix3 (0 : Fin 1) c d) fun a => ?_).trans ?_
  · match a with
    | ⟨0, _⟩ => rfl
    | ⟨1, _⟩ => rfl
    | ⟨2, _⟩ => rfl
  · refine shapeCast_apply v2 h3 _ (ix2 c d) ?_
    rw [Shape.rowMajor_val_two, Shape.rowMajor_val_three]
    show c.val * 16 + d.val = ((0 : ℕ) * 16 + c.val) * 16 + d.val
    omega

/-- The mix: the batched product of the weights' columns by the values' columns, read at (p, d, e). -/
theorem mix_apply (A : FVec Ideal S512x16x16 .bf16) (V : FVec Ideal S512x16x32 .bf16) (p : Fin 512) (d : Fin 16) (e : Fin 32) :
    matmul dot_S512x16x16_S512x16x32_S512x16x32_1_1_2_2_0_0 none A V (constant S512x16x32 .f32 0x00000000#32) (ix3 p d e)
      = ∑ c : Fin 16, A (ix3 p c d) * V (ix3 p c e) :=
  cols_matmul_zero_apply (B := 512) (K := 16) (N := 16) (M := 32) dot_S512x16x16_S512x16x32_S512x16x32_1_1_2_2_0_0.wf none A V p d e

/-- The flat row: entry (p, k) of the [512, 512] recast is entry (p, k / 32, k % 32). -/
theorem flat_apply {α : Type} (X : S512x16x32.Idx → α) (h : S512x16x32.ShapeCasts S512x512) (p k : Fin 512) :
    shapeCast S512x512 X h (ix2 p k)
      = X (ix3 p (⟨k.val / 32, by have := k.isLt; omega⟩ : Fin 16) (⟨k.val % 32, by omega⟩ : Fin 32)) := by
  refine shapeCast_apply X h _ _ ?_
  rw [Shape.rowMajor_val_three, Shape.rowMajor_val_two]
  show (p.val * 16 + k.val / 32) * 32 + k.val % 32 = p.val * 512 + k.val
  omega

/-- The inserted index of the sum over a row's three logits. -/
theorem lift_row (hr : S512x3.Reduces [1] S512) (p : Fin 512) (k : Fin 3) : hr.lift (ix1 p) k = ix2 p k := by
  funext a
  apply Fin.ext
  match a with
  | ⟨0, _⟩ => rfl
  | ⟨1, _⟩ => rfl

/-- A length-512 vector laid as a [512, 1] column reads, at (p, 0), its entry p. -/
theorem column_apply {α : Type} (x : S512.Idx → α) (hs : S512.ShapeCasts S512x1) (p : Fin 512) :
    shapeCast S512x1 x hs (ix2 p (0 : Fin 1)) = x (ix1 p) := by
  refine shapeCast_apply x hs _ _ ?_
  rw [Shape.rowMajor_val_two, Shape.rowMajor_val_one]
  show p.val = p.val * 1 + (0 : ℕ)
  omega

/-- The [512, 1] column repeated along three columns reads, at (p, r), the column's entry of row p. -/
theorem columnRepeat_apply {α : Type} (v : S512x1.Idx → α) (hb : S512x1.Broadcasts S512x3) (p : Fin 512) (r : Fin 3) :
    broadcastTo S512x3 v hb (ix2 p r) = v (ix2 p (0 : Fin 1)) := by
  refine broadcastTo_apply v hb (ix2 p r) (ix2 p (0 : Fin 1)) fun a => ?_
  match a with
  | ⟨0, _⟩ => rfl
  | ⟨1, _⟩ => rfl

/-- The last step: a [512, 3] array divided, row by row, by the clamped norm of the row. -/
theorem unit_apply (L : FVec Ideal S512x3 .f32) (hr : S512x3.Reduces [1] S512) (hφ : FKind.Formats .f32)
    (hacc : (0x00000000#32 : BitVec 32) = FKind.add.neutral .f32 hφ) (hs : S512.ShapeCasts S512x1)
    (hb : S512x1.Broadcasts S512x3) (p : Fin 512) (r : Fin 3) :
    divf L (broadcastTo S512x3 (maximumf (sqrt (shapeCast S512x1 (multiReduction .add [1] S512 (mulf L L) 0x00000000#32 hr hφ hacc) hs))
        (broadcast S512x1 (Scalar.ofBits .f32 0x2B8CBCCC#32))) hb) (ix2 p r)
      = Cert.Spec.unitize (fun r => L (ix2 p r)) r := by
  rw [divf_apply, columnRepeat_apply _ hb p r, maximumf_apply]
  show Ideal.div (L (ix2 p r))
      (max (Ideal.sqrt (shapeCast S512x1 (multiReduction .add [1] S512 (mulf L L) 0x00000000#32 hr hφ hacc) hs (ix2 p (0 : Fin 1))))
        Cert.Spec.tiny) = _
  rw [column_apply _ hs p, Ideal.multiReduction_add_single]
  unfold Cert.Spec.unitize
  congr 3
  refine Finset.sum_congr rfl fun k _ => ?_
  exact congrArg (fun i => L i * L i) (lift_row hr p k)

/-- The mixed values of row p: from the two blocks and the table to the [512, 16, 32] product, read at (p, d, e). -/
theorem mixed_apply (v0 : FVec Ideal S512x16x16 .f32) (v2 : FVec Ideal S16x16 .f32) (v8 : FVec Ideal S512x16x32 .f32)
    (h1 : S512x16x16.ShapeCasts S512x16x16) (h2 : S16x16.ShapeCasts S16x16) (h3 : S16x16.ShapeCasts S1x16x16)
    (h4 : S1x16x16.Broadcasts S512x16x16) (h5 : S512x16x32.ShapeCasts S512x16x32) (hbits : FTy.bits .bf16 < FTy.bits .f32)
    (p : Fin 512) (d : Fin 16) (e : Fin 32) :
    matmul dot_S512x16x16_S512x16x32_S512x16x32_1_1_2_2_0_0 none
        (truncf .bf16 (divf (shapeCast S512x16x16 v0 h1)
          (broadcastTo S512x16x16 (shapeCast S1x16x16 (shapeCast S16x16 v2 h2) h3) h4)) hbits)
        (truncf .bf16 (shapeCast S512x16x32 v8 h5) hbits) (constant S512x16x32 .f32 0x00000000#32) (ix3 p d e)
      = Cert.Spec.rowMix (fun c d => Ideal.div (v0 (ix3 p c d)) (v2 (ix2 c d))) (fun c e => v8 (ix3 p c e)) d e := by
  rw [mix_apply]
  unfold Cert.Spec.rowMix
  refine Finset.sum_congr rfl fun c _ => ?_
  rw [truncf_apply, truncf_apply, weights_apply, shapeCast_self]

/-- The hidden layer of row p from the mixed values: the flat row against row j of the first weight, plus the bias,
    rectified. -/
theorem hidden_apply (X : FVec Ideal S512x16x32 .f32) (v14 : FVec Ideal S48x512 .f32) (v18 : FVec Ideal S48 .f32)
    (hc : S512x16x32.ShapeCasts S512x512) (hbits : FTy.bits .bf16 < FTy.bits .f32)
    (ht : S48x512.Transposes [1, 0] S512x48) (hs : S48.ShapeCasts S1x48) (hbr : S1x48.Broadcasts S512x48)
    (p : Fin 512) (j : Fin 48) :
    maximumf (addf (matmul dot_S512x512_S512x48_S512x48_1_0_0_1_n_n none (truncf .bf16 (shapeCast S512x512 X hc) hbits)
          (transpose S512x48 [1, 0] (truncf .bf16 v14 hbits) ht) (constant S512x48 .f32 0x00000000#32))
        (broadcastTo S512x48 (shapeCast S1x48 v18 hs) hbr)) (broadcast S512x48 (Scalar.ofBits .f32 0x00000000#32)) (ix2 p j)
      = max ((∑ k : Fin 512, X (ix3 p (⟨k.val / 32, by have := k.isLt; omega⟩ : Fin 16) (⟨k.val % 32, by omega⟩ : Fin 32))
          * v14 (ix2 j k)) + v18 (ix1 j)) Cert.Spec.zero := by
  rw [maximumf_apply, broadcast_apply, layer_apply (M := 512) (K := 512) (N := 48) dot_S512x512_S512x48_S512x48_1_0_0_1_n_n rfl]
  refine congrArg₂ max (congrArg₂ (· + ·) (Finset.sum_congr rfl fun k _ => ?_) rfl) rfl
  rw [truncf_apply, truncf_apply, flat_apply]

/-- The logits of row p from its hidden layer. -/
theorem logits_apply (H : FVec Ideal S512x48 .f32) (v25 : FVec Ideal S3x48 .f32) (v29 : FVec Ideal S3 .f32)
    (hbits : FTy.bits .bf16 < FTy.bits .f32) (ht : S3x48.Transposes [1, 0] S48x3) (hs : S3.ShapeCasts S1x3)
    (hbr : S1x3.Broadcasts S512x3) (p : Fin 512) (r : Fin 3) :
    addf (matmul dot_S512x48_S48x3_S512x3_1_0_0_1_n_n none (truncf .bf16 H hbits)
          (transpose S48x3 [1, 0] (truncf .bf16 v25 hbits) ht) (constant S512x3 .f32 0x00000000#32))
        (broadcastTo S512x3 (shapeCast S1x3 v29 hs) hbr) (ix2 p r)
      = (∑ j : Fin 48, H (ix2 p j) * v25 (ix2 r j)) + v29 (ix1 r) := by
  rw [layer_apply (M := 512) (K := 48) (N := 3) dot_S512x48_S48x3_S512x3_1_0_0_1_n_n rfl]
  rfl

/-- The array of logits read at (p, r): row p's logits. -/
theorem pay2_apply (v0 : Vec Ideal S512x16x16 .f32) (v2 : Vec Ideal S16x16 .f32) (v8 : Vec Ideal S512x16x32 .f32)
    (v14 : Vec Ideal S48x512 .f32) (v18 : Vec Ideal S48 .f32) (v25 : Vec Ideal S3x48 .f32) (v29 : Vec Ideal S3 .f32)
    (p : Fin 512) (r : Fin 3) :
    k1_pay2 v0 v2 v8 v14 v18 v25 v29 (ix2 p r)
      = Cert.Spec.rowLogits (fun c d => Ideal.div (v0 (ix3 p c d)) (v2 (ix2 c d))) (fun c e => v8 (ix3 p c e))
          v14 v18 v25 v29 r := by
  unfold k1_pay2
  dsimp only
  rw [logits_apply]
  unfold Cert.Spec.rowLogits
  refine congrArg₂ (· + ·) (Finset.sum_congr rfl fun j _ => congrArg₂ (· * ·) ?_ rfl) rfl
  rw [hidden_apply]
  unfold Cert.Spec.rowHidden
  refine congrArg₂ max (congrArg₂ (· + ·) (Finset.sum_congr rfl fun k _ => congrArg₂ (· * ·) ?_ rfl) rfl) rfl
  rw [mixed_apply]
  rfl

/-- Entry (p, r) of the block the second call's point writes: row p's result, its weights the block of exponentiated
    scores divided by the table of totals. -/
theorem out_apply (x0 : Vec Ideal S512x16x16 .f32) (x1 : Vec Ideal S512x16x32 .f32) (x2 : Vec Ideal S16x16 .f32)
    (x3 : Vec Ideal S48x512 .f32) (x4 : Vec Ideal S48 .f32) (x5 : Vec Ideal S3x48 .f32) (x6 : Vec Ideal S3 .f32)
    (p : Fin 512) (r : Fin 3) :
    out1_7 x0 x1 x2 x3 x4 x5 x6 (ix2 p r)
      = Cert.Spec.rowOut (fun c d => Ideal.div (x0 (ix3 p c d)) (x2 (ix2 c d))) (fun c e => x1 (ix3 p c e)) x3 x4 x5 x6 r := by
  have hz1 : (![0] : Fin 1 → Nat) = fun _ => 0 := funext fun a => by fin_cases a; rfl
  have hz2 : (![0, 0] : Fin 2 → Nat) = fun _ => 0 := funext fun a => by fin_cases a <;> rfl
  have hz3 : (![0, 0, 0] : Fin 3 → Nat) = fun _ => 0 := funext fun a => by fin_cases a <;> rfl
  unfold out1_7
  rw [View.canon_unit_zero hz2]
  simp only [View.ld_unit_zero (S := S512x16x16) hz3, View.ld_unit_zero (S := S16x16) hz2,
    View.ld_unit_zero (S := S512x16x32) hz3, View.ld_unit_zero (S := S48x512) hz2, View.ld_unit_zero (S := S48) hz1,
    View.ld_unit_zero (S := S3x48) hz2, View.ld_unit_zero (S := S3) hz1]
  unfold k1_pay1 k1_pay3
  dsimp only
  refine (unit_apply (k1_pay2 x0 x2 x1 x3 x4 x5 x6) _ _ _ _ _ p r).trans ?_
  unfold Cert.Spec.rowOut
  congr 1
  funext r'
  exact pay2_apply x0 x2 x1 x3 x4 x5 x6 p r'

end Cert.KernelIdeal.Stage2

end
-- ==== Proof.Stage2Arrays.lean ====
/-
  The array the second call leaves: every row's result, from the arrays it is entered with.
-/
import proofs.«146195_j71253507440717_1_alg».proof.Proof.Gen.KernelIdeal.Frame
import proofs.«146195_j71253507440717_1_alg».proof.Proof.Stage2Pay
import Idealize.ShloMosaic.Lib.Pipeline.Value

noncomputable section

namespace Cert.KernelIdeal.Stage2

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace Blocks

/-- The index maps over the grid: the two row-blocked inputs and the result sit at block `t` of the rows, every
    other coordinate, and every whole window, at block 0. -/
theorem index_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- A point's number is below 128. -/
theorem point_lt (t : Fin cfg1.N) : t.val < 128 := lt_of_lt_of_eq t.isLt N_1

/-- Entry (p, a, b) of the block of exponentiated scores at point `t` is row `512 t + p` of the array. -/
theorem expBlock_apply (c : Dev nD) (t : Fin cfg1.N) (p : Fin 512) (a b : Fin 16) :
    (iblk1 V c 0 t : Vec Ideal S512x16x16 .f32) (ix3 p a b)
      = (V c main_v0_0 : S65536x16x16.Idx → EReal) (ix3 ⟨512 * t.val + p.val, by have := point_lt t; have := p.isLt; omega⟩ a b) := by
  obtain ⟨e0, e1, e2, -⟩ := index_facts t
  unfold iblk1
  rw [View.read_apply]
  show V c main_v0_0 _ = V c main_v0_0 _
  congr 1
  funext d
  apply Fin.ext
  match d with
  | ⟨0, _⟩ => show win1_0.index t (0 : Fin 3) * 512 + 1 * p.val = 512 * t.val + p.val; rw [e0]; omega
  | ⟨1, _⟩ => show win1_0.index t (1 : Fin 3) * 16 + 1 * a.val = a.val; rw [e1]; omega
  | ⟨2, _⟩ => show win1_0.index t (2 : Fin 3) * 16 + 1 * b.val = b.val; rw [e2]; omega

/-- Entry (p, a, e) of the block of values at point `t` is row `512 t + p` of the array. -/
theorem valBlock_apply (c : Dev nD) (t : Fin cfg1.N) (p : Fin 512) (a : Fin 16) (e : Fin 32) :
    (iblk1 V c 1 t : Vec Ideal S512x16x32 .f32) (ix3 p a e)
      = (V c main_v0_1 : S65536x16x32.Idx → EReal) (ix3 ⟨512 * t.val + p.val, by have := point_lt t; have := p.isLt; omega⟩ a e) := by
  obtain ⟨-, -, -, e0, e1, e2, -⟩ := index_facts t
  unfold iblk1
  rw [View.read_apply]
  show V c main_v0_1 _ = V c main_v0_1 _
  congr 1
  funext d
  apply Fin.ext
  match d with
  | ⟨0, _⟩ => show win1_1.index t (0 : Fin 3) * 512 + 1 * p.val = 512 * t.val + p.val; rw [e0]; omega
  | ⟨1, _⟩ => show win1_1.index t (1 : Fin 3) * 16 + 1 * a.val = a.val; rw [e1]; omega
  | ⟨2, _⟩ => show win1_1.index t (2 : Fin 3) * 32 + 1 * e.val = e.val; rw [e2]; omega

/-- The table of totals is read whole at every point: its block is the array. -/
theorem totalsBlock_eq (c : Dev nD) (t : Fin cfg1.N) :
    (iblk1 V c 2 t : Vec Ideal S16x16 .f32) = (V c main_v0_2 : S16x16.Idx → EReal) := by
  obtain ⟨-, -, -, -, -, -, e0, e1, -⟩ := index_facts t
  funext j
  unfold iblk1
  rw [View.read_apply]
  show V c main_v0_2 _ = V c main_v0_2 _
  congr 1
  funext d
  apply Fin.ext
  match d with
  | ⟨0, _⟩ => show win1_2.index t (0 : Fin 2) * 16 + 1 * (j 0).val = (j 0).val; rw [e0]; omega
  | ⟨1, _⟩ => show win1_2.index t (1 : Fin 2) * 16 + 1 * (j 1).val = (j 1).val; rw [e1]; omega

/-- The head's first weight matrix is read whole at every point. -/
theorem w1Block_eq (c : Dev nD) (t : Fin cfg1.N) :
    (iblk1 V c 3 t : Vec Ideal S48x512 .f32) = (V c main_arg8 : S48x512.Idx → EReal) := by
  obtain ⟨-, -, -, -, -, -, -, -, e0, e1, -⟩ := index_facts t
  funext j
  unfold iblk1
  rw [View.read_apply]
  show V c main_arg8 _ = V c main_arg8 _
  congr 1
  funext d
  apply Fin.ext
  match d with
  | ⟨0, _⟩ => show win1_3.index t (0 : Fin 2) * 48 + 1 * (j 0).val = (j 0).val; rw [e0]; omega
  | ⟨1, _⟩ => show win1_3.index t (1 : Fin 2) * 512 + 1 * (j 1).val = (j 1).val; rw [e1]; omega

/-- The head's first bias is read whole at every point. -/
theorem b1Block_eq (c : Dev nD) (t : Fin cfg1.N) :
    (iblk1 V c 4 t : Vec Ideal S48 .f32) = (V c main_arg9 : S48.Idx → EReal) := by
  obtain ⟨-, -, -, -, -, -, -, -, -, -, e0, -⟩ := index_facts t
  funext j
  unfold iblk1
  rw [View.read_apply]
  show V c main_arg9 _ = V c main_arg9 _
  congr 1
  funext d
  apply Fin.ext
  match d with
  | ⟨0, _⟩ => show win1_4.index t (0 : Fin 1) * 48 + 1 * (j 0).val = (j 0).val; rw [e0]; omega

/-- The head's second weight matrix is read whole at every point. -/
theorem w2Block_eq (c : Dev nD) (t : Fin cfg1.N) :
    (iblk1 V c 5 t : Vec Ideal S3x48 .f32) = (V c main_arg10 : S3x48.Idx → EReal) := by
  obtain ⟨-, -, -, -, -, -, -, -, -, -, -, e0, e1, -⟩ := index_facts t
  funext j
  unfold iblk1
  rw [View.read_apply]
  show V c main_arg10 _ = V c main_arg10 _
  congr 1
  funext d
  apply Fin.ext
  match d with
  | ⟨0, _⟩ => show win1_5.index t (0 : Fin 2) * 3 + 1 * (j 0).val = (j 0).val; rw [e0]; omega
  | ⟨1, _⟩ => show win1_5.index t (1 : Fin 2) * 48 + 1 * (j 1).val = (j 1).val; rw [e1]; omega

/-- The head's second bias is read whole at every point. -/
theorem b2Block_eq (c : Dev nD) (t : Fin cfg1.N) :
    (iblk1 V c 6 t : Vec Ideal S3 .f32) = (V c main_arg11 : S3.Idx → EReal) := by
  obtain ⟨-, -, -, -, -, -, -, -, -, -, -, -, -, e0, -⟩ := index_facts t
  funext j
  unfold iblk1
  rw [View.read_apply]
  show V c main_arg11 _ = V c main_arg11 _
  congr 1
  funext d
  apply Fin.ext
  match d with
  | ⟨0, _⟩ => show win1_6.index t (0 : Fin 1) * 3 + 1 * (j 0).val = (j 0).val; rw [e0]; omega

/-- One entry of a point's result block, when the block's row `p` of exponentiated scores and of values is row `q` of
    two arrays: row `q` of the result array those arrays, the table of totals and the head determine. -/
theorem out_row (x0 : Vec Ideal S512x16x16 .f32) (x1 : Vec Ideal S512x16x32 .f32) (x2 : Vec Ideal S16x16 .f32)
    (x3 : Vec Ideal S48x512 .f32) (x4 : Vec Ideal S48 .f32) (x5 : Vec Ideal S3x48 .f32) (x6 : Vec Ideal S3 .f32)
    (E : Cert.Spec.A3 65536 16 16) (VAL : Cert.Spec.A3 65536 16 32) (q : Fin 65536) (p : Fin 512) (r : Fin 3)
    (h0 : ∀ a b, x0 (ix3 p a b) = E (ix3 q a b)) (h1 : ∀ a e, x1 (ix3 p a e) = VAL (ix3 q a e)) :
    out1_7 x0 x1 x2 x3 x4 x5 x6 (ix2 p r) = Cert.Spec.tail (Cert.Spec.weightK E x2) VAL x3 x4 x5 x6 (ix2 q r) := by
  rw [out_apply]
  show Cert.Spec.rowOut _ _ x3 x4 x5 x6 r
    = Cert.Spec.rowOut (fun a b => Cert.Spec.weightK E x2 (ix3 q a b)) (fun a e => VAL (ix3 q a e)) x3 x4 x5 x6 r
  congr 1
  · funext a b
    show Ideal.div (x0 (ix3 p a b)) (x2 (ix2 a b)) = Ideal.div (E (ix3 q a b)) (x2 (ix2 a b))
    rw [h0]
  · funext a e
    exact h1 a e

/-- The result array as one function of the arrays the call is entered with. -/
abbrev resultArr (c : Dev nD) : Cert.Spec.A2 65536 3 :=
  Cert.Spec.tail (Cert.Spec.weightK (V c main_v0_0) (V c main_v0_2)) (V c main_v0_1) (V c main_arg8) (V c main_arg9)
    (V c main_arg10) (V c main_arg11)

/-- What point `t` writes back is block `t` of that array. -/
theorem flushed_eq (c : Dev nD) (t : Fin cfg1.N) :
    (dat1 V c).flushed 7 t = ((cfg1.win 7).blk t).view.read (Elt Ideal) (resultArr V c) := by
  show (cfg1.win 7).cut (grid1.coords t) ((dat1 V c).after 7 t) = _
  rw [after1_7]
  obtain ⟨-, -, -, -, -, -, -, -, -, -, -, -, -, -, e0, e1⟩ := index_facts t
  funext j
  obtain ⟨p, r, rfl⟩ : ∃ (p : Fin 512) (r : Fin 3), j = ix2 p r := ⟨j 0, j 1, eq_ix2 j⟩
  rw [View.read_apply]
  have hemb : ((cfg1.win 7).blk t).view.emb (ix2 p r)
      = (ix2 ⟨512 * t.val + p.val, by have := point_lt t; have := p.isLt; omega⟩ r : S65536x3.Idx) := by
    funext d
    apply Fin.ext
    match d with
    | ⟨0, _⟩ => show win1_7.index t (0 : Fin 2) * 512 + 1 * p.val = 512 * t.val + p.val; rw [e0]; omega
    | ⟨1, _⟩ => show win1_7.index t (1 : Fin 2) * 3 + 1 * r.val = r.val; rw [e1]; omega
  rw [hemb]
  refine (out_row _ _ _ _ _ _ _ (V c main_v0_0) (V c main_v0_1) ⟨512 * t.val + p.val, by have := point_lt t; have := p.isLt; omega⟩ p r
    (fun a b => expBlock_apply V c t p a b) (fun a e => valBlock_apply V c t p a e)).trans ?_
  rw [totalsBlock_eq V c t, w1Block_eq V c t, b1Block_eq V c t, w2Block_eq V c t, b2Block_eq V c t]
  rfl

/-- An index of the result array is in point `t`'s block iff each coordinate is in the block's range on its axis. -/
theorem mem_block (t : Fin cfg1.N) (i : S65536x3.Idx) :
    i ∈ ((cfg1.win 7).blk t).view.set ↔ ∀ a : Fin 2, win1_7.index t a * S512x3.size a ≤ (i a).val
      ∧ (i a).val < win1_7.index t a * S512x3.size a + S512x3.size a := by
  show i ∈ ((View.whole main_v1).slice (win1_7.rect t)).set ↔ _
  rw [View.set_slice_whole, Rect.mem_set_unit]
  exact Iff.rfl

/-- Every row of the result array is in some point's block: row `r` in that of point `r / 512`. -/
theorem covered (i : S65536x3.Idx) :
    ∃ t : Fin cfg1.N, (cfg1.win 7).flush t = true ∧ i ∈ ((cfg1.win 7).blk t).view.set := by
  have hi0 : (i 0).val < 65536 := (i 0).isLt
  have hi1 : (i 1).val < 3 := (i 1).isLt
  have hN : cfg1.N = 128 := N_1
  obtain ⟨t, ht⟩ : ∃ t : Fin cfg1.N, t.val = (i 0).val / 512 := ⟨⟨(i 0).val / 512, by rw [hN]; omega⟩, rfl⟩
  obtain ⟨-, -, -, -, -, -, -, -, -, -, -, -, -, -, e0, e1⟩ := index_facts t
  refine ⟨t, flush1_7 t, ?_⟩
  rw [mem_block]
  intro a
  match a with
  | ⟨0, _⟩ =>
    show win1_7.index t (0 : Fin 2) * 512 ≤ (i 0).val ∧ (i 0).val < win1_7.index t (0 : Fin 2) * 512 + 512
    rw [e0, ht]; omega
  | ⟨1, _⟩ =>
    show win1_7.index t (1 : Fin 2) * 3 ≤ (i 1).val ∧ (i 1).val < win1_7.index t (1 : Fin 2) * 3 + 3
    rw [e1]; omega

end Blocks

/-- After the second call its result array holds every row's result, the weights the first array over the third. -/
theorem arr7 (c : Dev nD) :
    (dat1 V c).arrAt 7 cfg1.N
      = Cert.Spec.tail (Cert.Spec.weightK (V c main_v0_0) (V c main_v0_2)) (V c main_v0_1) (V c main_arg8) (V c main_arg9)
          (V c main_arg10) (V c main_arg11) :=
  (dat1 V c).arrAt_eq_of_cover 7 (Blocks.resultArr V c) (fun t _ => Blocks.flushed_eq V c t) Blocks.covered

end Cert.KernelIdeal.Stage2

end
-- ==== Proof.KernelValue.lean ====
/-
  The kernel program's run read as a value: its result array ends at the specification's tail of the kernel's own
  weights — the exponentiated scores over their batch totals — and the values, all functions of the argument arrays.
  The second call is entered with what the first call left; the arguments reach it unchanged.
-/
import proofs.«146195_j71253507440717_1_alg».proof.Proof.RunNamed
import proofs.«146195_j71253507440717_1_alg».proof.Proof.Stage1Arrays
import proofs.«146195_j71253507440717_1_alg».proof.Proof.Stage2Arrays

noncomputable section

namespace Cert.KernelIdeal.Value

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- The exponentiated scores of the argument arrays. -/
abbrev expoOf (c : Dev nD) : Cert.Spec.A3 65536 16 16 :=
  Cert.Spec.expo (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-- What the result array ends holding. -/
def result (c : Dev nD) : Buf (Elt Ideal) ((c.tc : Thread nD τ).loc main_v1) :=
  Cert.Spec.tail (Cert.Spec.weightK (expoOf m c) (Cert.Spec.total (expoOf m c)))
    (Cert.Spec.vals (m ((c.tc : Thread nD τ).loc main_arg0)) (m ((c.tc : Thread nD τ).loc main_arg1)) (m ((c.tc : Thread nD τ).loc main_arg6)) (m ((c.tc : Thread nD τ).loc main_arg7))) (m ((c.tc : Thread nD τ).loc main_arg8)) (m ((c.tc : Thread nD τ).loc main_arg9)) (m ((c.tc : Thread nD τ).loc main_arg10)) (m ((c.tc : Thread nD τ).loc main_arg11))

/-- The last boundary's contents at the result array: the second call's array, entered with the first call's three. -/
theorem W2_result (c : Dev nD) : W2 m ρ c (Proc.devRef .tc main_v1) = result m c := by
  refine (W2_arr m ρ c 7).trans ?_
  rw [Cert.KernelIdeal.Stage2.arr7 (V1 m ρ) c]
  have e0 : V1 m ρ c main_v0_0 = expoOf m c := (W1_arr m ρ c 8).trans (Cert.KernelIdeal.Stage1.arr8 (V0 m ρ) c)
  have e1 : V1 m ρ c main_v0_1 = Cert.Spec.vals (m ((c.tc : Thread nD τ).loc main_arg0)) (m ((c.tc : Thread nD τ).loc main_arg1)) (m ((c.tc : Thread nD τ).loc main_arg6)) (m ((c.tc : Thread nD τ).loc main_arg7)) :=
    (W1_arr m ρ c 9).trans (Cert.KernelIdeal.Stage1.arr9 (V0 m ρ) c)
  have e2 : V1 m ρ c main_v0_2 = Cert.Spec.total (expoOf m c) :=
    (W1_arr m ρ c 10).trans (Cert.KernelIdeal.Stage1.arr10 (V0 m ρ) c)
  have e8 : V1 m ρ c main_arg8 = (m ((c.tc : Thread nD τ).loc main_arg8)) := W1_of_ne m ρ c main_arg8 (by decide)
  have e9 : V1 m ρ c main_arg9 = (m ((c.tc : Thread nD τ).loc main_arg9)) := W1_of_ne m ρ c main_arg9 (by decide)
  have e10 : V1 m ρ c main_arg10 = (m ((c.tc : Thread nD τ).loc main_arg10)) := W1_of_ne m ρ c main_arg10 (by decide)
  have e11 : V1 m ρ c main_arg11 = (m ((c.tc : Thread nD τ).loc main_arg11)) := W1_of_ne m ρ c main_arg11 (by decide)
  rw [e0, e1, e2, e8, e9, e10, e11]
  rfl

/-- The run: every weakly fair execution terminates with the result array at `result` and the arguments unchanged. -/
theorem run : θ_run defs (onTc (τ := τ) (main (F := Ideal))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c).1.trans (W2_result m ρ c), (h c).2⟩) (run_named (F := Ideal) m ρ)

end Cert.KernelIdeal.Value

end
-- ==== Proof.RefScores.lean ====
/-
  The reference's scores and values are the specification's, entry by entry.
-/
import proofs.«146195_j71253507440717_1_alg».proof.Proof.Gen.ReferenceIdeal.Read
import proofs.«146195_j71253507440717_1_alg».proof.Proof.Spec

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx Idealize.ShloMosaic.StableHlo

/-! ## One dense layer, read at an entry

The reference builds a dense layer as a contraction of the stack's last axis against the weight's second axis,
plus the bias stretched over the batch and row axes. At the entry (b, c, e) this is the specification's `lin`
of row c of block b. -/

/-- The contraction's left operand is read along the row (b, c). -/
theorem lidx_dense (b : Fin 65536) (c : Fin 16) (e k : Fin 32) :
    lidx_main_v0 (ix3 b c e) k = ix3 b c k :=
  funext fun a => Fin.ext (by match a with | ⟨0, _⟩ => rfl | ⟨1, _⟩ => rfl | ⟨2, _⟩ => rfl)

/-- The contraction's right operand is read along row e of the weight. -/
theorem ridx_dense (b : Fin 65536) (c : Fin 16) (e k : Fin 32) :
    ridx_main_v0 (ix3 b c e) k = ix2 e k :=
  funext fun a => Fin.ext (by match a with | ⟨0, _⟩ => rfl | ⟨1, _⟩ => rfl)

/-- The stretched bias is read at e. -/
theorem idx_bias (b : Fin 65536) (c : Fin 16) (e : Fin 32) :
    idx_main_v1 (idx_main_v2 (ix3 b c e)) = ix1 e :=
  funext fun a => Fin.ext (by match a with | ⟨0, _⟩ => rfl)

/-- A dense layer of the reference at the entry (b, c, e). -/
theorem dense_at (x : (⟨S65536x16x32, .f32⟩ : BufTy).Contents (Elt Ideal)) (W : (⟨S32x32, .f32⟩ : BufTy).Contents (Elt Ideal))
    (bias : (⟨S32, .f32⟩ : BufTy).Contents (Elt Ideal)) (b : Fin 65536) (c : Fin 16) (e : Fin 32) :
    val_main_v3 (F := Ideal) x W bias (ix3 b c e) = Cert.Spec.lin W bias (Cert.Spec.row x b c) e := by
  rw [val_main_v3_apply, val_main_v0_apply, val_main_v2_apply, val_main_v1_apply, idx_bias, Ideal.addf_def]
  simp only [lidx_dense, ridx_dense]
  rfl

/-- The product of the layer's two outputs at the entry (b, c, e). -/
theorem pair_at (x0 x1 : (⟨S65536x16x32, .f32⟩ : BufTy).Contents (Elt Ideal)) (W : (⟨S32x32, .f32⟩ : BufTy).Contents (Elt Ideal))
    (bias : (⟨S32, .f32⟩ : BufTy).Contents (Elt Ideal)) (b : Fin 65536) (c : Fin 16) (e : Fin 32) :
    val_main_v8 (F := Ideal) x0 x1 W bias (ix3 b c e)
      = Cert.Spec.pair W bias (Cert.Spec.row x0 b c) (Cert.Spec.row x1 b c) e := by
  have h7 : val_main_v7 (F := Ideal) x1 W bias = val_main_v3 (F := Ideal) x1 W bias := rfl
  rw [val_main_v8_apply, h7, dense_at, dense_at, Ideal.mulf_def]
  rfl

/-! ## A row divided by its clamped norm

The reference squares the row's entries, sums them along the last axis from the zero word, takes the root,
clamps it below by the small constant, stretches the result back along the last axis and divides. At the entry
(b, c, e) this is the specification's `unitize` of the row (b, c). -/

/-- The sum of squares of the row (b, c) is read along that row. -/
theorem idx_norm (b : Fin 65536) (c : Fin 16) (e k : Fin 32) :
    idx_main_v28 (idx_main_v29 (idx_main_v33 (ix3 b c e))) k = ix3 b c k :=
  funext fun a => Fin.ext (by match a with | ⟨0, _⟩ => rfl | ⟨1, _⟩ => rfl | ⟨2, _⟩ => rfl)

/-- The unit row of the reference at the entry (b, c, e). -/
theorem unit_at (x0 x1 : (⟨S65536x16x32, .f32⟩ : BufTy).Contents (Elt Ideal)) (W : (⟨S32x32, .f32⟩ : BufTy).Contents (Elt Ideal))
    (bias : (⟨S32, .f32⟩ : BufTy).Contents (Elt Ideal)) (b : Fin 65536) (c : Fin 16) (e : Fin 32) :
    val_main_v34 (F := Ideal) x0 x1 W bias (ix3 b c e)
      = Cert.Spec.unitize (Cert.Spec.pair W bias (Cert.Spec.row x0 b c) (Cert.Spec.row x1 b c)) e := by
  rw [val_main_v34_apply, val_main_v33_apply, val_main_v32_apply, val_main_v30_apply, val_main_v29_apply,
    val_main_v28_apply, val_main_v31_apply, val_main_cst_0_apply, val_main_cst_apply]
  simp only [val_main_v27_apply, idx_norm, pair_at, Ideal.hostDivf_def, Ideal.maximumf_def, Ideal.hostUnary_sqrt_def,
    Ideal.mulf_def, Ideal.ofBits_def, Ideal.ofBits_zero_f32, zero_add]
  rfl

/-! ## The scores

The batched product contracts the last axes of the unit query rows and the unit key rows, block by block: the
entry (b, c, d) is the sum over e of the unit query row (b, c) at e times the unit key row (b, d) at e. -/

/-- The product's left operand is read along the query row (b, c). -/
theorem lidx_score (b : Fin 65536) (c d : Fin 16) (k : Fin 32) :
    lidx_main_v43 (ix3 b c d) k = ix3 b c k :=
  funext fun a => Fin.ext (by match a with | ⟨0, _⟩ => rfl | ⟨1, _⟩ => rfl | ⟨2, _⟩ => rfl)

/-- The product's right operand is read along the key row (b, d). -/
theorem ridx_score (b : Fin 65536) (c d : Fin 16) (k : Fin 32) :
    ridx_main_v43 (ix3 b c d) k = ix3 b d k :=
  funext fun a => Fin.ext (by match a with | ⟨0, _⟩ => rfl | ⟨1, _⟩ => rfl | ⟨2, _⟩ => rfl)

/-- The reference's score array (its batched product of the unit query and key rows) is the specification's. -/
theorem scores_eq (x0 x1 : (⟨S65536x16x32, .f32⟩ : BufTy).Contents (Elt Ideal)) (x2 : (⟨S32x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) :
    val_main_v43 (F := Ideal) x0 x1 x2 x3 x4 x5 = Cert.Spec.scores x0 x1 x2 x3 x4 x5 := by
  have h42 : val_main_v42 (F := Ideal) x0 x1 x4 x5 = val_main_v34 (F := Ideal) x0 x1 x4 x5 := rfl
  funext j
  obtain ⟨b, c, d, rfl⟩ : ∃ (b : Fin 65536) (c d : Fin 16), j = ix3 b c d := ⟨j 0, j 1, j 2, eq_ix3 j⟩
  rw [val_main_v43_apply, h42]
  simp only [lidx_score, ridx_score, unit_at]
  rfl

/-- The reference's value array is the specification's. -/
theorem vals_eq (x0 x1 : (⟨S65536x16x32, .f32⟩ : BufTy).Contents (Elt Ideal)) (x6 : (⟨S32x32, .f32⟩ : BufTy).Contents (Elt Ideal)) (x7 : (⟨S32, .f32⟩ : BufTy).Contents (Elt Ideal)) :
    val_main_v26 (F := Ideal) x0 x1 x6 x7 = Cert.Spec.vals x0 x1 x6 x7 := by
  have h : val_main_v26 (F := Ideal) x0 x1 x6 x7 = val_main_v8 (F := Ideal) x0 x1 x6 x7 := rfl
  rw [h]
  funext j
  obtain ⟨b, c, e, rfl⟩ : ∃ (b : Fin 65536) (c : Fin 16) (e : Fin 32), j = ix3 b c e := ⟨j 0, j 1, j 2, eq_ix3 j⟩
  rw [pair_at]
  rfl

end Cert.ReferenceIdeal.RefValue

end
-- ==== Proof.RefWeights.lean ====
/-
  The reference's softmax down the batch: the exponentials of the scores less their column maximum, over their totals.
-/
import proofs.«146195_j71253507440717_1_alg».proof.Proof.Gen.ReferenceIdeal.Read
import proofs.«146195_j71253507440717_1_alg».proof.Proof.Spec
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx Idealize.ShloMosaic.StableHlo

/-- Dropping the batch axis of a [65536, 16, 16] array leaves a [16, 16] one. -/
private theorem reduces_batch : S65536x16x16.Reduces [0] S16x16 := by decide

/-- Over the entry (c, d) of the table, the batch coordinate b sits at (b, c, d). -/
private theorem lift_batch (c d : Fin 16) (b : Fin 65536) :
    reduces_batch.lift (ix2 c d) b = ix3 b c d := by
  funext e
  apply Fin.ext
  match e with
  | ⟨0, _⟩ => rfl
  | ⟨1, _⟩ => rfl
  | ⟨2, _⟩ => rfl

/-- The maximum down the batch, entry by entry: the fold of `max` from -∞ over the batch. -/
private theorem fold_batch (a : (⟨S65536x16x16, .f32⟩ : BufTy).Contents (Elt Ideal)) (c d : Fin 16) :
    Host.reduce (FloatOps.maximumf (F := Ideal) (φ := .f32)) a (val_main_cst_3 (F := Ideal)) reducesTo_S65536x16x16_S16x16_d0 h_S_ (ix2 c d)
      = (Finset.univ : Finset (Fin 65536)).fold max Cert.Spec.negInf (fun b => a (ix3 b c d)) := by
  have hf : (FloatOps.maximumf (F := Ideal) (φ := .f32)) = (max : EReal → EReal → EReal) := by
    funext x y; rfl
  rw [hf, Host.reduce_eq_fold_single (max : EReal → EReal → EReal) a _ reducesTo_S65536x16x16_S16x16_d0 reduces_batch h_S_ (ix2 c d)]
  have hx : (a ∘ reduces_batch.lift (ix2 c d)) = (fun b : Fin 65536 => a (ix3 b c d)) :=
    funext fun b => congrArg a (lift_batch c d b)
  rw [hx]
  rfl

/-- The two broadcasts of a [16, 16] table up to [65536, 16, 16] read the table at the last two coordinates. -/
private theorem table_idx_peak (b : Fin 65536) (c d : Fin 16) : idx_main_v47 (idx_main_v48 (ix3 b c d)) = ix2 c d := by
  funext e
  apply Fin.ext
  match e with
  | ⟨0, _⟩ => rfl
  | ⟨1, _⟩ => rfl

private theorem table_idx_total (b : Fin 65536) (c d : Fin 16) : idx_main_v52 (idx_main_v53 (ix3 b c d)) = ix2 c d := by
  funext e
  apply Fin.ext
  match e with
  | ⟨0, _⟩ => rfl
  | ⟨1, _⟩ => rfl

/-- The total's k-th term over the entry (c, d) is read at (k, c, d). -/
private theorem total_idx (c d : Fin 16) (k : Fin 65536) : idx_main_v51 (ix2 c d) k = ix3 k c d := by
  funext e
  apply Fin.ext
  match e with
  | ⟨0, _⟩ => rfl
  | ⟨1, _⟩ => rfl
  | ⟨2, _⟩ => rfl

/-- The table the reference subtracts is the scores' maximum down the batch, taken once more against -∞. -/
private theorem peak_read (x0 x1 : (⟨S65536x16x32, .f32⟩ : BufTy).Contents (Elt Ideal)) (x2 : (⟨S32x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (c d : Fin 16) :
    val_main_v46 (F := Ideal) x0 x1 x2 x3 x4 x5 (ix2 c d) = Cert.Spec.peak (val_main_v43 (F := Ideal) x0 x1 x2 x3 x4 x5) (ix2 c d) := by
  rw [val_main_v46_apply, val_main_v45_apply, val_main_cst_4_apply]
  unfold val_main_v44
  rw [fold_batch]
  rfl

/-- The exponentials of the shifted scores, read at an entry. -/
private theorem expo_read (x0 x1 : (⟨S65536x16x32, .f32⟩ : BufTy).Contents (Elt Ideal)) (x2 : (⟨S32x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (b : Fin 65536) (c d : Fin 16) :
    val_main_v50 (F := Ideal) x0 x1 x2 x3 x4 x5 (ix3 b c d)
      = Ideal.exp ((val_main_v43 (F := Ideal) x0 x1 x2 x3 x4 x5) (ix3 b c d) - Cert.Spec.peak (val_main_v43 (F := Ideal) x0 x1 x2 x3 x4 x5) (ix2 c d)) := by
  rw [val_main_v50_apply, val_main_v49_apply, val_main_v48_apply, val_main_v47_apply, table_idx_peak, peak_read]
  simp only [Ideal.hostUnary_exp_def, Ideal.subf_def]

/-- The reference's weights are the shifted form, the shift the column maximum as the host folds it. -/
theorem weights_eq (x0 x1 : (⟨S65536x16x32, .f32⟩ : BufTy).Contents (Elt Ideal)) (x2 : (⟨S32x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) :
    val_main_v54 (F := Ideal) x0 x1 x2 x3 x4 x5
      = Cert.Spec.weightShift (val_main_v43 (F := Ideal) x0 x1 x2 x3 x4 x5) (Cert.Spec.peak (val_main_v43 (F := Ideal) x0 x1 x2 x3 x4 x5)) := by
  funext j
  obtain ⟨b, c, d, rfl⟩ : ∃ (b : Fin 65536) (c d : Fin 16), j = ix3 b c d := ⟨j 0, j 1, j 2, eq_ix3 j⟩
  rw [val_main_v54_apply, val_main_v53_apply, val_main_v52_apply, table_idx_total, val_main_v51_apply, expo_read]
  simp only [total_idx, expo_read]
  generalize (val_main_v43 (F := Ideal) x0 x1 x2 x3 x4 x5) = a
  rfl

end Cert.ReferenceIdeal.RefValue

end
-- ==== Proof.RefTail.lean ====
/-
  The reference from its weights and values to its result: the mix, the flattening, the two-layer head, the final
  division by the clamped norm.
-/
import proofs.«146195_j71253507440717_1_alg».proof.Proof.Gen.ReferenceIdeal.Read
import proofs.«146195_j71253507440717_1_alg».proof.Proof.Spec

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx Idealize.ShloMosaic.StableHlo

/-! ## Where each layout step reads its operand -/

/-- The mix reads the weights at (b, c, d). -/
private theorem lidx55 (b : Fin 65536) (d : Fin 16) (e : Fin 32) (k : Fin 16) :
    lidx_main_v55 (ix3 b d e) k = ix3 b k d :=
  funext fun a => Fin.ext (by match a with | ⟨0, _⟩ => rfl | ⟨1, _⟩ => rfl | ⟨2, _⟩ => rfl)

/-- The mix reads the values at (b, c, e). -/
private theorem ridx55 (b : Fin 65536) (d : Fin 16) (e : Fin 32) (k : Fin 16) :
    ridx_main_v55 (ix3 b d e) k = ix3 b k e :=
  funext fun a => Fin.ext (by match a with | ⟨0, _⟩ => rfl | ⟨1, _⟩ => rfl | ⟨2, _⟩ => rfl)

/-- Entry k of the flattened row is entry (k / 32, k % 32) of the block. -/
private theorem idx56 (b : Fin 65536) (k : Fin 512) :
    idx_main_v56 (ix2 b k) = ix3 b (⟨k.val / 32, by have := k.isLt; omega⟩ : Fin 16) (⟨k.val % 32, by omega⟩ : Fin 32) :=
  funext fun a => Fin.ext (by
    have hb := b.isLt
    have hk := k.isLt
    match a with
    | ⟨0, _⟩ => show (b.val * 512 + k.val) / 512 = b.val; omega
    | ⟨1, _⟩ => show (b.val * 512 + k.val) / 32 % 16 = k.val / 32; omega
    | ⟨2, _⟩ => show (b.val * 512 + k.val) % 32 = k.val % 32; omega)

private theorem lidx58 (b : Fin 65536) (j : Fin 48) (k : Fin 512) : lidx_main_v58 (ix2 b j) k = ix2 b k :=
  funext fun a => Fin.ext (by match a with | ⟨0, _⟩ => rfl | ⟨1, _⟩ => rfl)

private theorem ridx58 (b : Fin 65536) (j : Fin 48) (k : Fin 512) : ridx_main_v58 (ix2 b j) k = ix2 k j :=
  funext fun a => Fin.ext (by match a with | ⟨0, _⟩ => rfl | ⟨1, _⟩ => rfl)

private theorem idx57 (k : Fin 512) (j : Fin 48) : idx_main_v57 (ix2 k j) = ix2 j k :=
  funext fun a => Fin.ext (by match a with | ⟨0, _⟩ => rfl | ⟨1, _⟩ => rfl)

private theorem idx60 (b : Fin 65536) (j : Fin 48) : idx_main_v59 (idx_main_v60 (ix2 b j)) = ix1 j :=
  funext fun a => Fin.ext (by match a with | ⟨0, _⟩ => rfl)

private theorem lidx64 (b : Fin 65536) (r : Fin 3) (k : Fin 48) : lidx_main_v64 (ix2 b r) k = ix2 b k :=
  funext fun a => Fin.ext (by match a with | ⟨0, _⟩ => rfl | ⟨1, _⟩ => rfl)

private theorem ridx64 (b : Fin 65536) (r : Fin 3) (k : Fin 48) : ridx_main_v64 (ix2 b r) k = ix2 k r :=
  funext fun a => Fin.ext (by match a with | ⟨0, _⟩ => rfl | ⟨1, _⟩ => rfl)

private theorem idx63 (k : Fin 48) (r : Fin 3) : idx_main_v63 (ix2 k r) = ix2 r k :=
  funext fun a => Fin.ext (by match a with | ⟨0, _⟩ => rfl | ⟨1, _⟩ => rfl)

private theorem idx66 (b : Fin 65536) (r : Fin 3) : idx_main_v65 (idx_main_v66 (ix2 b r)) = ix1 r :=
  funext fun a => Fin.ext (by match a with | ⟨0, _⟩ => rfl)

private theorem idx69 (b : Fin 65536) (r k : Fin 3) :
    idx_main_v69 (idx_main_v70 (idx_main_v74 (ix2 b r))) k = ix2 b k :=
  funext fun a => Fin.ext (by match a with | ⟨0, _⟩ => rfl | ⟨1, _⟩ => rfl)

section
variable (x0 x1 : (⟨S65536x16x32, .f32⟩ : BufTy).Contents (Elt Ideal)) (x2 : (⟨S32x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S48x512, .f32⟩ : BufTy).Contents (Elt Ideal)) (x9 : (⟨S48, .f32⟩ : BufTy).Contents (Elt Ideal)) (x10 : (⟨S3x48, .f32⟩ : BufTy).Contents (Elt Ideal)) (x11 : (⟨S3, .f32⟩ : BufTy).Contents (Elt Ideal))

/-! ## The layers, each read at explicit coordinates -/

/-- The mix of row b. -/
private theorem v55_at (b : Fin 65536) (d : Fin 16) (e : Fin 32) :
    val_main_v55 (F := Ideal) x0 x1 x2 x3 x4 x5 x6 x7 (ix3 b d e)
      = Cert.Spec.rowMix (fun c d => val_main_v54 (F := Ideal) x0 x1 x2 x3 x4 x5 (ix3 b c d))
          (fun c e => val_main_v26 (F := Ideal) x0 x1 x6 x7 (ix3 b c e)) d e := by
  rw [val_main_v55_apply]
  unfold Cert.Spec.rowMix
  refine Finset.sum_congr rfl fun k _ => ?_
  rw [lidx55, ridx55]

/-- The flattened mix of row b. -/
private theorem v56_at (b : Fin 65536) (k : Fin 512) :
    val_main_v56 (F := Ideal) x0 x1 x2 x3 x4 x5 x6 x7 (ix2 b k)
      = Cert.Spec.rowFlat (fun c d => val_main_v54 (F := Ideal) x0 x1 x2 x3 x4 x5 (ix3 b c d))
          (fun c e => val_main_v26 (F := Ideal) x0 x1 x6 x7 (ix3 b c e)) k := by
  rw [val_main_v56_apply, idx56, v55_at]
  rfl

/-- The first layer of the head with its rectifier. -/
private theorem v62_at (b : Fin 65536) (j : Fin 48) :
    val_main_v62 (F := Ideal) x0 x1 x2 x3 x4 x5 x6 x7 x8 x9 (ix2 b j)
      = Cert.Spec.rowHidden (fun c d => val_main_v54 (F := Ideal) x0 x1 x2 x3 x4 x5 (ix3 b c d))
          (fun c e => val_main_v26 (F := Ideal) x0 x1 x6 x7 (ix3 b c e)) x8 x9 j := by
  rw [val_main_v62_apply, val_main_v61_apply, val_main_v58_apply, val_main_v60_apply, val_main_v59_apply,
    val_main_call0_v0_apply, val_main_call0_cst_apply, idx60]
  unfold Cert.Spec.rowHidden
  rw [Ideal.maximumf_def, Ideal.addf_def]
  have h : ∀ k : Fin 512,
      val_main_v56 (F := Ideal) x0 x1 x2 x3 x4 x5 x6 x7 (lidx_main_v58 (ix2 b j) k)
          * val_main_v57 (F := Ideal) x8 (ridx_main_v58 (ix2 b j) k)
        = Cert.Spec.rowFlat (fun c d => val_main_v54 (F := Ideal) x0 x1 x2 x3 x4 x5 (ix3 b c d))
            (fun c e => val_main_v26 (F := Ideal) x0 x1 x6 x7 (ix3 b c e)) k * x8 (ix2 j k) := fun k => by
    rw [lidx58, ridx58, v56_at, val_main_v57_apply, idx57]
  simp only [h]
  rw [Ideal.ofBits_def]

/-- The second layer of the head. -/
private theorem v67_at (b : Fin 65536) (r : Fin 3) :
    val_main_v67 (F := Ideal) x0 x1 x2 x3 x4 x5 x6 x7 x8 x9 x10 x11 (ix2 b r)
      = Cert.Spec.rowLogits (fun c d => val_main_v54 (F := Ideal) x0 x1 x2 x3 x4 x5 (ix3 b c d))
          (fun c e => val_main_v26 (F := Ideal) x0 x1 x6 x7 (ix3 b c e)) x8 x9 x10 x11 r := by
  rw [val_main_v67_apply, val_main_v64_apply, val_main_v66_apply, val_main_v65_apply, idx66]
  unfold Cert.Spec.rowLogits
  rw [Ideal.addf_def]
  refine congrArg (fun t => t + x11 (ix1 r)) (Finset.sum_congr rfl fun k _ => ?_)
  rw [lidx64, ridx64, v62_at, val_main_v63_apply, idx63]

/-- The clamped norm of the logits of row b. -/
private theorem v74_at (b : Fin 65536) (r : Fin 3) :
    val_main_v74 (F := Ideal) x0 x1 x2 x3 x4 x5 x6 x7 x8 x9 x10 x11 (ix2 b r)
      = max (Ideal.sqrt (∑ k : Fin 3,
          Cert.Spec.rowLogits (fun c d => val_main_v54 (F := Ideal) x0 x1 x2 x3 x4 x5 (ix3 b c d))
            (fun c e => val_main_v26 (F := Ideal) x0 x1 x6 x7 (ix3 b c e)) x8 x9 x10 x11 k
          * Cert.Spec.rowLogits (fun c d => val_main_v54 (F := Ideal) x0 x1 x2 x3 x4 x5 (ix3 b c d))
            (fun c e => val_main_v26 (F := Ideal) x0 x1 x6 x7 (ix3 b c e)) x8 x9 x10 x11 k)) Cert.Spec.tiny := by
  rw [val_main_v74_apply, val_main_v73_apply, val_main_v71_apply, val_main_v70_apply, val_main_v69_apply,
    val_main_v72_apply, val_main_cst_7_apply, val_main_cst_6_apply]
  rw [Ideal.maximumf_def, Ideal.hostUnary_sqrt_def, Ideal.ofBits_def, Ideal.ofBits_zero_f32, zero_add]
  have h : ∀ k : Fin 3,
      val_main_v68 (F := Ideal) x0 x1 x2 x3 x4 x5 x6 x7 x8 x9 x10 x11 (idx_main_v69 (idx_main_v70 (idx_main_v74 (ix2 b r))) k)
        = Cert.Spec.rowLogits (fun c d => val_main_v54 (F := Ideal) x0 x1 x2 x3 x4 x5 (ix3 b c d))
            (fun c e => val_main_v26 (F := Ideal) x0 x1 x6 x7 (ix3 b c e)) x8 x9 x10 x11 k
          * Cert.Spec.rowLogits (fun c d => val_main_v54 (F := Ideal) x0 x1 x2 x3 x4 x5 (ix3 b c d))
            (fun c e => val_main_v26 (F := Ideal) x0 x1 x6 x7 (ix3 b c e)) x8 x9 x10 x11 k := fun k => by
    rw [idx69, val_main_v68_apply, v67_at, Ideal.mulf_def]
  simp only [h]
  rw [Ideal.ofBits_def]

end

/-- The reference's result is the specification's tail of its own weight and value arrays. -/
theorem tail_eq (x0 x1 : (⟨S65536x16x32, .f32⟩ : BufTy).Contents (Elt Ideal)) (x2 : (⟨S32x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S48x512, .f32⟩ : BufTy).Contents (Elt Ideal)) (x9 : (⟨S48, .f32⟩ : BufTy).Contents (Elt Ideal)) (x10 : (⟨S3x48, .f32⟩ : BufTy).Contents (Elt Ideal)) (x11 : (⟨S3, .f32⟩ : BufTy).Contents (Elt Ideal)) :
    val_main_v75 (F := Ideal) x0 x1 x2 x3 x4 x5 x6 x7 x8 x9 x10 x11
      = Cert.Spec.tail (val_main_v54 (F := Ideal) x0 x1 x2 x3 x4 x5) (val_main_v26 (F := Ideal) x0 x1 x6 x7) x8 x9 x10 x11 := by
  funext i
  obtain ⟨b, r, rfl⟩ : ∃ (b : Fin 65536) (r : Fin 3), i = ix2 b r := ⟨i 0, i 1, eq_ix2 i⟩
  rw [val_main_v75_apply, v67_at, v74_at, Ideal.hostDivf_def]
  rfl

end Cert.ReferenceIdeal.RefValue

end
-- ==== Proof.Softmax.lean ====
/-
  Over real scores the two forms of the weights agree: subtracting a column's maximum before exponentiating scales
  numerator and denominator by the same positive real. And the scores are real when the inputs are.
-/
import proofs.«146195_j71253507440717_1_alg».proof.Proof.Spec
import Idealize.ShloMosaic.PureOps.Ideal.Laws

noncomputable section

namespace Cert.Spec

open Idealize.ShloMosaic Idealize.ShloMosaic.ValueIdx

/-- Every entry is a real number. -/
def AllReal {s : Shape} (a : s.Idx → EReal) : Prop := ∀ j, ∃ r : ℝ, a j = (r : EReal)

/-! ## The three constant words -/

/-- The word of -∞ denotes the bottom element. -/
private theorem negInf_eq : negInf = ⊥ := by simp [Ideal.ofBits, Ideal.ieee]

/-- The zero word denotes zero. -/
private theorem zero_eq : zero = 0 := Ideal.ofBits_zero_f32

/-- The clamp is the real 9223372 · 2⁻⁶³. -/
private theorem tiny_eq : tiny = ((9223372 * (2 ^ 63)⁻¹ : ℝ) : EReal) := by
  simp [Ideal.ofBits, Ideal.ieee, -EReal.coe_mul]

/-- The clamp is a positive real. -/
private theorem tiny_pos : ∃ t : ℝ, 0 < t ∧ tiny = (t : EReal) :=
  ⟨9223372 * (2 ^ 63)⁻¹, by positivity, tiny_eq⟩

/-! ## Coercions through sums, maxima and quotients -/

/-- A finite sum of coerced reals is the coercion of the real sum. -/
private theorem coe_sum {ι : Type*} (s : Finset ι) (g : ι → ℝ) :
    (∑ b ∈ s, (g b : EReal)) = ((∑ b ∈ s, g b : ℝ) : EReal) := by
  classical
  induction s using Finset.induction_on with
  | empty => simp
  | insert x s hx ih => rw [Finset.sum_insert hx, Finset.sum_insert hx, ih, EReal.coe_add]

/-- The coercion of a maximum of reals is the maximum of the coercions. -/
private theorem coe_max (x y : ℝ) : ((max x y : ℝ) : EReal) = max (x : EReal) (y : EReal) :=
  EReal.coe_strictMono.monotone.map_max

/-- The fold of max from -∞ over a nonempty family of reals is a real. -/
private theorem fold_max_coe {ι : Type*} (s : Finset ι) (hs : s.Nonempty) (g : ι → ℝ) :
    ∃ m : ℝ, s.fold max (⊥ : EReal) (fun b => (g b : EReal)) = (m : EReal) := by
  induction hs using Finset.Nonempty.cons_induction with
  | singleton x => exact ⟨g x, by simp⟩
  | cons x s hx hs ih =>
    obtain ⟨m, hm⟩ := ih
    exact ⟨max (g x) m, by rw [Finset.fold_cons, hm, coe_max]⟩

/-- The quotient of two reals with a nonzero denominator is the coercion of the real quotient. -/
private theorem div_coe_coe (x y : ℝ) (hy : y ≠ 0) : Ideal.div (x : EReal) (y : EReal) = ((x / y : ℝ) : EReal) := by
  rw [Ideal.div_coe hy, ← EReal.coe_mul, mul_one_div]

/-! ## The two forms of the weights -/

/-- For real numbers: exp(x - m) / (0 + Σ exp(g b - m)) = exp x / Σ exp(g b). -/
private theorem shift_core {ι : Type*} [Fintype ι] [Nonempty ι] (x m : ℝ) (g : ι → ℝ) :
    Ideal.div (Ideal.exp ((x : EReal) - (m : EReal))) (zero + ∑ b : ι, Ideal.exp ((g b : EReal) - (m : EReal)))
      = Ideal.div (Ideal.exp (x : EReal)) (∑ b : ι, Ideal.exp (g b : EReal)) := by
  have hpos : (0 : ℝ) < ∑ b : ι, Real.exp (g b) :=
    Finset.sum_pos (fun b _ => Real.exp_pos _) Finset.univ_nonempty
  have hpos' : (0 : ℝ) < ∑ b : ι, Real.exp (g b - m) :=
    Finset.sum_pos (fun b _ => Real.exp_pos _) Finset.univ_nonempty
  have hL : (∑ b : ι, Ideal.exp ((g b : EReal) - (m : EReal))) = ((∑ b : ι, Real.exp (g b - m) : ℝ) : EReal) := by
    rw [← coe_sum]
    exact Finset.sum_congr rfl fun b _ => by rw [← EReal.coe_sub, Ideal.exp_coe]
  have hR : (∑ b : ι, Ideal.exp (g b : EReal)) = ((∑ b : ι, Real.exp (g b) : ℝ) : EReal) := by
    rw [← coe_sum]
    exact Finset.sum_congr rfl fun b _ => Ideal.exp_coe _
  rw [hL, hR, zero_eq, zero_add, ← EReal.coe_sub, Ideal.exp_coe, Ideal.exp_coe,
    div_coe_coe _ _ hpos'.ne', div_coe_coe _ _ hpos.ne']
  congr 1
  have hs : (∑ b : ι, Real.exp (g b - m)) = (∑ b : ι, Real.exp (g b)) / Real.exp m := by
    rw [Finset.sum_div]
    exact Finset.sum_congr rfl fun b _ => Real.exp_sub _ _
  rw [hs, Real.exp_sub]
  have hm : Real.exp m ≠ 0 := (Real.exp_pos m).ne'
  field_simp

/-- Over real scores, the reference's shifted weights are the kernel's unshifted ones. -/
theorem weightShift_peak_eq (a : A3 65536 16 16) (ha : AllReal a) :
    weightShift a (peak a) = weightK (fun j => Ideal.exp (a j)) (total (fun j => Ideal.exp (a j))) := by
  have ha' : ∀ j, ∃ r : ℝ, a j = (r : EReal) := ha
  choose f hf using ha'
  funext j
  -- the column's maximum is a real number
  obtain ⟨m, hm⟩ : ∃ m : ℝ, peak a (ix2 (j 1) (j 2)) = (m : EReal) := by
    obtain ⟨m, hm⟩ := fold_max_coe (Finset.univ : Finset (Fin 65536)) Finset.univ_nonempty
      (fun b => f (ix3 b (j 1) (j 2)))
    refine ⟨m, ?_⟩
    show max negInf ((Finset.univ : Finset (Fin 65536)).fold max negInf (fun b => a (ix3 b (j 1) (j 2)))) = (m : EReal)
    simp only [hf, negInf_eq]
    rw [hm]
    exact max_eq_right bot_le
  show Ideal.div (Ideal.exp (a j - peak a (ix2 (j 1) (j 2))))
      (zero + ∑ b : Fin 65536, Ideal.exp (a (ix3 b (j 1) (j 2)) - peak a (ix2 (j 1) (j 2))))
    = Ideal.div (Ideal.exp (a j)) (∑ b : Fin 65536, Ideal.exp (a (ix3 b (j 1) (j 2))))
  rw [hm]
  simp only [hf]
  exact shift_core _ _ _

/-! ## Real inputs give real scores -/

/-- An extended real that is a real number. -/
private def IsReal (x : EReal) : Prop := ∃ r : ℝ, x = (r : EReal)

private theorem IsReal.add {x y : EReal} (hx : IsReal x) (hy : IsReal y) : IsReal (x + y) := by
  obtain ⟨r, rfl⟩ := hx; obtain ⟨s, rfl⟩ := hy; exact ⟨r + s, (EReal.coe_add r s).symm⟩

private theorem IsReal.mul {x y : EReal} (hx : IsReal x) (hy : IsReal y) : IsReal (x * y) := by
  obtain ⟨r, rfl⟩ := hx; obtain ⟨s, rfl⟩ := hy; exact ⟨r * s, (EReal.coe_mul r s).symm⟩

private theorem IsReal.sum {n : Nat} {q : Fin n → EReal} (hq : ∀ k, IsReal (q k)) : IsReal (∑ k : Fin n, q k) := by
  choose g hg using hq
  exact ⟨∑ k : Fin n, g k, by rw [← coe_sum]; exact Finset.sum_congr rfl fun k _ => hg k⟩

/-- A real vector divided by its clamped norm is real: the clamped norm is at least the clamp, a positive real. -/
private theorem IsReal.unitize {n : Nat} {q : Fin n → EReal} (hq : ∀ k, IsReal (q k)) (e : Fin n) :
    IsReal (unitize q e) := by
  choose g hg using hq
  obtain ⟨t, ht, htiny⟩ := tiny_pos
  have hsum : (∑ k : Fin n, q k * q k) = ((∑ k : Fin n, g k * g k : ℝ) : EReal) := by
    rw [← coe_sum]
    exact Finset.sum_congr rfl fun k _ => by rw [hg k, ← EReal.coe_mul]
  have hnn : ¬ (∑ k : Fin n, g k * g k) < 0 :=
    not_lt.mpr (Finset.sum_nonneg fun k _ => mul_self_nonneg (g k))
  have hden : (0 : ℝ) < max (Real.sqrt (∑ k : Fin n, g k * g k)) t := lt_max_of_lt_right ht
  refine ⟨g e / max (Real.sqrt (∑ k : Fin n, g k * g k)) t, ?_⟩
  unfold Spec.unitize
  rw [hsum, Ideal.sqrt_coe, if_neg hnn, htiny, ← coe_max, hg e, div_coe_coe _ _ hden.ne']

private theorem IsReal.lin {W : A2 32 32} {bias : A1 32} (hW : AllReal W) (hb : AllReal bias)
    {x : Fin 32 → EReal} (hx : ∀ l, IsReal (x l)) (e : Fin 32) : IsReal (lin W bias x e) :=
  IsReal.add (IsReal.sum fun l => IsReal.mul (hx l) (hW _)) (hb _)

private theorem IsReal.pair {W : A2 32 32} {bias : A1 32} (hW : AllReal W) (hb : AllReal bias)
    {x1 x2 : Fin 32 → EReal} (hx1 : ∀ l, IsReal (x1 l)) (hx2 : ∀ l, IsReal (x2 l)) (e : Fin 32) :
    IsReal (pair W bias x1 x2 e) :=
  IsReal.mul (IsReal.lin hW hb hx1 e) (IsReal.lin hW hb hx2 e)

/-- Real inputs give real scores. -/
theorem scores_real (X1 X2 : A3 65536 16 32) (qW : A2 32 32) (qb : A1 32) (kW : A2 32 32) (kb : A1 32)
    (h1 : AllReal X1) (h2 : AllReal X2) (hqW : AllReal qW) (hqb : AllReal qb) (hkW : AllReal kW) (hkb : AllReal kb) :
    AllReal (scores X1 X2 qW qb kW kb) := by
  intro j
  show IsReal (rowScore qW qb kW kb (row X1 (j 0)) (row X2 (j 0)) (j 1) (j 2))
  unfold rowScore
  refine IsReal.sum fun e => IsReal.mul ?_ ?_
  · exact IsReal.unitize (fun k => IsReal.pair hqW hqb (fun l => h1 _) (fun l => h2 _) k) e
  · exact IsReal.unitize (fun k => IsReal.pair hkW hkb (fun l => h1 _) (fun l => h2 _) k) e

end Cert.Spec

end
-- ==== Proof.Finite.lean ====
/-
  The precondition read: every entry of the first six argument arrays is a real number.

  The predicate is a conjunction, one conjunct per argument array, of "every entry x has |x| < +∞": the absolute
  value, a strict comparison against the broadcast pattern of +∞, and a conjunction over all axes. Over the extended
  reals |x| = max x (-x), so |x| < ⊤ rules out both x = ⊤ and x = ⊥ and leaves a real number.
-/
import proofs.«146195_j71253507440717_1_alg».proof.Proof.Gen.Pre_finite_inputs
import proofs.«146195_j71253507440717_1_alg».proof.Proof.Softmax
import Idealize.ShloMosaic.Lib.ReduceAll

noncomputable section

namespace Cert.Pre_finite_inputs.Decode

open Cert.Pre_finite_inputs Idealize.ShloMosaic Idealize.ShloMosaic.ValueIdx

/-- The rank-0 shape has one index. -/
local instance : Subsingleton S_.Idx := ⟨fun a b => funext fun d => d.elim0⟩

/-- The f32 pattern 0x7F800000 (sign 0, exponent all ones, fraction 0) denotes +∞. -/
theorem ofBits_inf : Ideal.ofBits .f32 0x7F800000#32 = (⊤ : EReal) := by
  simp [Ideal.ofBits, Ideal.ieee]

/-- An extended real whose absolute value max x (-x) is strictly below +∞ is a real number: at x = ⊤ the maximum
    is ⊤, at x = ⊥ it is -⊥ = ⊤, and ⊤ < ⊤ is false. -/
theorem real_of_abs_lt_top (x : EReal) (hx : Ideal.cmp .olt (max x (-x)) (⊤ : EReal) = 1#1) :
    ∃ r : ℝ, x = (r : EReal) := by
  induction x using EReal.rec with
  | bot => simp [Ideal.cmp] at hx
  | coe r => exact ⟨r, rfl⟩
  | top => simp [Ideal.cmp] at hx

/-- One conjunct of the predicate, at any shape: where the conjunction over all axes of |x| < +∞ is one, every entry
    of x is a real number. -/
theorem allReal_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
        (cmpf .olt (Host.absf x) (broadcastInDim s ![] hb (constant S_ .f32 0x7F800000#32))) init hr hu
        ValueIdx.ix0 = 1#1) : Cert.Spec.AllReal x := by
  intro j
  -- the conjunction over all axes is one, so the compared entry at j is one
  have hj := Host.reduce_andi_all _ init hr hu ValueIdx.ix0 e j
  refine real_of_abs_lt_top (x j) ?_
  -- at j the comparison reads |x j| against the pattern of +∞, entry by entry
  rw [← ofBits_inf]
  exact hj

/-- Where the precondition's predicate is all ones, the two input stacks and the query and key layers are real. -/
theorem real_of_pre (a0 a1 : FVec Ideal S65536x16x32 .f32) (a2 : FVec Ideal S32x32 .f32) (a3 : FVec Ideal S32 .f32)
    (a4 : FVec Ideal S32x32 .f32) (a5 : FVec Ideal S32 .f32) (a6 : FVec Ideal S32x32 .f32) (a7 : FVec Ideal S32 .f32)
    (a8 : FVec Ideal S48x512 .f32) (a9 : FVec Ideal S48 .f32) (a10 : FVec Ideal S3x48 .f32) (a11 : FVec Ideal S3 .f32)
    (h : fn (F := Ideal) a0 a1 a2 a3 a4 a5 a6 a7 a8 a9 a10 a11 = fun _ => 1#1) :
    Cert.Spec.AllReal a0 ∧ Cert.Spec.AllReal a1 ∧ Cert.Spec.AllReal a2 ∧ Cert.Spec.AllReal a3 ∧ Cert.Spec.AllReal a4
      ∧ Cert.Spec.AllReal a5 := by
  -- the predicate at its one index: a left-nested conjunction of the twelve per-argument conjuncts
  have h0 := congrFun h ValueIdx.ix0
  dsimp only [fn, fn_part1, fn_part2, fn_part3, andi] at h0
  -- the last six conjuncts (arguments 11 down to 6) are not needed
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  -- the first six, innermost last
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨allReal_of_all a0 _ _ _ _ e0, allReal_of_all a1 _ _ _ _ e1, allReal_of_all a2 _ _ _ _ e2,
    allReal_of_all a3 _ _ _ _ e3, allReal_of_all a4 _ _ _ _ e4, allReal_of_all a5 _ _ _ _ e5⟩

end Cert.Pre_finite_inputs.Decode

end
-- ==== Proof.lean ====
/-
  The certificate of a two-call attention kernel against its jnp reference.

  Both programs compute, for each of 65536 batch rows, query / key / value rows from two input stacks by three shared
  dense layers, the cosine scores of the unit query rows against the unit key rows, weights from the scores by a softmax
  DOWN THE BATCH (entry by entry over the 65536 rows), the weighted values, and a two-layer head whose three outputs are
  divided by their clamped norm. The kernel's first call writes the exponentiated scores, the values and — accumulated
  over its 128 grid points — the batch totals; its second call divides and runs the head. The reference subtracts each
  column's maximum before exponentiating. Over the extended reals the two agree because the scores are real numbers
  when the inputs are finite: the shift scales numerator and denominator by the same positive real.
-/
import proofs.«146195_j71253507440717_1_alg».proof.Defs
import proofs.«146195_j71253507440717_1_alg».proof.Proof.Gen.Kernel
import proofs.«146195_j71253507440717_1_alg».proof.Proof.Gen.Kernel.Frame
import proofs.«146195_j71253507440717_1_alg».proof.Proof.Gen.KernelIdeal
import proofs.«146195_j71253507440717_1_alg».proof.Proof.Gen.KernelIdeal.Frame
import proofs.«146195_j71253507440717_1_alg».proof.Proof.Gen.ReferenceIdeal
import proofs.«146195_j71253507440717_1_alg».proof.Proof.Gen.Pre_finite_inputs
import proofs.«146195_j71253507440717_1_alg».proof.Proof.Gen.ReferenceIdeal.Run
import proofs.«146195_j71253507440717_1_alg».proof.Proof.Gen.ReferenceIdeal.Read
import proofs.«146195_j71253507440717_1_alg».proof.Proof.KernelValue
import proofs.«146195_j71253507440717_1_alg».proof.Proof.RefScores
import proofs.«146195_j71253507440717_1_alg».proof.Proof.RefWeights
import proofs.«146195_j71253507440717_1_alg».proof.Proof.RefTail
import proofs.«146195_j71253507440717_1_alg».proof.Proof.Softmax
import proofs.«146195_j71253507440717_1_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The reference's result, as a function of its argument arrays, is the kernel's `result` at arguments that are real
    in the two stacks and the query and key layers. -/
theorem reference_eq_kernel
    (x0 x1 : Cert.Spec.A3 65536 16 32) (x2 : Cert.Spec.A2 32 32) (x3 : Cert.Spec.A1 32) (x4 : Cert.Spec.A2 32 32)
    (x5 : Cert.Spec.A1 32) (x6 : Cert.Spec.A2 32 32) (x7 : Cert.Spec.A1 32) (x8 : Cert.Spec.A2 48 512) (x9 : Cert.Spec.A1 48)
    (x10 : Cert.Spec.A2 3 48) (x11 : Cert.Spec.A1 3)
    (h0 : Cert.Spec.AllReal x0) (h1 : Cert.Spec.AllReal x1) (h2 : Cert.Spec.AllReal x2) (h3 : Cert.Spec.AllReal x3)
    (h4 : Cert.Spec.AllReal x4) (h5 : Cert.Spec.AllReal x5) :
    Cert.ReferenceIdeal.Read.val_main_v75 (F := Ideal) x0 x1 x2 x3 x4 x5 x6 x7 x8 x9 x10 x11
      = Cert.Spec.tail (Cert.Spec.weightK (Cert.Spec.expo x0 x1 x2 x3 x4 x5) (Cert.Spec.total (Cert.Spec.expo x0 x1 x2 x3 x4 x5)))
          (Cert.Spec.vals x0 x1 x6 x7) x8 x9 x10 x11 := by
  rw [Cert.ReferenceIdeal.RefValue.tail_eq, Cert.ReferenceIdeal.RefValue.weights_eq, Cert.ReferenceIdeal.RefValue.vals_eq,
    Cert.ReferenceIdeal.RefValue.scores_eq,
    Cert.Spec.weightShift_peak_eq _ (Cert.Spec.scores_real x0 x1 x2 x3 x4 x5 h0 h1 h2 h3 h4 h5)]
  rfl

/-- At the ideal values both programs end with the same result array. -/
theorem algebraic : Cert.algebraic_KernelIdeal_ReferenceIdeal := by
  intro m ρ m' ρ' hpre hagree
  refine ⟨fun c => Cert.KernelIdeal.Value.result m c, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  obtain ⟨r0, r1, r2, r3, r4, r5⟩ := Cert.Pre_finite_inputs.Decode.real_of_pre _ _ _ _ _ _ _ _ _ _ _ _ (hpre c)
  rw [Cert.ReferenceIdeal.Read.val_main_v75_eq, a0, a1, a2, a3, a4, a5, a6, a7, a8, a9, a10, a11]
  exact reference_eq_kernel _ _ _ _ _ _ _ _ _ _ _ _ r0 r1 r2 r3 r4 r5

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
